-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S32768x1024 : Shape := ⟨2, ![32768, 1024]⟩
abbrev S65536x1024 : Shape := ⟨2, ![65536, 1024]⟩
abbrev S1024x1024 : Shape := ⟨2, ![1024, 1024]⟩
abbrev S2 : Shape := ⟨1, ![2]⟩
abbrev S6 : Shape := ⟨1, ![6]⟩
abbrev S32 : Shape := ⟨1, ![32]⟩
abbrev S_ : Shape := ⟨0, ![]⟩
abbrev S1 : Shape := ⟨1, ![1]⟩

abbrev nBuf : Space → Nat
  | .hbm => 2
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) (c0_i32_18 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c32768_i32 : BitVec 32 := 32768#32
  let v17 : BitVec 32 := Scalar.muli v8 c32768_i32
  let v29 : BitVec 32 := Scalar.addi v17 c0_i32_18
  let c0_i32_20 : BitVec 32 := 0#32
  ![v29.toNat, 0]
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v34 : BitVec 32 := Scalar.muli v2 c4_i32_24
  let v35 : BitVec 32 := Scalar.addi c0_i32_25 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v36 : BitVec 32 := Scalar.muli v5 c2_i32_26
  let v37 : BitVec 32 := Scalar.addi v35 v36
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v38 : BitVec 32 := Scalar.muli v9 c1_i32_27
  let v39 : BitVec 32 := Scalar.addi v37 v38
  v39.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v61 : BitVec 32 := Scalar.muli v2 c4_i32_44
  let v62 : BitVec 32 := Scalar.addi c0_i32_45 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v63 : BitVec 32 := Scalar.muli v5 c2_i32_46
  let v64 : BitVec 32 := Scalar.addi v62 v63
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_47 : BitVec 32 := 1#32
  let v65 : BitVec 32 := Scalar.muli v9 c1_i32_47
  let v66 : BitVec 32 := Scalar.addi v64 v65
  v66.toNat
def k0_dev4 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v88 : BitVec 32 := Scalar.muli v2 c4_i32_64
  let v89 : BitVec 32 := Scalar.addi c0_i32_65 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v90 : BitVec 32 := Scalar.muli v5 c2_i32_66
  let v91 : BitVec 32 := Scalar.addi v89 v90
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_67 : BitVec 32 := 1#32
  let v92 : BitVec 32 := Scalar.muli v9 c1_i32_67
  let v93 : BitVec 32 := Scalar.addi v91 v92
  v93.toNat
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v115 : BitVec 32 := Scalar.muli v2 c4_i32_83
  let v116 : BitVec 32 := Scalar.addi c0_i32_84 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v117 : BitVec 32 := Scalar.muli v5 c2_i32_85
  let v118 : BitVec 32 := Scalar.addi v116 v117
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v119 : BitVec 32 := Scalar.muli v9 c1_i32_86
  let v120 : BitVec 32 := Scalar.addi v118 v119
  v120.toNat
def k0_dev6 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v142 : BitVec 32 := Scalar.muli v2 c4_i32_103
  let v143 : BitVec 32 := Scalar.addi c0_i32_104 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v144 : BitVec 32 := Scalar.muli v5 c2_i32_105
  let v145 : BitVec 32 := Scalar.addi v143 v144
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_106 : BitVec 32 := 1#32
  let v146 : BitVec 32 := Scalar.muli v9 c1_i32_106
  let v147 : BitVec 32 := Scalar.addi v145 v146
  v147.toNat
def k0_dev7 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v169 : BitVec 32 := Scalar.muli v2 c4_i32_122
  let v170 : BitVec 32 := Scalar.addi c0_i32_123 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v171 : BitVec 32 := Scalar.muli v5 c2_i32_124
  let v172 : BitVec 32 := Scalar.addi v170 v171
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_125 : BitVec 32 := 1#32
  let v173 : BitVec 32 := Scalar.muli v9 c1_i32_125
  let v174 : BitVec 32 := Scalar.addi v172 v173
  v174.toNat
def k0_dev8 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v202 : BitVec 32 := Scalar.muli v2 c4_i32_147
  let v203 : BitVec 32 := Scalar.addi c0_i32_148 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v204 : BitVec 32 := Scalar.muli v5 c2_i32_149
  let v205 : BitVec 32 := Scalar.addi v203 v204
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_150 : BitVec 32 := 1#32
  let v206 : BitVec 32 := Scalar.muli v9 c1_i32_150
  let v207 : BitVec 32 := Scalar.addi v205 v206
  v207.toNat
def k0_dev9 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v235 : BitVec 32 := Scalar.muli v2 c4_i32_172
  let v236 : BitVec 32 := Scalar.addi c0_i32_173 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v237 : BitVec 32 := Scalar.muli v5 c2_i32_174
  let v238 : BitVec 32 := Scalar.addi v236 v237
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_175 : BitVec 32 := 1#32
  let v239 : BitVec 32 := Scalar.muli v9 c1_i32_175
  let v240 : BitVec 32 := Scalar.addi v238 v239
  v240.toNat
def k0_dev10 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_197 : BitVec 32 := 4#32
  let v268 : BitVec 32 := Scalar.muli v2 c4_i32_197
  let v269 : BitVec 32 := Scalar.addi c0_i32_198 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_199 : BitVec 32 := 2#32
  let v270 : BitVec 32 := Scalar.muli v5 c2_i32_199
  let v271 : BitVec 32 := Scalar.addi v269 v270
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_200 : BitVec 32 := 1#32
  let v272 : BitVec 32 := Scalar.muli v9 c1_i32_200
  let v273 : BitVec 32 := Scalar.addi v271 v272
  v273.toNat
def k0_dev11 (d0 : Dev nD) : Nat :=
  let c0_i32_223 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_222 : BitVec 32 := 4#32
  let v301 : BitVec 32 := Scalar.muli v2 c4_i32_222
  let v302 : BitVec 32 := Scalar.addi c0_i32_223 v301
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_224 : BitVec 32 := 2#32
  let v303 : BitVec 32 := Scalar.muli v5 c2_i32_224
  let v304 : BitVec 32 := Scalar.addi v302 v303
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_225 : BitVec 32 := 1#32
  let v305 : BitVec 32 := Scalar.muli v9 c1_i32_225
  let v306 : BitVec 32 := Scalar.addi v304 v305
  v306.toNat
def k0_dev12 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v334 : BitVec 32 := Scalar.muli v2 c4_i32_247
  let v335 : BitVec 32 := Scalar.addi c0_i32_248 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v336 : BitVec 32 := Scalar.muli v5 c2_i32_249
  let v337 : BitVec 32 := Scalar.addi v335 v336
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_250 : BitVec 32 := 1#32
  let v338 : BitVec 32 := Scalar.muli v9 c1_i32_250
  let v339 : BitVec 32 := Scalar.addi v337 v338
  v339.toNat
def k0_dev13 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_272 : BitVec 32 := 4#32
  let v367 : BitVec 32 := Scalar.muli v2 c4_i32_272
  let v368 : BitVec 32 := Scalar.addi c0_i32_273 v367
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v369 : BitVec 32 := Scalar.muli v5 c2_i32_274
  let v370 : BitVec 32 := Scalar.addi v368 v369
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_275 : BitVec 32 := 1#32
  let v371 : BitVec 32 := Scalar.muli v9 c1_i32_275
  let v372 : BitVec 32 := Scalar.addi v370 v371
  v372.toNat
def k0_dev14 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_297 : BitVec 32 := 4#32
  let v400 : BitVec 32 := Scalar.muli v2 c4_i32_297
  let v401 : BitVec 32 := Scalar.addi c0_i32_298 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v402 : BitVec 32 := Scalar.muli v5 c2_i32_299
  let v403 : BitVec 32 := Scalar.addi v401 v402
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_300 : BitVec 32 := 1#32
  let v404 : BitVec 32 := Scalar.muli v9 c1_i32_300
  let v405 : BitVec 32 := Scalar.addi v403 v404
  v405.toNat
def k0_dev15 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v433 : BitVec 32 := Scalar.muli v2 c4_i32_322
  let v434 : BitVec 32 := Scalar.addi c0_i32_323 v433
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v435 : BitVec 32 := Scalar.muli v5 c2_i32_324
  let v436 : BitVec 32 := Scalar.addi v434 v435
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_325 : BitVec 32 := 1#32
  let v437 : BitVec 32 := Scalar.muli v9 c1_i32_325
  let v438 : BitVec 32 := Scalar.addi v436 v437
  v438.toNat
def k0_dev16 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v466 : BitVec 32 := Scalar.muli v2 c4_i32_347
  let v467 : BitVec 32 := Scalar.addi c0_i32_348 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v468 : BitVec 32 := Scalar.muli v5 c2_i32_349
  let v469 : BitVec 32 := Scalar.addi v467 v468
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_350 : BitVec 32 := 1#32
  let v470 : BitVec 32 := Scalar.muli v9 c1_i32_350
  let v471 : BitVec 32 := Scalar.addi v469 v470
  v471.toNat
def k0_dev17 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v499 : BitVec 32 := Scalar.muli v2 c4_i32_372
  let v500 : BitVec 32 := Scalar.addi c0_i32_373 v499
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v501 : BitVec 32 := Scalar.muli v5 c2_i32_374
  let v502 : BitVec 32 := Scalar.addi v500 v501
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_375 : BitVec 32 := 1#32
  let v503 : BitVec 32 := Scalar.muli v9 c1_i32_375
  let v504 : BitVec 32 := Scalar.addi v502 v503
  v504.toNat
def k0_dev18 (d0 : Dev nD) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v532 : BitVec 32 := Scalar.muli v2 c4_i32_397
  let v533 : BitVec 32 := Scalar.addi c0_i32_398 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v534 : BitVec 32 := Scalar.muli v5 c2_i32_399
  let v535 : BitVec 32 := Scalar.addi v533 v534
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_400 : BitVec 32 := 1#32
  let v536 : BitVec 32 := Scalar.muli v9 c1_i32_400
  let v537 : BitVec 32 := Scalar.addi v535 v536
  v537.toNat
def k0_dev19 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v565 : BitVec 32 := Scalar.muli v2 c4_i32_422
  let v566 : BitVec 32 := Scalar.addi c0_i32_423 v565
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v567 : BitVec 32 := Scalar.muli v5 c2_i32_424
  let v568 : BitVec 32 := Scalar.addi v566 v567
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_425 : BitVec 32 := 1#32
  let v569 : BitVec 32 := Scalar.muli v9 c1_i32_425
  let v570 : BitVec 32 := Scalar.addi v568 v569
  v570.toNat
def k0_dev20 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v598 : BitVec 32 := Scalar.muli v2 c4_i32_447
  let v599 : BitVec 32 := Scalar.addi c0_i32_448 v598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v600 : BitVec 32 := Scalar.muli v5 c2_i32_449
  let v601 : BitVec 32 := Scalar.addi v599 v600
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_450 : BitVec 32 := 1#32
  let v602 : BitVec 32 := Scalar.muli v9 c1_i32_450
  let v603 : BitVec 32 := Scalar.addi v601 v602
  v603.toNat
def k0_dev21 (d0 : Dev nD) : Nat :=
  let c0_i32_473 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_472 : BitVec 32 := 4#32
  let v631 : BitVec 32 := Scalar.muli v2 c4_i32_472
  let v632 : BitVec 32 := Scalar.addi c0_i32_473 v631
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_474 : BitVec 32 := 2#32
  let v633 : BitVec 32 := Scalar.muli v5 c2_i32_474
  let v634 : BitVec 32 := Scalar.addi v632 v633
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_475 : BitVec 32 := 1#32
  let v635 : BitVec 32 := Scalar.muli v9 c1_i32_475
  let v636 : BitVec 32 := Scalar.addi v634 v635
  v636.toNat
def k0_dev22 (d0 : Dev nD) : Nat :=
  let c0_i32_498 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_497 : BitVec 32 := 4#32
  let v664 : BitVec 32 := Scalar.muli v2 c4_i32_497
  let v665 : BitVec 32 := Scalar.addi c0_i32_498 v664
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_499 : BitVec 32 := 2#32
  let v666 : BitVec 32 := Scalar.muli v5 c2_i32_499
  let v667 : BitVec 32 := Scalar.addi v665 v666
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_500 : BitVec 32 := 1#32
  let v668 : BitVec 32 := Scalar.muli v9 c1_i32_500
  let v669 : BitVec 32 := Scalar.addi v667 v668
  v669.toNat
def k0_dev23 (d0 : Dev nD) : Nat :=
  let c0_i32_523 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_522 : BitVec 32 := 4#32
  let v697 : BitVec 32 := Scalar.muli v2 c4_i32_522
  let v698 : BitVec 32 := Scalar.addi c0_i32_523 v697
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_524 : BitVec 32 := 2#32
  let v699 : BitVec 32 := Scalar.muli v5 c2_i32_524
  let v700 : BitVec 32 := Scalar.addi v698 v699
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_525 : BitVec 32 := 1#32
  let v701 : BitVec 32 := Scalar.muli v9 c1_i32_525
  let v702 : BitVec 32 := Scalar.addi v700 v701
  v702.toNat
def k0_dev24 (d0 : Dev nD) : Nat :=
  let c0_i32_548 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_547 : BitVec 32 := 4#32
  let v730 : BitVec 32 := Scalar.muli v2 c4_i32_547
  let v731 : BitVec 32 := Scalar.addi c0_i32_548 v730
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_549 : BitVec 32 := 2#32
  let v732 : BitVec 32 := Scalar.muli v5 c2_i32_549
  let v733 : BitVec 32 := Scalar.addi v731 v732
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_550 : BitVec 32 := 1#32
  let v734 : BitVec 32 := Scalar.muli v9 c1_i32_550
  let v735 : BitVec 32 := Scalar.addi v733 v734
  v735.toNat
def k0_dev25 (d0 : Dev nD) : Nat :=
  let c0_i32_573 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_572 : BitVec 32 := 4#32
  let v763 : BitVec 32 := Scalar.muli v2 c4_i32_572
  let v764 : BitVec 32 := Scalar.addi c0_i32_573 v763
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_574 : BitVec 32 := 2#32
  let v765 : BitVec 32 := Scalar.muli v5 c2_i32_574
  let v766 : BitVec 32 := Scalar.addi v764 v765
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_575 : BitVec 32 := 1#32
  let v767 : BitVec 32 := Scalar.muli v9 c1_i32_575
  let v768 : BitVec 32 := Scalar.addi v766 v767
  v768.toNat
def k0_dev26 (d0 : Dev nD) : Nat :=
  let c0_i32_598 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_597 : BitVec 32 := 4#32
  let v796 : BitVec 32 := Scalar.muli v2 c4_i32_597
  let v797 : BitVec 32 := Scalar.addi c0_i32_598 v796
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_599 : BitVec 32 := 2#32
  let v798 : BitVec 32 := Scalar.muli v5 c2_i32_599
  let v799 : BitVec 32 := Scalar.addi v797 v798
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_600 : BitVec 32 := 1#32
  let v800 : BitVec 32 := Scalar.muli v9 c1_i32_600
  let v801 : BitVec 32 := Scalar.addi v799 v800
  v801.toNat
def k0_dev27 (d0 : Dev nD) : Nat :=
  let c0_i32_623 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_622 : BitVec 32 := 4#32
  let v829 : BitVec 32 := Scalar.muli v2 c4_i32_622
  let v830 : BitVec 32 := Scalar.addi c0_i32_623 v829
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_624 : BitVec 32 := 2#32
  let v831 : BitVec 32 := Scalar.muli v5 c2_i32_624
  let v832 : BitVec 32 := Scalar.addi v830 v831
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_625 : BitVec 32 := 1#32
  let v833 : BitVec 32 := Scalar.muli v9 c1_i32_625
  let v834 : BitVec 32 := Scalar.addi v832 v833
  v834.toNat
def k0_dev28 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_647 : BitVec 32 := 4#32
  let v862 : BitVec 32 := Scalar.muli v2 c4_i32_647
  let v863 : BitVec 32 := Scalar.addi c0_i32_648 v862
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_649 : BitVec 32 := 2#32
  let v864 : BitVec 32 := Scalar.muli v5 c2_i32_649
  let v865 : BitVec 32 := Scalar.addi v863 v864
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_650 : BitVec 32 := 1#32
  let v866 : BitVec 32 := Scalar.muli v9 c1_i32_650
  let v867 : BitVec 32 := Scalar.addi v865 v866
  v867.toNat
def k0_dev29 (d0 : Dev nD) : Nat :=
  let c0_i32_673 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_672 : BitVec 32 := 4#32
  let v895 : BitVec 32 := Scalar.muli v2 c4_i32_672
  let v896 : BitVec 32 := Scalar.addi c0_i32_673 v895
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_674 : BitVec 32 := 2#32
  let v897 : BitVec 32 := Scalar.muli v5 c2_i32_674
  let v898 : BitVec 32 := Scalar.addi v896 v897
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_675 : BitVec 32 := 1#32
  let v899 : BitVec 32 := Scalar.muli v9 c1_i32_675
  let v900 : BitVec 32 := Scalar.addi v898 v899
  v900.toNat
def k0_dev30 (d0 : Dev nD) : Nat :=
  let c0_i32_698 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_697 : BitVec 32 := 4#32
  let v928 : BitVec 32 := Scalar.muli v2 c4_i32_697
  let v929 : BitVec 32 := Scalar.addi c0_i32_698 v928
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_699 : BitVec 32 := 2#32
  let v930 : BitVec 32 := Scalar.muli v5 c2_i32_699
  let v931 : BitVec 32 := Scalar.addi v929 v930
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_700 : BitVec 32 := 1#32
  let v932 : BitVec 32 := Scalar.muli v9 c1_i32_700
  let v933 : BitVec 32 := Scalar.addi v931 v932
  v933.toNat
def k0_dev31 (d0 : Dev nD) : Nat :=
  let c0_i32_723 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_722 : BitVec 32 := 4#32
  let v961 : BitVec 32 := Scalar.muli v2 c4_i32_722
  let v962 : BitVec 32 := Scalar.addi c0_i32_723 v961
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_724 : BitVec 32 := 2#32
  let v963 : BitVec 32 := Scalar.muli v5 c2_i32_724
  let v964 : BitVec 32 := Scalar.addi v962 v963
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_725 : BitVec 32 := 1#32
  let v965 : BitVec 32 := Scalar.muli v9 c1_i32_725
  let v966 : BitVec 32 := Scalar.addi v964 v965
  v966.toNat
def k0_dev32 (d0 : Dev nD) : Nat :=
  let c0_i32_748 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_747 : BitVec 32 := 4#32
  let v994 : BitVec 32 := Scalar.muli v2 c4_i32_747
  let v995 : BitVec 32 := Scalar.addi c0_i32_748 v994
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_749 : BitVec 32 := 2#32
  let v996 : BitVec 32 := Scalar.muli v5 c2_i32_749
  let v997 : BitVec 32 := Scalar.addi v995 v996
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_750 : BitVec 32 := 1#32
  let v998 : BitVec 32 := Scalar.muli v9 c1_i32_750
  let v999 : BitVec 32 := Scalar.addi v997 v998
  v999.toNat
def k0_dev33 (d0 : Dev nD) : Nat :=
  let c0_i32_773 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_772 : BitVec 32 := 4#32
  let v1027 : BitVec 32 := Scalar.muli v2 c4_i32_772
  let v1028 : BitVec 32 := Scalar.addi c0_i32_773 v1027
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_774 : BitVec 32 := 2#32
  let v1029 : BitVec 32 := Scalar.muli v5 c2_i32_774
  let v1030 : BitVec 32 := Scalar.addi v1028 v1029
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_775 : BitVec 32 := 1#32
  let v1031 : BitVec 32 := Scalar.muli v9 c1_i32_775
  let v1032 : BitVec 32 := Scalar.addi v1030 v1031
  v1032.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S32768x1024_S1024x1024_0_0 : ∀ a, (![0, 0] : Fin 2 → Nat) a + S1024x1024.size a ≤ S32768x1024.size a
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S6_S1_0 : ∀ a, (![0] : Fin 1 → Nat) a + S1.size a ≤ S6.size a
  inb_S32_S1_0 : ∀ a, (![0] : Fin 1 → Nat) a + S1.size a ≤ S32.size a
  inb_S2_S1_1 : ∀ a, (![1] : Fin 1 → Nat) a + S1.size a ≤ S2.size a
  inb_S32768x1024_S1024x1024_1024_0 : ∀ a, (![1024, 0] : Fin 2 → Nat) a + S1024x1024.size a ≤ S32768x1024.size a
  inb_S6_S1_1 : ∀ a, (![1] : Fin 1 → Nat) a + S1.size a ≤ S6.size a
  inb_S32_S1_1 : ∀ a, (![1] : Fin 1 → Nat) a + S1.size a ≤ S32.size a
  inb_S32768x1024_S1024x1024_2048_0 : ∀ a, (![2048, 0] : Fin 2 → Nat) a + S1024x1024.size a ≤ S32768x1024.size a
  inb_S6_S1_2 : ∀ a, (![2] : Fin 1 → Nat) a + S1.size a ≤ S6.size a
  inb_S32_S1_2 : ∀ a, (![2] : Fin 1 → Nat) a + S1.size a ≤ S32.size a
  inb_S32768x1024_S1024x1024_3072_0 : ∀ a, (![3072, 0] : Fin 2 → Nat) a + S1024x1024.size a ≤ S32768x1024.size a
  inb_S6_S1_3 : ∀ a, (![3] : Fin 1 → Nat) a + S1.size a ≤ S6.size a
  inb_S32_S1_3 : ∀ a, (![3] : Fin 1 → Nat) a + S1.size a ≤ S32.size a
  inb_S32768x1024_S1024x1024_4096_0 : ∀ a, (![4096, 0] : Fin 2 → Nat) a + S1024x1024.size a ≤ S32768x1024.size a
  inb_S6_S1_4 : ∀ a, (![4] : Fin 1 → Nat) a + S1.size a ≤ S6.size a
  inb_S32_S1_4 : ∀ a, (![4] : Fin 1 → Nat) a + S1.size a ≤ S32.size a
  inb_S32768x1024_S1024x1024_5120_0 : ∀ a, (![5120, 0] : Fin 2 → Nat) a + S1024x1024.size a ≤ S32768x1024.size a
  inb_S6_S1_5 : ∀ a, (![5] : Fin 1 → Nat) a + S1.size a ≤ S6.size a
  inb_S32_S1_5 : ∀ a, (![5] : Fin 1 → Nat) a + S1.size a ≤ S32.size a
  inb_S32768x1024_S1024x1024_6144_0 : ∀ a, (![6144, 0] : Fin 2 → Nat) a + S1024x1024.size a ≤ S32768x1024.size a
  inb_S32_S1_6 : ∀ a, (![6] : Fin 1 → Nat) a + S1.size a ≤ S32.size a
  inb_S32768x1024_S1024x1024_7168_0 : ∀ a, (![7168, 0] : Fin 2 → Nat) a + S1024x1024.size a ≤ S32768x1024.size a
  inb_S32_S1_7 : ∀ a, (![7] : Fin 1 → Nat) a + S1.size a ≤ S32.size a
  inb_S32768x1024_S1024x1024_8192_0 : ∀ a, (![8192, 0] : Fin 2 → Nat) a + S1024x1024.size a ≤ S32768x1024.size a
  inb_S32_S1_8 : ∀ a, (![8] : Fin 1 → Nat) a + S1.size a ≤ S32.size a
  inb_S32768x1024_S1024x1024_9216_0 : ∀ a, (![9216, 0] : Fin 2 → Nat) a + S1024x1024.size a ≤ S32768x1024.size a
  inb_S32_S1_9 : ∀ a, (![9] : Fin 1 → Nat) a + S1.size a ≤ S32.size a
  inb_S32768x1024_S1024x1024_10240_0 : ∀ a, (![10240, 0] : Fin 2 → Nat) a + S1024x1024.size a ≤ S32768x1024.size a
  inb_S32_S1_10 : ∀ a, (![10] : Fin 1 → Nat) a + S1.size a ≤ S32.size a
  inb_S32768x1024_S1024x1024_11264_0 : ∀ a, (![11264, 0] : Fin 2 → Nat) a + S1024x1024.size a ≤ S32768x1024.size a
  inb_S32_S1_11 : ∀ a, (![11] : Fin 1 → Nat) a + S1.size a ≤ S32.size a
  inb_S32768x1024_S1024x1024_12288_0 : ∀ a, (![12288, 0] : Fin 2 → Nat) a + S1024x1024.size a ≤ S32768x1024.size a
  inb_S32_S1_12 : ∀ a, (![12] : Fin 1 → Nat) a + S1.size a ≤ S32.size a
  inb_S32768x1024_S1024x1024_13312_0 : ∀ a, (![13312, 0] : Fin 2 → Nat) a + S1024x1024.size a ≤ S32768x1024.size a
  inb_S32_S1_13 : ∀ a, (![13] : Fin 1 → Nat) a + S1.size a ≤ S32.size a
  inb_S32768x1024_S1024x1024_14336_0 : ∀ a, (![14336, 0] : Fin 2 → Nat) a + S1024x1024.size a ≤ S32768x1024.size a
  inb_S32_S1_14 : ∀ a, (![14] : Fin 1 → Nat) a + S1.size a ≤ S32.size a
  inb_S32768x1024_S1024x1024_15360_0 : ∀ a, (![15360, 0] : Fin 2 → Nat) a + S1024x1024.size a ≤ S32768x1024.size a
  inb_S32_S1_15 : ∀ a, (![15] : Fin 1 → Nat) a + S1.size a ≤ S32.size a
  inb_S32768x1024_S1024x1024_16384_0 : ∀ a, (![16384, 0] : Fin 2 → Nat) a + S1024x1024.size a ≤ S32768x1024.size a
  inb_S32_S1_16 : ∀ a, (![16] : Fin 1 → Nat) a + S1.size a ≤ S32.size a
  inb_S32768x1024_S1024x1024_17408_0 : ∀ a, (![17408, 0] : Fin 2 → Nat) a + S1024x1024.size a ≤ S32768x1024.size a
  inb_S32_S1_17 : ∀ a, (![17] : Fin 1 → Nat) a + S1.size a ≤ S32.size a
  inb_S32768x1024_S1024x1024_18432_0 : ∀ a, (![18432, 0] : Fin 2 → Nat) a + S1024x1024.size a ≤ S32768x1024.size a
  inb_S32_S1_18 : ∀ a, (![18] : Fin 1 → Nat) a + S1.size a ≤ S32.size a
  inb_S32768x1024_S1024x1024_19456_0 : ∀ a, (![19456, 0] : Fin 2 → Nat) a + S1024x1024.size a ≤ S32768x1024.size a
  inb_S32_S1_19 : ∀ a, (![19] : Fin 1 → Nat) a + S1.size a ≤ S32.size a
  inb_S32768x1024_S1024x1024_20480_0 : ∀ a, (![20480, 0] : Fin 2 → Nat) a + S1024x1024.size a ≤ S32768x1024.size a
  inb_S32_S1_20 : ∀ a, (![20] : Fin 1 → Nat) a + S1.size a ≤ S32.size a
  inb_S32768x1024_S1024x1024_21504_0 : ∀ a, (![21504, 0] : Fin 2 → Nat) a + S1024x1024.size a ≤ S32768x1024.size a
  inb_S32_S1_21 : ∀ a, (![21] : Fin 1 → Nat) a + S1.size a ≤ S32.size a
  inb_S32768x1024_S1024x1024_22528_0 : ∀ a, (![22528, 0] : Fin 2 → Nat) a + S1024x1024.size a ≤ S32768x1024.size a
  inb_S32_S1_22 : ∀ a, (![22] : Fin 1 → Nat) a + S1.size a ≤ S32.size a
  inb_S32768x1024_S1024x1024_23552_0 : ∀ a, (![23552, 0] : Fin 2 → Nat) a + S1024x1024.size a ≤ S32768x1024.size a
  inb_S32_S1_23 : ∀ a, (![23] : Fin 1 → Nat) a + S1.size a ≤ S32.size a
  inb_S32768x1024_S1024x1024_24576_0 : ∀ a, (![24576, 0] : Fin 2 → Nat) a + S1024x1024.size a ≤ S32768x1024.size a
  inb_S32_S1_24 : ∀ a, (![24] : Fin 1 → Nat) a + S1.size a ≤ S32.size a
  inb_S32768x1024_S1024x1024_25600_0 : ∀ a, (![25600, 0] : Fin 2 → Nat) a + S1024x1024.size a ≤ S32768x1024.size a
  inb_S32_S1_25 : ∀ a, (![25] : Fin 1 → Nat) a + S1.size a ≤ S32.size a
  inb_S32768x1024_S1024x1024_26624_0 : ∀ a, (![26624, 0] : Fin 2 → Nat) a + S1024x1024.size a ≤ S32768x1024.size a
  inb_S32_S1_26 : ∀ a, (![26] : Fin 1 → Nat) a + S1.size a ≤ S32.size a
  inb_S32768x1024_S1024x1024_27648_0 : ∀ a, (![27648, 0] : Fin 2 → Nat) a + S1024x1024.size a ≤ S32768x1024.size a
  inb_S32_S1_27 : ∀ a, (![27] : Fin 1 → Nat) a + S1.size a ≤ S32.size a
  inb_S32768x1024_S1024x1024_28672_0 : ∀ a, (![28672, 0] : Fin 2 → Nat) a + S1024x1024.size a ≤ S32768x1024.size a
  inb_S32_S1_28 : ∀ a, (![28] : Fin 1 → Nat) a + S1.size a ≤ S32.size a
  inb_S32768x1024_S1024x1024_29696_0 : ∀ a, (![29696, 0] : Fin 2 → Nat) a + S1024x1024.size a ≤ S32768x1024.size a
  inb_S32_S1_29 : ∀ a, (![29] : Fin 1 → Nat) a + S1.size a ≤ S32.size a
  inb_S32768x1024_S1024x1024_30720_0 : ∀ a, (![30720, 0] : Fin 2 → Nat) a + S1024x1024.size a ≤ S32768x1024.size a
  inb_S32_S1_30 : ∀ a, (![30] : Fin 1 → Nat) a + S1.size a ≤ S32.size a
  inb_S32768x1024_S1024x1024_31744_0 : ∀ a, (![31744, 0] : Fin 2 → Nat) a + S1024x1024.size a ≤ S32768x1024.size a
  inb_S32_S1_31 : ∀ a, (![31] : Fin 1 → Nat) a + S1.size a ≤ S32.size a
  hcc0_scratch8 : 0 + S2.numel ≤ 72
  hcc0_scratch9 : 2 + S6.numel ≤ 72
  hcc0_scratch10 : 8 + S32.numel ≤ 72
  hcc0_scratch11 : 40 + S32.numel ≤ 72
  k0_dev1_lt : ∀ d0 : Dev nD, (k0_dev1 d0) < nD
  k0_off1_inb : ∀ d0 : Dev nD, ∀ (r : Fin 32), ∀ a, (k0_off1 d0 (BitVec.ofNat 32 (1024 * r.val))) a + S1024x1024.size a ≤ S65536x1024.size a
  k0_off1_wordsbf16 : ∀ d0 : Dev nD, ∀ (r : Fin 32), (Rect.unit (s := S65536x1024) (k0_off1 d0 (BitVec.ofNat 32 (1024 * r.val))) S1024x1024.size (k0_off1_inb d0 r)).WholeWords (EltTy.packing .bf16)
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD

variable [Facts₀]

abbrev cc0_scratch8 : DmaSems sig S2 := SemArray.consecutive 0 S2 hcc0_scratch8
abbrev cc0_scratch9 : DmaSems sig S6 := SemArray.consecutive 2 S6 hcc0_scratch9
abbrev cc0_scratch10 : DmaSems sig S32 := SemArray.consecutive 8 S32 hcc0_scratch10
abbrev cc0_scratch11 : DmaSems sig S32 := SemArray.consecutive 40 S32 hcc0_scratch11

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KernelIdeal.Proto.lean ====
import proofs.«900671_g7700000000000672_dist_ag_v7x_xyz2x2x2_z_m32768_n1024_bf16_1_alg».proof.Proof.Gen.KernelIdeal
import proofs.«900671_g7700000000000672_dist_ag_v7x_xyz2x2x2_z_m32768_n1024_bf16_1_alg».proof.Proof.Gen.KernelIdeal.Skeleton
import proofs.«900671_g7700000000000672_dist_ag_v7x_xyz2x2x2_z_m32768_n1024_bf16_1_alg».proof.Proof.Gen.KernelIdeal.Launch
import Idealize.ShloMosaic.Lib.Pipeline.Launch
import Idealize.ShloMosaic.Lib.Pipeline.Kit
import Idealize.ShloMosaic.Lib.Ring
import Idealize.ShloMosaic.Lib.Tactic

/-!
# The all-gather along the mesh's last axis: names, cells and the schedule

Eight devices; device `c` and its partner `peer c` (the device with the other coordinate on the last mesh axis) each
hold one half of the array (32 chunks of 1024 rows). Each device converts its chunks and writes chunk `n` twice:
into its own result at rows `32768·(c mod 2) + 1024·n`, and, by a remote copy, into the partner's result at the same
rows. Before the first copy the two partners exchange one unit on the barrier semaphore.

Cells of one device: the barrier cell (one duty: the partner's unit, which hands over the partner's half of the
result array), 32 send cells and 32 receive cells (one duty each, of one chunk's credit). The two load semaphores
and six store semaphores only ever carry the device's own local copies.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the partners' rounds, the local copies' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

variable (m : (ℓ : Loc nD τ sig) → Buf (Elt F) ℓ) (ρ : Dev nD → PrngReg)

/-! ## The partner -/

/-- The device with the same first two mesh coordinates and the other third one. -/
def peer (c : Dev nD) : Dev nD :=
  ⟨(4 * (c.val / 4) + 2 * ((c.val / 2) % 2) + 1) - (c.val % 2), by have h := c.isLt; change c.val < 8 at h; change _ < 8; omega⟩
theorem peer_peer (c : Dev nD) : peer (peer c) = c := by revert c; decide
theorem peer_ne (c : Dev nD) : peer c ≠ c := by revert c; decide
theorem peer_mod (c : Dev nD) : (peer c).val % 2 = 1 - c.val % 2 := by revert c; decide

/-! ## Memrefs and semaphores, as the body spells them -/

abbrev xM : Memref sig .tc .hbm S32768x1024 .f32 := Memref.whole main_arg0
abbrev oM : Memref sig .tc .hbm S65536x1024 .bf16 := Memref.whole main_v1

abbrev barS : Sem sig := (SemArray.scalar (sig.barrier 0 rfl) : Sems sig S_).sem
abbrev barCell (c : Dev nD) : GSem nD τ sig := ((c : Thread nD τ), .reg barS)

abbrev SemInb32 (n : ℕ) : Prop := ∀ a, (![n] : Fin 1 → Nat) a + S1.size a ≤ S32.size a
theorem semInb32 (n : ℕ) (h : n < 32) : SemInb32 n := by intro a; fin_cases a; show n + 1 ≤ 32; omega

/-- Chunk `n`'s send and receive semaphores. -/
abbrev sendSem (n : ℕ) (h : SemInb32 n) : DmaSem sig := ((cc0_scratch10.slice (Rect.unit (s := S32) ![n] S1.size h)).squeeze S_ squeezes_S1_S_).sem
abbrev recvSem (n : ℕ) (h : SemInb32 n) : DmaSem sig := ((cc0_scratch11.slice (Rect.unit (s := S32) ![n] S1.size h)).squeeze S_ squeezes_S1_S_).sem
abbrev sendCell (c : Dev nD) (n : ℕ) (h : SemInb32 n) : GSem nD τ sig := ((c : Thread nD τ), .dma (sendSem n h))
abbrev recvCell (c : Dev nD) (n : ℕ) (h : SemInb32 n) : GSem nD τ sig := ((c : Thread nD τ), .dma (recvSem n h))

theorem sendSem_val (n : ℕ) (hn : n < 32) (h : SemInb32 n) : (sendSem n h).val = 8 + n :=
  (by decide : ∀ k : Fin 32, (sendSem k.val (semInb32 k.val k.isLt)).val = 8 + k.val) ⟨n, hn⟩
theorem recvSem_val (n : ℕ) (hn : n < 32) (h : SemInb32 n) : (recvSem n h).val = 40 + n :=
  (by decide : ∀ k : Fin 32, (recvSem k.val (semInb32 k.val k.isLt)).val = 40 + k.val) ⟨n, hn⟩

/-- The rows of the result a device with third coordinate `c mod 2` writes for its chunk at word offset `w`. -/
abbrev OffInb (c : Dev nD) (w : ℕ) : Prop := ∀ a, (k0_off1 c (BitVec.ofNat 32 w)) a + S1024x1024.size a ≤ S65536x1024.size a
/-- The chunk of the result array at the rows device `c` computes for word offset `w`, as a view of the whole array. -/
abbrev oSl (c : Dev nD) (w : ℕ) (h : OffInb c w) : Memref sig .tc .hbm S1024x1024 .bf16 :=
  oM.slice (Rect.unit (s := S65536x1024) (k0_off1 c (BitVec.ofNat 32 w)) S1024x1024.size h) (fun _ => rfl)
theorem offInb (c : Dev nD) (n w : ℕ) (hw : w = 1024 * n) (hn : n < 32) : OffInb c w := by
  subst hw; exact k0_off1_inb c ⟨n, hn⟩

/-- One chunk's credit on a DMA semaphore. -/
abbrev NC : ℕ := (Memref.whole cc0_scratch2 : Memref sig .tc .vmem S1024x1024 .bf16).view.dmaCredit
theorem NC_pos : 0 < NC := View.dmaCredit_pos _ (by decide)

/-- A family over the 32 chunks (index `n`, word offset `w = 1024·n`), as a literal chain. -/
def chain32 (Φ : (n w : ℕ) → w = 1024 * n → n < 32 → sProp 𝕄) : sProp 𝕄 :=
  iprop(Φ 0 0 rfl (by decide) ∗ Φ 1 1024 rfl (by decide) ∗ Φ 2 2048 rfl (by decide) ∗ Φ 3 3072 rfl (by decide)
    ∗ Φ 4 4096 rfl (by decide) ∗ Φ 5 5120 rfl (by decide) ∗ Φ 6 6144 rfl (by decide) ∗ Φ 7 7168 rfl (by decide)
    ∗ Φ 8 8192 rfl (by decide) ∗ Φ 9 9216 rfl (by decide) ∗ Φ 10 10240 rfl (by decide) ∗ Φ 11 11264 rfl (by decide)
    ∗ Φ 12 12288 rfl (by decide) ∗ Φ 13 13312 rfl (by decide) ∗ Φ 14 14336 rfl (by decide) ∗ Φ 15 15360 rfl (by decide)
    ∗ Φ 16 16384 rfl (by decide) ∗ Φ 17 17408 rfl (by decide) ∗ Φ 18 18432 rfl (by decide) ∗ Φ 19 19456 rfl (by decide)
    ∗ Φ 20 20480 rfl (by decide) ∗ Φ 21 21504 rfl (by decide) ∗ Φ 22 22528 rfl (by decide) ∗ Φ 23 23552 rfl (by decide)
    ∗ Φ 24 24576 rfl (by decide) ∗ Φ 25 25600 rfl (by decide) ∗ Φ 26 26624 rfl (by decide) ∗ Φ 27 27648 rfl (by decide)
    ∗ Φ 28 28672 rfl (by decide) ∗ Φ 29 29696 rfl (by decide) ∗ Φ 30 30720 rfl (by decide) ∗ Φ 31 31744 rfl (by decide))

/-! ## Contents -/

/-- The conversion every chunk undergoes on its way: the element format changed, the shape kept. -/
def conv (v : Vec F S1024x1024 .f32) : FVec F S1024x1024 .bf16 :=
  shapeCast S1024x1024 (truncf .bf16 v bitsLt_bf16_f32) shapeCasts_S1024x1024_S1024x1024

abbrev XInb (w : ℕ) : Prop := ∀ a, (![w, 0] : Fin 2 → Nat) a + S1024x1024.size a ≤ S32768x1024.size a
theorem xInb (n w : ℕ) (hw : w = 1024 * n) (hn : n < 32) : XInb w := by
  subst hw; intro a; fin_cases a
  · show 1024 * n + 1024 ≤ 32768; omega
  · show 0 + 1024 ≤ 1024; omega
/-- The chunk of a device's half of the input at rows `w`, as a view. -/
abbrev xSl (w : ℕ) (h : XInb w) : Memref sig .tc .hbm S1024x1024 .f32 :=
  xM.slice (Rect.unit (s := S32768x1024) ![w, 0] S1024x1024.size h) (fun _ => rfl)

/-- Device `c`'s input half and result array at launch. -/
abbrev X0 (c : Dev nD) : Buf (Elt F) ((c : Thread nD τ).loc main_arg0) := m ((c : Thread nD τ).loc main_arg0)
abbrev R0 (c : Dev nD) : Buf (Elt F) ((c : Thread nD τ).loc main_v1) := m ((c : Thread nD τ).loc main_v1)

/-- Chunk `w` of device `c`'s input, converted: what both of its copies carry. -/
def cval (c : Dev nD) (w : ℕ) (h : XInb w) : FVec F S1024x1024 .bf16 := conv ((xSl w h).view.read (Elt F) (X0 m c))

/-! ## What the cells hand over -/

/-- The six conversion buffers. -/
def bM : ℕ → Memref sig .tc .vmem S1024x1024 .bf16
  | 0 => Memref.whole cc0_scratch2 | 1 => Memref.whole cc0_scratch3 | 2 => Memref.whole cc0_scratch4
  | 3 => Memref.whole cc0_scratch5 | 4 => Memref.whole cc0_scratch6 | _ => Memref.whole cc0_scratch7

/-- A send cell hands its device back the half share of the conversion buffer the remote copy read. -/
def sendPay (c : Dev nD) (k : ℕ) : sProp 𝕄 :=
  iprop(∃ f, (bM k).view.loc (c : Thread nD τ) ↦[(bM k).view.set]{fullShare.right} f)

/-- A receive cell hands its device `c` the chunk of its result array the partner `p`'s copy wrote: the rows `p`
    computes for word offset `w`, holding `p`'s converted chunk over the launch contents. -/
def recvPayAt (c p : Dev nD) (n w : ℕ) (hw : w = 1024 * n) (hn : n < 32) : sProp 𝕄 :=
  (oSl p w (offInb p n w hw hn)).view.loc (c : Thread nD τ)
    ↦[(oSl p w (offInb p n w hw hn)).view.set]{fullShare}
      (oSl p w (offInb p n w hw hn)).view.write (Elt F) (m ((oSl p w (offInb p n w hw hn)).view.loc (c : Thread nD τ)))
        (cval m p w (xInb n w hw hn)) Finset.univ

/-- The partner `p`'s barrier unit hands device `c` the partner's result array at the rows `c` computes, chunk by
    chunk, at the partner's launch contents. -/
def barPayAt (c p : Dev nD) : sProp 𝕄 :=
  chain32 fun n w hw hn =>
    (oSl c w (offInb c n w hw hn)).view.loc (p : Thread nD τ) ↦[(oSl c w (offInb c n w hw hn)).view.set]{fullShare}
      m ((oSl c w (offInb c n w hw hn)).view.loc (p : Thread nD τ))

/-! ## The schedule: one round, one duty a cell -/

/-- The schedule: every cell has one round of one duty. A barrier cell's duty is one unit, paid by the partner's signal,
    and hands over the partner's result rows; a DMA cell of index 8‥39 is a send cell (duty: one chunk's credit, handing
    back a half share of conversion buffer `(q - 8) mod 6`), one of index 40‥71 a receive cell (duty: one chunk's credit,
    handing over the landed chunk); no other cell and no later round has a duty. -/
def sched : Rounds.Schedule (GSem nD τ sig) Unit 𝕄 where
  duties g r := if r = 0 ∧ g.1.2 = .tc ∧ (g.2 = .reg barS ∨ ∃ q, g.2 = .dma q ∧ 8 ≤ q.val) then {()} else ∅
  amount g _ _ := match g.2 with | .reg _ => 1 | .dma _ => NC
  payload g _ _ := match g.2 with
    | .reg _ => barPayAt m g.1.1 (peer g.1.1)
    | .dma q =>
      if h : q.val < 40 then sendPay g.1.1 ((q.val - 8) % 6)
      else if h' : q.val - 40 < 32 then recvPayAt m g.1.1 (peer g.1.1) (q.val - 40) (1024 * (q.val - 40)) rfl h'
      else iprop(emp)
  amount_pos g _ _ _ := by
    cases g.2 with
    | reg _ => exact Nat.one_pos
    | dma _ => exact NC_pos

/-! ## The schedule's tables, entry on the left -/

section Tables
variable (c : Dev nD)

theorem duties_bar : (sched m).duties (barCell c) 0 = {()} := by
  dsimp only [sched]; exact if_pos ⟨rfl, rfl, .inl rfl⟩
theorem duties_send (n : ℕ) (hn : n < 32) (h : SemInb32 n) : (sched m).duties (sendCell c n h) 0 = {()} := by
  dsimp only [sched]; exact if_pos ⟨rfl, rfl, .inr ⟨_, rfl, by rw [sendSem_val n hn h]; omega⟩⟩
theorem duties_recv (n : ℕ) (hn : n < 32) (h : SemInb32 n) : (sched m).duties (recvCell c n h) 0 = {()} := by
  dsimp only [sched]; exact if_pos ⟨rfl, rfl, .inr ⟨_, rfl, by rw [recvSem_val n hn h]; omega⟩⟩
theorem duties_later (g : GSem nD τ sig) : ∀ r, 1 ≤ r → (sched m).duties g r = ∅ :=
  fun r hr => by dsimp only [sched]; rw [if_neg fun h => by omega]

theorem amount_bar (d : Unit) : (sched m).amount (barCell c) 0 d = 1 := rfl
theorem amount_send (n : ℕ) (h : SemInb32 n) (d : Unit) : (sched m).amount (sendCell c n h) 0 d = NC := rfl
theorem amount_recv (n : ℕ) (h : SemInb32 n) (d : Unit) : (sched m).amount (recvCell c n h) 0 d = NC := rfl

theorem expect_bar : (sched m).expect (barCell c) 0 = 1 := by
  unfold Schedule.expect Schedule.amountOf; rw [duties_bar, Finset.sum_singleton]; rfl
theorem expect_send (n : ℕ) (hn : n < 32) (h : SemInb32 n) : (sched m).expect (sendCell c n h) 0 = NC := by
  unfold Schedule.expect Schedule.amountOf; rw [duties_send m c n hn h, Finset.sum_singleton]; rfl
theorem expect_recv (n : ℕ) (hn : n < 32) (h : SemInb32 n) : (sched m).expect (recvCell c n h) 0 = NC := by
  unfold Schedule.expect Schedule.amountOf; rw [duties_recv m c n hn h, Finset.sum_singleton]; rfl

theorem payload_bar (d : Unit) : (sched m).payload (barCell c) 0 d = barPayAt m c (peer c) := rfl
/-- The partner's barrier cell, the partner's partner resolved: what a device's own signal hands over. -/
theorem payload_bar_peer (d : Unit) : (sched m).payload (barCell (peer c)) 0 d = barPayAt m (peer c) c :=
  congrArg (barPayAt m (peer c)) (peer_peer c)
theorem payload_send (n : ℕ) (hn : n < 32) (h : SemInb32 n) (d : Unit) :
    (sched m).payload (sendCell c n h) 0 d = sendPay c (n % 6) := by
  have e : (sendSem n h).val = 8 + n := sendSem_val n hn h
  show (if h1 : (sendSem n h).val < 40 then sendPay c (((sendSem n h).val - 8) % 6) else _) = _
  rw [dif_pos (by omega), e, Nat.add_sub_cancel_left]
theorem payload_recv (n w : ℕ) (hw : w = 1024 * n) (hn : n < 32) (h : SemInb32 n) (d : Unit) :
    (sched m).payload (recvCell c n h) 0 d = recvPayAt m c (peer c) n w hw hn := by
  subst hw
  have e : (recvSem n h).val = 40 + n := recvSem_val n hn h
  show (if h1 : (recvSem n h).val < 40 then _ else if h' : (recvSem n h).val - 40 < 32 then
      recvPayAt m c (peer c) ((recvSem n h).val - 40) (1024 * ((recvSem n h).val - 40)) rfl h' else _) = _
  have e' : (recvSem n h).val - 40 = n := by omega
  rw [dif_neg (by omega), dif_pos (by omega)]
  simp only [e']
/-- The partner's receive cell, the partner's partner resolved: what a device's own remote copy must hand over. -/
theorem payload_recv_peer (n w : ℕ) (hw : w = 1024 * n) (hn : n < 32) (h : SemInb32 n) (d : Unit) :
    (sched m).payload (recvCell (peer c) n h) 0 d = recvPayAt m (peer c) c n w hw hn :=
  (payload_recv m (peer c) n w hw hn h d).trans (congrArg (fun p => recvPayAt m (peer c) p n w hw hn) (peer_peer c))

end Tables

end Cert.KernelIdeal.AG

end
-- ==== Proof.KernelIdeal.Ghost.lean ====
import proofs.«900671_g7700000000000672_dist_ag_v7x_xyz2x2x2_z_m32768_n1024_bf16_1_alg».proof.Proof.KernelIdeal.Proto
import Idealize.ShloMosaic.Lib.ValueIdx

/-!
# What each device holds: the cells' ghost state, the invariant before and after the body, the proof data

The body runs once on each device (the grid has one point). Before it a device holds its input half and its result
array whole at their launch contents, its eight staging buffers at some contents, its local semaphores at zero and
the partners' protocol's ghost state (`start`); after it the result array holds `outFinal`, every semaphore of its
own is at zero again.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The local semaphores and the staging buffers -/

abbrev SemInb2 (n : ℕ) : Prop := ∀ a, (![n] : Fin 1 → Nat) a + S1.size a ≤ S2.size a
abbrev SemInb6 (n : ℕ) : Prop := ∀ a, (![n] : Fin 1 → Nat) a + S1.size a ≤ S6.size a
theorem semInb2 (n : ℕ) (h : n < 2) : SemInb2 n := by intro a; fin_cases a; show n + 1 ≤ 2; omega
theorem semInb6 (n : ℕ) (h : n < 6) : SemInb6 n := by intro a; fin_cases a; show n + 1 ≤ 6; omega
/-- Landing buffer `j`'s load semaphore, conversion buffer `k`'s store semaphore. -/
abbrev loadSem (n : ℕ) (h : SemInb2 n) : DmaSem sig := ((cc0_scratch8.slice (Rect.unit (s := S2) ![n] S1.size h)).squeeze S_ squeezes_S1_S_).sem
abbrev storeSem (n : ℕ) (h : SemInb6 n) : DmaSem sig := ((cc0_scratch9.slice (Rect.unit (s := S6) ![n] S1.size h)).squeeze S_ squeezes_S1_S_).sem

/-- The two load and six store semaphores at zero. -/
def locSems (c : Dev nD) : sProp 𝕄 :=
  iprop(semVal ((c : Thread nD τ), .dma (loadSem 0 (semInb2 0 (by decide)))) 0 ∗ semVal ((c : Thread nD τ), .dma (loadSem 1 (semInb2 1 (by decide)))) 0
    ∗ semVal ((c : Thread nD τ), .dma (storeSem 0 (semInb6 0 (by decide)))) 0 ∗ semVal ((c : Thread nD τ), .dma (storeSem 1 (semInb6 1 (by decide)))) 0
    ∗ semVal ((c : Thread nD τ), .dma (storeSem 2 (semInb6 2 (by decide)))) 0 ∗ semVal ((c : Thread nD τ), .dma (storeSem 3 (semInb6 3 (by decide)))) 0
    ∗ semVal ((c : Thread nD τ), .dma (storeSem 4 (semInb6 4 (by decide)))) 0 ∗ semVal ((c : Thread nD τ), .dma (storeSem 5 (semInb6 5 (by decide)))) 0)

/-- The two landing buffers. -/
def fM : ℕ → Memref sig .tc .vmem S1024x1024 .f32
  | 0 => Memref.whole cc0_scratch0 | _ => Memref.whole cc0_scratch1

/-- A buffer of the device held whole, through its memref's view. -/
abbrev held {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- The eight staging buffers, each whole at some contents. -/
def scr8 (c : Dev nD) : sProp 𝕄 :=
  iprop((∃ f, held c (fM 0) f) ∗ (∃ f, held c (fM 1) f)
    ∗ (∃ f, held c (bM 0) f) ∗ (∃ f, held c (bM 1) f) ∗ (∃ f, held c (bM 2) f)
    ∗ (∃ f, held c (bM 3) f) ∗ (∃ f, held c (bM 4) f) ∗ (∃ f, held c (bM 5) f))

/-! ## The result -/

/-- The result array every device ends with: rows `1024·j`‥ (chunk `j` of 64) hold chunk `j mod 32` of the input half
    of the devices whose last mesh coordinate is `j / 32` — the device's own half or its partner's — converted. -/
def outFinal (c : Dev nD) : Buf (Elt F) ((c : Thread nD τ).loc main_v1) := fun i =>
  let j := (i 0).val / 1024
  let src : Dev nD := if j / 32 = c.val % 2 then c else peer c
  cval m src (1024 * (j % 32)) (xInb (j % 32) _ rfl (Nat.mod_lt _ (by decide)))
    (ValueIdx.ix2 (⟨(i 0).val % 1024, Nat.mod_lt _ (by decide)⟩ : Fin 1024) (⟨(i 1).val, (i 1).isLt⟩ : Fin 1024))

/-! ## Levels and debts -/

def L (g : GSem nD τ sig) : Finset Unit := if g.1.2 = .tc then {()} else ∅
/-- Barrier cells at 1, receive cells at 2, every other cell at 0: a device waits on its barrier cell and on its local
    and send cells while it still owes receive credit. -/
def lv (g : GSem nD τ sig) (_ : Unit) : ℕ :=
  match g.2 with
  | .reg _ => 1
  | .dma q => if 40 ≤ q.val then 2 else 0

/-- The receive credit device `c` still owes its partner for the chunks from `n` on. -/
def owedFrom (c : Dev nD) (n : ℕ) : CellTallies nD τ sig Unit :=
  ∑ r ∈ (Finset.univ.filter fun r : Fin 32 => n ≤ r.val), tallyAt (recvCell (peer c) r.val (semInb32 r.val r.isLt)) () NC
/-- At launch: all of it, and the barrier unit. -/
def O₀ (c : Dev nD) : CellTallies nD τ sig Unit := owedFrom c 0 + tallyAt (barCell (peer c)) () 1

/-! ## The ghost state -/

/-- The invariants device `c`'s body opens, under the names `κ` they were allocated at: its own barrier, send and
    receive cells, its partner's barrier and receive cells. -/
def invs (κ : GSem nD τ sig → ℕ) (c : Dev nD) : sProp 𝕄 :=
  iprop(cellInv ER (sched m) (κ (barCell c)) (barCell c) ∗ cellInv ER (sched m) (κ (barCell (peer c))) (barCell (peer c))
    ∗ (chain32 fun n w hw hn => cellInv ER (sched m) (κ (sendCell c n (semInb32 n hn))) (sendCell c n (semInb32 n hn)))
    ∗ (chain32 fun n w hw hn => cellInv ER (sched m) (κ (recvCell c n (semInb32 n hn))) (recvCell c n (semInb32 n hn)))
    ∗ (chain32 fun n w hw hn => cellInv ER (sched m) (κ (recvCell (peer c) n (semInb32 n hn))) (recvCell (peer c) n (semInb32 n hn))))

/-- What device `c` starts from in the partners' protocol: the invariants; its positions at round 0 of its 65 cells;
    round 0 reached of the cells it pays (its partner's barrier and receive cells, its own send cells); the 65
    duty tokens it pays with. -/
def ghost (κ : GSem nD τ sig → ℕ) (c : Dev nD) : sProp 𝕄 :=
  iprop(invs m κ c
    ∗ atPos ER (barCell c) 0 ∅ 0
    ∗ (chain32 fun n w hw hn => atPos ER (sendCell c n (semInb32 n hn)) 0 ∅ 0)
    ∗ (chain32 fun n w hw hn => atPos ER (recvCell c n (semInb32 n hn)) 0 ∅ 0)
    ∗ reached ER (barCell (peer c)) 0
    ∗ (chain32 fun n w hw hn => reached ER (sendCell c n (semInb32 n hn)) 0)
    ∗ (chain32 fun n w hw hn => reached ER (recvCell (peer c) n (semInb32 n hn)) 0)
    ∗ dutyTok ER (barCell (peer c)) 0 ()
    ∗ (chain32 fun n w hw hn => dutyTok ER (sendCell c n (semInb32 n hn)) 0 ())
    ∗ (chain32 fun n w hw hn => dutyTok ER (recvCell (peer c) n (semInb32 n hn)) 0 ()))

/-- That at some names, the launch credit of its barrier and receive cells, the level facts. -/
def start (c : Dev nD) : sProp 𝕄 :=
  iprop((∃ κ, ghost m κ c) ∗ cred (tallyAt (barCell c) () 1)
    ∗ (chain32 fun n w hw hn => cred (tallyAt (recvCell c n (semInb32 n hn)) () NC)) ∗ levAts L lv)

/-- Before the body. -/
def Φ₀ (c : Dev nD) : sProp 𝕄 :=
  iprop(start m c ∗ locSems c ∗ held c xM (X0 m c) ∗ held c oM (R0 m c) ∗ scr8 c)

/-- Every DMA semaphore of the kernel's own (all 72 are scratch operands), as the launch theorem indexes them. -/
abbrev osem : Fin 72 → SemLoc sig := fun q => .dma q

/-- After the body: the input half unchanged, the result array at `outFinal`, the staging buffers at some contents,
    every own semaphore at zero. -/
def Φ₁ (c : Dev nD) : sProp 𝕄 :=
  iprop(held c xM (X0 m c) ∗ held c oM (outFinal m c) ∗ scr8 c ∗ Pipeline.ownSems0 osem c)

/-- The proof data: no window is staged; the invariant before and after the one point; what the device owes. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.AG

end
-- ==== Proof.KernelIdeal.Ledger.lean ====
import proofs.«900671_g7700000000000672_dist_ag_v7x_xyz2x2x2_z_m32768_n1024_bf16_1_alg».proof.Proof.KernelIdeal.Ghost

/-!
# The ledger: what a device still owes, that it may wait meanwhile, and its own semaphores regrouped
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The chain as a product -/

/-- The 32-chunk chain is the product over `Fin 32`. -/
theorem chain32_eq_bigSep (Φ : (n w : ℕ) → w = 1024 * n → n < 32 → sProp 𝕄) :
    chain32 Φ = bigSep Finset.univ fun r : Fin 32 => Φ r.val (1024 * r.val) rfl r.isLt := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl

/-! ## The debt, chunk by chunk -/

/-- The debt from chunk `n` on is chunk `n`'s credit and the debt from `n + 1` on; -/
theorem owedFrom_peel (c : Dev nD) (n : ℕ) (hn : n < 32) :
    owedFrom c n = owedFrom c (n + 1) + tallyAt (recvCell (peer c) n (semInb32 n hn)) () NC := by
  have hset : (Finset.univ.filter fun r : Fin 32 => n ≤ r.val)
      = insert (⟨n, hn⟩ : Fin 32) (Finset.univ.filter fun r : Fin 32 => n + 1 ≤ r.val) := by
    ext r
    simp only [Finset.mem_filter, Finset.mem_univ, true_and, Finset.mem_insert, Fin.ext_iff]
    omega
  have hni : (⟨n, hn⟩ : Fin 32) ∉ (Finset.univ.filter fun r : Fin 32 => n + 1 ≤ r.val) := by
    simp only [Finset.mem_filter, Finset.mem_univ, true_and]; omega
  unfold owedFrom
  rw [hset, Finset.sum_insert hni, add_comm]
/-- past the last chunk nothing is owed. -/
theorem owedFrom_done (c : Dev nD) : owedFrom c 32 = 0 := by
  unfold owedFrom
  rw [Finset.filter_false_of_mem (fun r _ => by have := r.isLt; omega), Finset.sum_empty]

/-- Every cell the debt names is one of the partner's receive cells. -/
theorem owedFrom_pos {c : Dev nD} {n : ℕ} {g : GSem nD τ sig} {u : Unit} (h : 0 < owedFrom c n g u) :
    ∃ r : Fin 32, g = recvCell (peer c) r.val (semInb32 r.val r.isLt) := by
  by_contra hne
  rw [not_exists] at hne
  unfold owedFrom at h
  rw [Finset.sum_apply, Finsupp.finset_sum_apply,
    Finset.sum_eq_zero (fun r _ => by rw [tallyAt_apply, if_neg (fun h' => hne r h'.1)])] at h
  exact Nat.lt_irrefl 0 h

/-! ## Waiting while in debt -/

theorem L_tc (c : Dev nD) (sm : SemLoc sig) : L ((c : Thread nD τ), sm) = {()} := if_pos rfl

/-- A receive cell's level is 2. -/
theorem lv_recv (c : Dev nD) (r : Fin 32) : lv (recvCell c r.val (semInb32 r.val r.isLt)) () = 2 := by
  dsimp only [lv]; rw [if_pos (by rw [recvSem_val r.val r.isLt]; omega)]

/-- While it owes receive credit only, a device may wait on any of its cells below the receive cells' level: its
    barrier cell, its local and send cells. -/
theorem mayWait_low (c : Dev nD) (n : ℕ) (sm : SemLoc sig) (hsm : lv ((c : Thread nD τ), sm) () < 2) :
    (levAts L lv : sProp 𝕄) ⊢ MayWait (c : Thread nD τ) sm () (owedFrom c n) :=
  MayOwe.of_cut (L := L) (lev := lv) 1
    (fun p hp => by rw [Finset.mem_singleton.mp hp, L_tc]; exact Finset.mem_singleton_self _)
    (fun g u hg => by obtain ⟨r, rfl⟩ := owedFrom_pos hg; rw [L_tc]; exact Finset.mem_singleton_self _)
    (fun p hp => by rw [Finset.mem_singleton.mp hp]; exact Nat.lt_succ_iff.mp hsm)
    (fun g u hg => by obtain ⟨r, rfl⟩ := owedFrom_pos hg; rw [lv_recv]; decide)

/-! ## The own semaphores regrouped -/

/-- A chain over a list put together from two is the two chains. -/
theorem bigSepL_append {I : Type} (l₁ l₂ : List I) (Φ : I → sProp 𝕄) :
    bigSepL (l₁ ++ l₂) Φ = iprop(bigSepL l₁ Φ ∗ bigSepL l₂ Φ) := by
  induction l₁ with
  | nil => exact (equiv_iff.mp emp_sep).symm
  | cons i l ih =>
    rw [List.cons_append, bigSepL_cons, ih, bigSepL_cons]
    exact equiv_iff.mp ⟨BI.sep_assoc', BI.sep_assoc⟩

/-- The device's 72 own semaphores at zero, from the eight local ones and the 64 closed cells' counters. -/
theorem ownSems_intro (c : Dev nD) :
    iprop(locSems c
        ∗ (chain32 fun n w hw hn => semVal (sendCell c n (semInb32 n hn)) 0)
        ∗ (chain32 fun n w hw hn => semVal (recvCell c n (semInb32 n hn)) 0))
      ⊢ (Pipeline.ownSems0 osem c : sProp 𝕄) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71] (by decide) (by decide)]
  rw [show ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71] : List (Fin 72)) = [0, 1, 2, 3, 4, 5, 6, 7] ++ ([8, 9, 10, 11, 12, 13, 14, 15, 16, 17, 18, 19, 20, 21, 22, 23, 24, 25, 26, 27, 28, 29, 30, 31, 32, 33, 34, 35, 36, 37, 38, 39] ++ [40, 41, 42, 43, 44, 45, 46, 47, 48, 49, 50, 51, 52, 53, 54, 55, 56, 57, 58, 59, 60, 61, 62, 63, 64, 65, 66, 67, 68, 69, 70, 71]) from rfl,
    bigSepL_append, bigSepL_append]
  exact Entails.of_eq rfl

end Cert.KernelIdeal.AG

end

/-- info: 'Cert.KernelIdeal.AG.ownSems_intro' depends on axioms: [propext, Classical.choice, Quot.sound] -/
#guard_msgs in #print axioms Cert.KernelIdeal.AG.ownSems_intro
/-- info: 'Cert.KernelIdeal.AG.mayWait_low' depends on axioms: [propext, Classical.choice, Quot.sound] -/
#guard_msgs in #print axioms Cert.KernelIdeal.AG.mayWait_low
/-- info: 'Cert.KernelIdeal.AG.chain32_eq_bigSep' depends on axioms: [propext, Classical.choice, Quot.sound] -/
#guard_msgs in #print axioms Cert.KernelIdeal.AG.chain32_eq_bigSep
/-- info: 'Cert.KernelIdeal.AG.owedFrom_peel' depends on axioms: [propext, Classical.choice, Quot.sound] -/
#guard_msgs in #print axioms Cert.KernelIdeal.AG.owedFrom_peel
/-- info: 'Cert.KernelIdeal.AG.owedFrom_done' depends on axioms: [propext, Classical.choice, Quot.sound] -/
#guard_msgs in #print axioms Cert.KernelIdeal.AG.owedFrom_done
-- ==== Proof.KernelIdeal.Value.lean ====
import proofs.«900671_g7700000000000672_dist_ag_v7x_xyz2x2x2_z_m32768_n1024_bf16_1_alg».proof.Proof.KernelIdeal.Ledger
import Idealize.ShloMosaic.Lib.Pipeline.Value

/-!
# The result array, chunk by chunk

A device's result array is 64 chunks of 1024 rows: the 32 at the rows it computes itself and the 32 at the rows its
partner computes. Held whole it is held chunk by chunk; with every chunk written — its own by its local copies, the
others by its partner's remote copies — it holds `outFinal`.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The chunks of its result array a device writes itself, at the launch contents. -/
def ownChunks0 (c : Dev nD) : sProp 𝕄 :=
  chain32 fun n w hw hn =>
    (oSl c w (offInb c n w hw hn)).view.loc (c : Thread nD τ) ↦[(oSl c w (offInb c n w hw hn)).view.set]{fullShare}
      m ((oSl c w (offInb c n w hw hn)).view.loc (c : Thread nD τ))

/-- The chunks of its result array a device has written itself: its converted chunks over the launch contents. -/
def ownChunks1 (c : Dev nD) : sProp 𝕄 :=
  chain32 fun n w hw hn =>
    (oSl c w (offInb c n w hw hn)).view.loc (c : Thread nD τ) ↦[(oSl c w (offInb c n w hw hn)).view.set]{fullShare}
      (oSl c w (offInb c n w hw hn)).view.write (Elt F) (m ((oSl c w (offInb c n w hw hn)).view.loc (c : Thread nD τ)))
        (cval m c w (xInb n w hw hn)) Finset.univ

/-! ## The 64 chunks: pairwise disjoint, covering the array -/

/-- The elements of chunk `r` at the rows device `d` computes: the rows `32768·(d mod 2) + 1024·r` and the 1023 after. -/
theorem mem_chunk (d : Dev nD) (r : Fin 32) (h : OffInb d (1024 * r.val)) (i : S65536x1024.Idx) :
    i ∈ (oSl d (1024 * r.val) h).view.set
      ↔ 32768 * (d.val % 2) + 1024 * r.val ≤ (i 0).val ∧ (i 0).val < 32768 * (d.val % 2) + 1024 * r.val + 1024 := by
  rw [show (oSl d (1024 * r.val) h).view.set
      = (Rect.unit (s := S65536x1024) (k0_off1 d (BitVec.ofNat 32 (1024 * r.val))) S1024x1024.size h).set from
    View.set_slice_whole _ _, Rect.mem_set_unit, Gen.k0_off1_eq d r, Fin.forall_fin_two]
  have h1 := (i 1).isLt
  change (i 1).val < 1024 at h1
  show (32768 * (d.val % 2) + 1024 * r.val ≤ (i 0).val ∧ (i 0).val < 32768 * (d.val % 2) + 1024 * r.val + 1024)
      ∧ (0 ≤ (i 1).val ∧ (i 1).val < 0 + 1024) ↔ _
  omega

/-- The 64 chunks of device `c`'s result array: the 32 at the rows it computes and the 32 at the rows its partner
    computes. -/
def chunks (c : Dev nD) : Fin 32 ⊕ Fin 32 → Finset (Idx ((c : Thread nD τ).loc main_v1))
  | .inl r => (oSl c (1024 * r.val) (offInb c r.val _ rfl r.isLt)).view.set
  | .inr r => (oSl (peer c) (1024 * r.val) (offInb (peer c) r.val _ rfl r.isLt)).view.set

/-- Two chunks of one half differ in their rows; the two halves lie in different halves of the array. -/
theorem chunks_disjoint (c : Dev nD) (b b' : Fin 32 ⊕ Fin 32) (h : b ≠ b') : Disjoint (chunks c b) (chunks c b') := by
  rw [Finset.disjoint_left]
  intro i hi hi'
  have hp := peer_mod c
  have hc2 : c.val % 2 < 2 := Nat.mod_lt _ (by decide)
  rcases b with r | r <;> rcases b' with r' | r'
  · have h1 := (mem_chunk c r _ i).mp hi
    have h2 := (mem_chunk c r' _ i).mp hi'
    exact h (congrArg Sum.inl (Fin.ext (by omega)))
  · have h1 := (mem_chunk c r _ i).mp hi
    have h2 := (mem_chunk (peer c) r' _ i).mp hi'
    have := r.isLt; have := r'.isLt
    omega
  · have h1 := (mem_chunk (peer c) r _ i).mp hi
    have h2 := (mem_chunk c r' _ i).mp hi'
    have := r.isLt; have := r'.isLt
    omega
  · have h1 := (mem_chunk (peer c) r _ i).mp hi
    have h2 := (mem_chunk (peer c) r' _ i).mp hi'
    exact h (congrArg Sum.inr (Fin.ext (by omega)))

/-- Row `x` lies in chunk `x / 1024 mod 32` of the half `x / 32768`. -/
theorem chunks_cover (c : Dev nD) : Finset.univ.biUnion (chunks c) = Finset.univ := by
  ext i
  simp only [Finset.mem_biUnion, Finset.mem_univ, true_and, iff_true]
  have hp := peer_mod c
  have hc2 : c.val % 2 < 2 := Nat.mod_lt _ (by decide)
  have hi0 := (i 0).isLt
  change (i 0).val < 65536 at hi0
  have hr : (i 0).val / 1024 % 32 < 32 := Nat.mod_lt _ (by decide)
  by_cases hj : (i 0).val / 1024 / 32 = c.val % 2
  · refine ⟨.inl ⟨(i 0).val / 1024 % 32, hr⟩, (mem_chunk c _ _ i).mpr ?_⟩
    dsimp only; omega
  · refine ⟨.inr ⟨(i 0).val / 1024 % 32, hr⟩, (mem_chunk (peer c) _ _ i).mpr ?_⟩
    dsimp only; omega

/-- A device's result array held whole is held chunk by chunk, at any contents. -/
theorem held_chunks (c : Dev nD) (f : Buf (Elt F) ((c : Thread nD τ).loc main_v1)) :
    (held c oM f : sProp 𝕄)
      = iprop((bigSep Finset.univ fun r : Fin 32 => (c : Thread nD τ).loc main_v1 ↦[chunks c (.inl r)]{fullShare} f)
          ∗ bigSep Finset.univ fun r : Fin 32 => (c : Thread nD τ).loc main_v1 ↦[chunks c (.inr r)]{fullShare} f) := by
  show ((c : Thread nD τ).loc main_v1 ↦[(View.whole main_v1 : View sig .tc _ _ _).set]{fullShare} f : sProp 𝕄) = _
  rw [View.set_whole, Ring.pointsTo_blocks (chunks c) (chunks_disjoint c) (chunks_cover c) f, bigSep_univ_sum]
  rfl

/-- The result array held whole at launch is its own 32 chunks and the 32 it hands its partner at the barrier. -/
theorem out_split (c : Dev nD) : held c oM (R0 m c) ⊢ iprop(ownChunks0 m c ∗ barPayAt m (peer c) c) := by
  rw [held_chunks c (R0 m c)]
  unfold ownChunks0 barPayAt
  rw [chain32_eq_bigSep, chain32_eq_bigSep]
  exact .refl

/-! ## A written chunk holds `outFinal` on its own elements -/

/-- A chunk's converted contents depend on the device, the word offset and the element only (the in-bounds evidence is a proof). -/
theorem cval_congr {d d' : Dev nD} {w w' : ℕ} {h : XInb w} {h' : XInb w'} {y y' : S1024x1024.Idx}
    (hd : d = d') (hw : w = w') (hy : y = y') : cval m d w h y = cval m d' w' h' y' := by
  subst hd; subst hw; subst hy; rfl

/-- `outFinal` at the element of the chunk at device `d`'s rows for chunk `r` whose coordinates inside the chunk are `y`, where `d` is
    the device whose half the array's half `d mod 2` holds (the device itself or its partner). -/
theorem outFinal_chunk (c d : Dev nD) (hd : (if d.val % 2 = c.val % 2 then c else peer c) = d) (r : Fin 32)
    (i : Idx ((c : Thread nD τ).loc main_v1)) (y : S1024x1024.Idx)
    (h0 : (i 0).val = 32768 * (d.val % 2) + 1024 * r.val + (y 0).val) (h1 : (i 1).val = (y 1).val) :
    outFinal m c i = cval m d (1024 * r.val) (xInb r.val _ rfl r.isLt) y := by
  have hy0 := (y 0).isLt; change (y 0).val < 1024 at hy0
  have hd2 : d.val % 2 < 2 := Nat.mod_lt _ (by decide)
  have hj : (i 0).val / 1024 / 32 = d.val % 2 := by omega
  have hr : (i 0).val / 1024 % 32 = r.val := by omega
  unfold outFinal
  dsimp only
  refine cval_congr m ?_ ?_ ?_
  · rw [hj]; exact hd
  · rw [hr]
  · funext a
    match a with
    | ⟨0, _⟩ => exact Fin.ext (by show (i 0).val % 1024 = (y 0).val; omega)
    | ⟨1, _⟩ => exact Fin.ext h1

/-- On its own elements a written chunk holds `outFinal`. -/
theorem chunk_written (c d : Dev nD) (hd : (if d.val % 2 = c.val % 2 then c else peer c) = d) (r : Fin 32)
    (h : OffInb d (1024 * r.val)) (hx : XInb (1024 * r.val))
    (g : Buf (Elt F) ((oSl d (1024 * r.val) h).view.loc (c : Thread nD τ))) :
    ∀ i ∈ (oSl d (1024 * r.val) h).view.set,
      (oSl d (1024 * r.val) h).view.write (Elt F) g (cval m d (1024 * r.val) hx) Finset.univ i = outFinal m c i := by
  intro i hi
  obtain ⟨y, rfl⟩ := View.exists_emb_of_mem_set _ hi
  rw [View.write_emb_of_mem _ _ (Finset.mem_univ y)]
  rw [outFinal_chunk m c d hd r _ y ?_ ?_]
  · rfl
  · show (k0_off1 d (BitVec.ofNat 32 (1024 * r.val))) 0 + 1 * (y 0).val = _
    rw [Gen.k0_off1_eq d r]
    show 32768 * (d.val % 2) + 1024 * r.val + 1 * (y 0).val = _
    omega
  · show (k0_off1 d (BitVec.ofNat 32 (1024 * r.val))) 1 + 1 * (y 1).val = _
    rw [Gen.k0_off1_eq d r]
    show 0 + 1 * (y 1).val = _
    omega

/-- Its own chunks written and its partner's landed, the result array is whole again, at `outFinal`. -/
theorem out_join (c : Dev nD) :
    iprop(ownChunks1 m c ∗ (chain32 fun n w hw hn => recvPayAt m c (peer c) n w hw hn)) ⊢ held c oM (outFinal m c) := by
  rw [held_chunks c (outFinal m c)]
  unfold ownChunks1
  rw [chain32_eq_bigSep, chain32_eq_bigSep]
  unfold recvPayAt
  refine BIClass.sep_mono (Entails.of_eq (bigSep_congr fun r _ => ?_)) (Entails.of_eq (bigSep_congr fun r _ => ?_))
  · exact pointsTo_congr (chunk_written m c c (if_pos rfl) r _ _ _)
  · exact pointsTo_congr (chunk_written m c (peer c) (if_neg (by have := peer_mod c; omega)) r _ _ _)

/-- info: 'Cert.KernelIdeal.AG.out_split' depends on axioms: [propext, Classical.choice, Quot.sound] -/
#guard_msgs in #print axioms out_split

/-- info: 'Cert.KernelIdeal.AG.out_join' depends on axioms: [propext, Classical.choice, Quot.sound] -/
#guard_msgs in #print axioms out_join

end Cert.KernelIdeal.AG

end
-- ==== Proof.KernelIdeal.Close.lean ====
import proofs.«900671_g7700000000000672_dist_ag_v7x_xyz2x2x2_z_m32768_n1024_bf16_1_alg».proof.Proof.KernelIdeal.Ledger
import proofs.«900671_g7700000000000672_dist_ag_v7x_xyz2x2x2_z_m32768_n1024_bf16_1_alg».proof.Proof.KernelIdeal.Value

/-!
# The end of the body: the cells closed, the staging buffers whole again

After its last waits a device stands at round 1 of each of its 32 send cells and 32 receive cells, and no round from 1
on has a duty: it closes them, and their counters, at zero, are its own again. Each conversion buffer, held through
the body as two half shares (one lent to the local copy, one to the remote copy), is joined back to the whole.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the send and receive cells -/

/-- The 32 send cells close together: each stands at round 1, from which no round has a duty. -/
theorem close_sends (κ : GSem nD τ sig → ℕ) (c : Dev nD) :
    iprop((chain32 fun n w hw hn => cellInv ER (sched m) (κ (sendCell c n (semInb32 n hn))) (sendCell c n (semInb32 n hn)))
        ∗ (chain32 fun n w hw hn => atPos ER (sendCell c n (semInb32 n hn)) 1 ∅ 0))
      ⊢ iprop(|={Set.univ}=> (chain32 fun n w hw hn => semVal (sendCell c n (semInb32 n hn)) 0 : sProp 𝕄)) := by
  rw [chain32_eq_bigSep, chain32_eq_bigSep, chain32_eq_bigSep, ← bigSep_sep']
  exact (bigSep_mono fun r _ => Rounds.cell_close ER (sched m) (Set.mem_univ _) (fun h => h) (R := 1)
    (duties_later m (sendCell c r.val (semInb32 r.val r.isLt)))).trans (bigSep_fupd _ _)

/-- The 32 receive cells likewise. -/
theorem close_recvs (κ : GSem nD τ sig → ℕ) (c : Dev nD) :
    iprop((chain32 fun n w hw hn => cellInv ER (sched m) (κ (recvCell c n (semInb32 n hn))) (recvCell c n (semInb32 n hn)))
        ∗ (chain32 fun n w hw hn => atPos ER (recvCell c n (semInb32 n hn)) 1 ∅ 0))
      ⊢ iprop(|={Set.univ}=> (chain32 fun n w hw hn => semVal (recvCell c n (semInb32 n hn)) 0 : sProp 𝕄)) := by
  rw [chain32_eq_bigSep, chain32_eq_bigSep, chain32_eq_bigSep, ← bigSep_sep']
  exact (bigSep_mono fun r _ => Rounds.cell_close ER (sched m) (Set.mem_univ _) (fun h => h) (R := 1)
    (duties_later m (recvCell c r.val (semInb32 r.val r.isLt)))).trans (bigSep_fupd _ _)

/-! ## A buffer as its two half shares -/

/-- Two half shares of a buffer, each at some contents, agree where they overlap and join to the buffer held whole. -/
theorem halves_join (c : Dev nD) (M : Memref sig .tc .vmem S1024x1024 .bf16) :
    iprop(∃ f f', (M.view.loc (c : Thread nD τ) ↦[M.view.set]{fullShare.left} f) ∗ (M.view.loc (c : Thread nD τ) ↦[M.view.set]{fullShare.right} f'))
      ⊢ (iprop(∃ f, held c M f) : sProp 𝕄) := by
  iintro ⟨%f, %f', Hl, Hr⟩
  icombine Hl Hr gives %hag
  have e : (M.view.loc (c : Thread nD τ) ↦[M.view.set]{fullShare.right} f' : sProp 𝕄) = (M.view.loc (c : Thread nD τ) ↦[M.view.set]{fullShare.right} f) :=
    pointsTo_congr fun i hi => ((hag i (Finset.mem_inter.mpr ⟨hi, hi⟩)).1).symm
  ihave Hr' := (Entails.of_eq e) $$ Hr
  ihave Hf := ((pointsTo_share (PosShare.mem_left_op_right fullShare)).2) $$ [Hl Hr']
  · isplitl [Hl] <;> iassumption
  iexists f
  iexact Hf

/-- A buffer held whole at some contents is its two half shares at those contents. -/
theorem halves_split (c : Dev nD) (M : Memref sig .tc .vmem S1024x1024 .bf16) :
    (iprop(∃ f, held c M f) : sProp 𝕄)
      ⊢ iprop(∃ f f', (M.view.loc (c : Thread nD τ) ↦[M.view.set]{fullShare.left} f) ∗ (M.view.loc (c : Thread nD τ) ↦[M.view.set]{fullShare.right} f')) := by
  iintro ⟨%f, H⟩
  ihave Hh := ((pointsTo_share (PosShare.mem_left_op_right fullShare)).1) $$ H
  icases Hh with ⟨Hl, Hr⟩
  iexists f
  iexists f
  isplitl [Hl] <;> iassumption

/-- The two landing buffers whole and the six conversion buffers as half shares are the eight staging buffers. -/
theorem scr8_intro (c : Dev nD) :
    iprop((∃ f, held c (fM 0) f) ∗ (∃ f, held c (fM 1) f)
        ∗ (∃ f f', ((bM 0).view.loc (c : Thread nD τ) ↦[(bM 0).view.set]{fullShare.left} f) ∗ ((bM 0).view.loc (c : Thread nD τ) ↦[(bM 0).view.set]{fullShare.right} f'))
        ∗ (∃ f f', ((bM 1).view.loc (c : Thread nD τ) ↦[(bM 1).view.set]{fullShare.left} f) ∗ ((bM 1).view.loc (c : Thread nD τ) ↦[(bM 1).view.set]{fullShare.right} f'))
        ∗ (∃ f f', ((bM 2).view.loc (c : Thread nD τ) ↦[(bM 2).view.set]{fullShare.left} f) ∗ ((bM 2).view.loc (c : Thread nD τ) ↦[(bM 2).view.set]{fullShare.right} f'))
        ∗ (∃ f f', ((bM 3).view.loc (c : Thread nD τ) ↦[(bM 3).view.set]{fullShare.left} f) ∗ ((bM 3).view.loc (c : Thread nD τ) ↦[(bM 3).view.set]{fullShare.right} f'))
        ∗ (∃ f f', ((bM 4).view.loc (c : Thread nD τ) ↦[(bM 4).view.set]{fullShare.left} f) ∗ ((bM 4).view.loc (c : Thread nD τ) ↦[(bM 4).view.set]{fullShare.right} f'))
        ∗ (∃ f f', ((bM 5).view.loc (c : Thread nD τ) ↦[(bM 5).view.set]{fullShare.left} f) ∗ ((bM 5).view.loc (c : Thread nD τ) ↦[(bM 5).view.set]{fullShare.right} f')))
      ⊢ (scr8 c : sProp 𝕄) := by
  unfold scr8
  iintro ⟨H0, H1, B0, B1, B2, B3, B4, B5⟩
  isplitl [H0]; · iexact H0
  isplitl [H1]; · iexact H1
  isplitl [B0]; · iapply (halves_join c (bM 0)); iexact B0
  isplitl [B1]; · iapply (halves_join c (bM 1)); iexact B1
  isplitl [B2]; · iapply (halves_join c (bM 2)); iexact B2
  isplitl [B3]; · iapply (halves_join c (bM 3)); iexact B3
  isplitl [B4]; · iapply (halves_join c (bM 4)); iexact B4
  iapply (halves_join c (bM 5)); iexact B5

/-- And back: each conversion buffer split into its two half shares at its contents. -/
theorem scr8_elim (c : Dev nD) :
    (scr8 c : sProp 𝕄)
      ⊢ iprop((∃ f, held c (fM 0) f) ∗ (∃ f, held c (fM 1) f)
        ∗ (∃ f f', ((bM 0).view.loc (c : Thread nD τ) ↦[(bM 0).view.set]{fullShare.left} f) ∗ ((bM 0).view.loc (c : Thread nD τ) ↦[(bM 0).view.set]{fullShare.right} f'))
        ∗ (∃ f f', ((bM 1).view.loc (c : Thread nD τ) ↦[(bM 1).view.set]{fullShare.left} f) ∗ ((bM 1).view.loc (c : Thread nD τ) ↦[(bM 1).view.set]{fullShare.right} f'))
        ∗ (∃ f f', ((bM 2).view.loc (c : Thread nD τ) ↦[(bM 2).view.set]{fullShare.left} f) ∗ ((bM 2).view.loc (c : Thread nD τ) ↦[(bM 2).view.set]{fullShare.right} f'))
        ∗ (∃ f f', ((bM 3).view.loc (c : Thread nD τ) ↦[(bM 3).view.set]{fullShare.left} f) ∗ ((bM 3).view.loc (c : Thread nD τ) ↦[(bM 3).view.set]{fullShare.right} f'))
        ∗ (∃ f f', ((bM 4).view.loc (c : Thread nD τ) ↦[(bM 4).view.set]{fullShare.left} f) ∗ ((bM 4).view.loc (c : Thread nD τ) ↦[(bM 4).view.set]{fullShare.right} f'))
        ∗ (∃ f f', ((bM 5).view.loc (c : Thread nD τ) ↦[(bM 5).view.set]{fullShare.left} f) ∗ ((bM 5).view.loc (c : Thread nD τ) ↦[(bM 5).view.set]{fullShare.right} f'))) := by
  unfold scr8
  iintro ⟨H0, H1, B0, B1, B2, B3, B4, B5⟩
  isplitl [H0]; · iexact H0
  isplitl [H1]; · iexact H1
  isplitl [B0]; · iapply (halves_split c (bM 0)); iexact B0
  isplitl [B1]; · iapply (halves_split c (bM 1)); iexact B1
  isplitl [B2]; · iapply (halves_split c (bM 2)); iexact B2
  isplitl [B3]; · iapply (halves_split c (bM 3)); iexact B3
  isplitl [B4]; · iapply (halves_split c (bM 4)); iexact B4
  iapply (halves_split c (bM 5)); iexact B5

/-- info: 'Cert.KernelIdeal.AG.close_sends' depends on axioms: [propext, Classical.choice, Quot.sound] -/
#guard_msgs in #print axioms close_sends

/-- info: 'Cert.KernelIdeal.AG.close_recvs' depends on axioms: [propext, Classical.choice, Quot.sound] -/
#guard_msgs in #print axioms close_recvs

/-- info: 'Cert.KernelIdeal.AG.scr8_intro' depends on axioms: [propext, Classical.choice, Quot.sound] -/
#guard_msgs in #print axioms scr8_intro

/-- info: 'Cert.KernelIdeal.AG.scr8_elim' depends on axioms: [propext, Classical.choice, Quot.sound] -/
#guard_msgs in #print axioms scr8_elim

end Cert.KernelIdeal.AG

end
-- ==== Proof.KernelIdeal.Steps.lean ====
import proofs.«900671_g7700000000000672_dist_ag_v7x_xyz2x2x2_z_m32768_n1024_bf16_1_alg».proof.Proof.KernelIdeal.Ghost

/-!
# The two steps of a chunk that need two readers of one conversion buffer

A conversion buffer is read by two copies at once — the local copy into the device's own result rows and the remote
copy into its partner's — so the device holds it as two half shares: it stores into it holding both, lends the left
half to the local copy and the right half to the remote one.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The whole rectangle of a staging buffer, as the body's loads and stores spell it. -/
abbrev r0 : Rect S1024x1024 := Rect.unit (s := S1024x1024) ![0, 0] S1024x1024.size inb_S1024x1024_S1024x1024_0_0

omit [FloatOps F] in
theorem hz : (![0, 0] : Fin 2 → Nat) = fun _ => 0 := funext fun a => by fin_cases a <;> rfl

/-- A store of a whole vector through a buffer held as its two half shares: both halves end at the written contents `Wc`
    (what the write through the rectangle leaves over any contents). -/
theorem wp_store_halves (c : Dev nD) {M : Memref sig .tc .vmem S1024x1024 .bf16} {r : Rect S1024x1024}
    {w : r.shape.Idx → Elt F .bf16} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (Wc : Buf (Elt F) ((M.access r).loc (c : Thread nD τ))) (hW : ∀ f, (M.access r).write (Elt F) f w Finset.univ = Wc)
    (hS : (M.access r).setOn Finset.univ ⊆ M.view.set)
    (fl fr : Buf (Elt F) ((M.access r).loc (c : Thread nD τ))) :
    iprop((M.view.loc (c : Thread nD τ) ↦[M.view.set]{fullShare.left} fl) ∗ (M.view.loc (c : Thread nD τ) ↦[M.view.set]{fullShare.right} fr))
      ⊢ iprop((((M.view.loc (c : Thread nD τ) ↦[M.view.set]{fullShare.left} Wc) ∗ (M.view.loc (c : Thread nD τ) ↦[M.view.set]{fullShare.right} Wc))
          -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  iintro ⟨Hl, Hr⟩ Hk
  icombine Hl Hr gives %hag
  have e : (M.view.loc (c : Thread nD τ) ↦[M.view.set]{fullShare.right} fr : sProp 𝕄) = (M.view.loc (c : Thread nD τ) ↦[M.view.set]{fullShare.right} fl) :=
    pointsTo_congr fun i hi => ((hag i (Finset.mem_inter.mpr ⟨hi, hi⟩)).1).symm
  ihave Hr' := (Entails.of_eq e) $$ Hr
  ihave Hf := ((pointsTo_share (PosShare.mem_left_op_right fullShare)).2) $$ [Hl Hr']
  · isplitl [Hl] <;> iassumption
  iapply (wp_store 𝒱₀ (c : Thread nD τ) none Set.univ (m := M) (r := r) (Mk := Finset.univ) (S := M.view.set) (f := fl) hS) $$ Hf
  iintro Hf
  rw [hW fl]
  ihave Hh := ((pointsTo_share (PosShare.mem_left_op_right fullShare)).1) $$ Hf
  iapply Hk
  iexact Hh

/-- Chunk `n`'s remote copy, addressed to `p = peer c`: paid with the right half of the conversion buffer, whose
    contents read as the device's converted chunk, and the partner's rows for the chunk (received at the barrier). -/
theorem wp_send_chunk (κs κr : ℕ) (c p : Dev nD) (hp : p = peer c) (n w : ℕ) (hw : w = 1024 * n) (hn : n < 32)
    {M : Memref sig .tc .vmem S1024x1024 .bf16} (hM : M = bM (n % 6))
    {hsc : (oSl c w (offInb c n w hw hn) : Memref sig (Dev.tc p : Thread nD τ).2.kind .hbm S1024x1024 .bf16).view.ref.isScScratch = false}
    {hsrc : M.view.WordExact} {hdst : (oSl c w (offInb c n w hw hn)).view.WordExact}
    {hsem : DmaTarget.Typed .vmem (.dma (recvSem n (semInb32 n hn))) (.remote (Dev.tc p : Thread nD τ) (oSl c w (offInb c n w hw hn)) (.dma (sendSem n (semInb32 n hn))) hsc)}
    {α : Type} {Q : α → sProp 𝕄} {k : PUnit → Prog (TpuEff nD τ sig (Elt F) Λ₀ .tc) α}
    (fs : Buf (Elt F) (M.view.loc (c : Thread nD τ))) (hfs : M.view.read (Elt F) fs = cval m c w (xInb n w hw hn))
    (O : CellTallies nD τ sig Unit) (W : Waits sig Unit) :
    iprop(cellInv ER (sched m) κs (sendCell c n (semInb32 n hn)) ∗ cellInv ER (sched m) κr (recvCell (peer c) n (semInb32 n hn))
        ∗ (M.view.loc (c : Thread nD τ) ↦[M.view.set]{fullShare.right} fs)
        ∗ ((oSl c w (offInb c n w hw hn)).view.loc (peer c : Thread nD τ) ↦[(oSl c w (offInb c n w hw hn)).view.set]{fullShare}
            m ((oSl c w (offInb c n w hw hn)).view.loc (peer c : Thread nD τ)))
        ∗ owes (c : Thread nD τ) (O + tallyAt (recvCell (peer c) n (semInb32 n hn)) () NC) W
        ∗ dutyTok ER (sendCell c n (semInb32 n hn)) 0 () ∗ reached ER (sendCell c n (semInb32 n hn)) 0
        ∗ dutyTok ER (recvCell (peer c) n (semInb32 n hn)) 0 () ∗ reached ER (recvCell (peer c) n (semInb32 n hn)) 0)
      ⊢ iprop(((cred (tallyAt (sendCell c n (semInb32 n hn)) () NC) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc p : Thread nD τ) (oSl c w (offInb c n w hw hn)) (.dma (sendSem n (semInb32 n hn))) hsc)
                (.dma (recvSem n (semInb32 n hn))) hsrc hdst hsem) k) Q) := by
  subst hp
  exact Rounds.wp_send_pointsTo 𝒱₀ ER (sched m) (c : Thread nD τ) none (κ₁ := κs) (κ₂ := κr)
    (r₁ := 0) (r₂ := 0) (d₁ := ()) (d₂ := ()) (fd := m ((oSl c w (offInb c n w hw hn)).view.loc (peer c : Thread nD τ)))
    (by rw [duties_send m c n hn]; exact Finset.mem_singleton_self _)
    (by rw [duties_recv m (peer c) n hn]; exact Finset.mem_singleton_self _)
    () () NC rfl (amount_send m c n _ ()) (amount_recv m (peer c) n _ ()) O rfl (W := W)
    (by rw [payload_send m c n hn]; subst hM; unfold sendPay; iintro H; iexists fs; iexact H)
    (by rw [payload_recv_peer m c n w hw hn, hfs]; exact BI.Entails.refl _)

set_option maxHeartbeats 2000000 in
/-- Chunk `n`'s remote copy, the source's contents and the fact that they read as the device's converted chunk given
    inside the premise. -/
theorem wp_send_chunk_ex (κs κr : ℕ) (c p : Dev nD) (hp : p = peer c) (n w : ℕ) (hw : w = 1024 * n) (hn : n < 32)
    {M : Memref sig .tc .vmem S1024x1024 .bf16} (hM : M = bM (n % 6))
    {hsc : (oSl c w (offInb c n w hw hn) : Memref sig (Dev.tc p : Thread nD τ).2.kind .hbm S1024x1024 .bf16).view.ref.isScScratch = false}
    {hsrc : M.view.WordExact} {hdst : (oSl c w (offInb c n w hw hn)).view.WordExact}
    {hsem : DmaTarget.Typed .vmem (.dma (recvSem n (semInb32 n hn))) (.remote (Dev.tc p : Thread nD τ) (oSl c w (offInb c n w hw hn)) (.dma (sendSem n (semInb32 n hn))) hsc)}
    {α : Type} {Q : α → sProp 𝕄} {k : PUnit → Prog (TpuEff nD τ sig (Elt F) Λ₀ .tc) α}
    (O : CellTallies nD τ sig Unit) {W : Waits sig Unit} :
    iprop((∃ fs, (M.view.loc (c : Thread nD τ) ↦[M.view.set]{fullShare.right} fs) ∗ ⌜M.view.read (Elt F) fs = cval m c w (xInb n w hw hn)⌝)
        ∗ cellInv ER (sched m) κs (sendCell c n (semInb32 n hn)) ∗ cellInv ER (sched m) κr (recvCell (peer c) n (semInb32 n hn))
        ∗ ((oSl c w (offInb c n w hw hn)).view.loc (peer c : Thread nD τ) ↦[(oSl c w (offInb c n w hw hn)).view.set]{fullShare}
            m ((oSl c w (offInb c n w hw hn)).view.loc (peer c : Thread nD τ)))
        ∗ owes (c : Thread nD τ) (O + tallyAt (recvCell (peer c) n (semInb32 n hn)) () NC) W
        ∗ dutyTok ER (sendCell c n (semInb32 n hn)) 0 () ∗ reached ER (sendCell c n (semInb32 n hn)) 0
        ∗ dutyTok ER (recvCell (peer c) n (semInb32 n hn)) 0 () ∗ reached ER (recvCell (peer c) n (semInb32 n hn)) 0)
      ⊢ iprop(((cred (tallyAt (sendCell c n (semInb32 n hn)) () NC) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc p : Thread nD τ) (oSl c w (offInb c n w hw hn)) (.dma (sendSem n (semInb32 n hn))) hsc)
                (.dma (recvSem n (semInb32 n hn))) hsrc hdst hsem) k) Q) := by
  iintro ⟨⟨%fs, Hsrc, %hfs⟩, HI1, HI2, Hrest⟩
  iapply (wp_send_chunk m κs κr c p hp n w hw hn hM fs hfs O W)
  isplitl [HI1]; · iexact HI1
  isplitl [HI2]; · iexact HI2
  isplitl [Hsrc]; · iexact Hsrc
  iexact Hrest

/-- The store when the right half comes back from a send cell (at some contents). -/
theorem wp_store_halves' (c : Dev nD) {M : Memref sig .tc .vmem S1024x1024 .bf16} (k' : ℕ) (hk : M = bM k') {r : Rect S1024x1024}
    {w : r.shape.Idx → Elt F .bf16} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (Wc : Buf (Elt F) ((M.access r).loc (c : Thread nD τ))) (hW : ∀ f, (M.access r).write (Elt F) f w Finset.univ = Wc)
    (hS : (M.access r).setOn Finset.univ ⊆ M.view.set)
    (fl : Buf (Elt F) ((M.access r).loc (c : Thread nD τ))) :
    iprop((M.view.loc (c : Thread nD τ) ↦[M.view.set]{fullShare.left} fl) ∗ sendPay c k')
      ⊢ iprop((((M.view.loc (c : Thread nD τ) ↦[M.view.set]{fullShare.left} Wc) ∗ (M.view.loc (c : Thread nD τ) ↦[M.view.set]{fullShare.right} Wc))
          -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  subst hk
  unfold sendPay
  iintro ⟨Hl, ⟨%fr, Hr⟩⟩
  iapply (wp_store_halves c Wc hW hS fl fr)
  isplitl [Hl] <;> iassumption

omit [FloatOps F] in
/-- A points-to restated at equal contents. -/
theorem pt_congr {ℓ : Loc nD τ sig} {S : Finset (Idx ℓ)} {q : PosShare TreeShare} {f g : Buf (Elt F) ℓ} (h : f = g) :
    (ℓ ↦[S]{q} f : sProp 𝕄) ⊢ ℓ ↦[S]{q} g := by subst h; exact .rfl

end Cert.KernelIdeal.AG

end
-- ==== Proof.KernelIdeal.Mid.lean ====
import proofs.«900671_g7700000000000672_dist_ag_v7x_xyz2x2x2_z_m32768_n1024_bf16_1_alg».proof.Proof.KernelIdeal.Close
import proofs.«900671_g7700000000000672_dist_ag_v7x_xyz2x2x2_z_m32768_n1024_bf16_1_alg».proof.Proof.KernelIdeal.Steps

/-!
# The body between its two ends

What a device's body runs from once its result array is held chunk by chunk and each conversion buffer as two half
shares, and what it leaves before the cells are closed and the array is joined.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two landing buffers whole and the six conversion buffers as their half shares, at some contents. -/
def scrHalves (c : Dev nD) : sProp 𝕄 :=
  iprop((∃ f, held c (fM 0) f) ∗ (∃ f, held c (fM 1) f)
    ∗ (∃ f f', ((bM 0).view.loc (c : Thread nD τ) ↦[(bM 0).view.set]{fullShare.left} f) ∗ ((bM 0).view.loc (c : Thread nD τ) ↦[(bM 0).view.set]{fullShare.right} f'))
    ∗ (∃ f f', ((bM 1).view.loc (c : Thread nD τ) ↦[(bM 1).view.set]{fullShare.left} f) ∗ ((bM 1).view.loc (c : Thread nD τ) ↦[(bM 1).view.set]{fullShare.right} f'))
    ∗ (∃ f f', ((bM 2).view.loc (c : Thread nD τ) ↦[(bM 2).view.set]{fullShare.left} f) ∗ ((bM 2).view.loc (c : Thread nD τ) ↦[(bM 2).view.set]{fullShare.right} f'))
    ∗ (∃ f f', ((bM 3).view.loc (c : Thread nD τ) ↦[(bM 3).view.set]{fullShare.left} f) ∗ ((bM 3).view.loc (c : Thread nD τ) ↦[(bM 3).view.set]{fullShare.right} f'))
    ∗ (∃ f f', ((bM 4).view.loc (c : Thread nD τ) ↦[(bM 4).view.set]{fullShare.left} f) ∗ ((bM 4).view.loc (c : Thread nD τ) ↦[(bM 4).view.set]{fullShare.right} f'))
    ∗ (∃ f f', ((bM 5).view.loc (c : Thread nD τ) ↦[(bM 5).view.set]{fullShare.left} f) ∗ ((bM 5).view.loc (c : Thread nD τ) ↦[(bM 5).view.set]{fullShare.right} f')))

/-- Before: the protocol's ghost state and launch credit, the local semaphores at zero, the input half, the result
    array's own chunks at launch contents and the chunks to hand the partner, the staging buffers, the debt. -/
def midPre (κ : GSem nD τ sig → ℕ) (c : Dev nD) (W : Waits sig Unit) : sProp 𝕄 :=
  iprop(ghost m κ c ∗ cred (tallyAt (barCell c) () 1)
    ∗ (chain32 fun n w hw hn => cred (tallyAt (recvCell c n (semInb32 n hn)) () NC)) ∗ levAts L lv
    ∗ locSems c ∗ held c xM (X0 m c) ∗ ownChunks0 m c ∗ barPayAt m (peer c) c ∗ scrHalves c
    ∗ owes (c : Thread nD τ) (O₀ c) W)

/-- After: every send and receive cell one round on, the local semaphores at zero again, the input half unchanged, the
    result array's own chunks written and the partner's landed, the staging buffers, nothing owed. -/
def midPost (c : Dev nD) : sProp 𝕄 :=
  iprop((chain32 fun n w hw hn => atPos ER (sendCell c n (semInb32 n hn)) 1 ∅ 0)
    ∗ (chain32 fun n w hw hn => atPos ER (recvCell c n (semInb32 n hn)) 1 ∅ 0)
    ∗ locSems c ∗ held c xM (X0 m c) ∗ ownChunks1 m c
    ∗ (chain32 fun n w hw hn => recvPayAt m c (peer c) n w hw hn) ∗ scrHalves c
    ∗ ∃ W', owes (c : Thread nD τ) 0 W')

end Cert.KernelIdeal.AG

end
-- ==== Proof.KernelIdeal.Vals.lean ====
import proofs.«900671_g7700000000000672_dist_ag_v7x_xyz2x2x2_z_m32768_n1024_bf16_1_alg».proof.Proof.KernelIdeal.Mid

/-!
# Whole writes read back

A landing buffer is filled whole by a local copy and then loaded whole; a conversion buffer is stored whole; a result
chunk is written whole by a local copy. Read back, each is the payload of its last whole write, whatever lay beneath:
so the conversion buffer holds the device's converted chunk, and so does the result chunk after its local copy.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading back a whole write -/

section Whole
variable {sig' : RefSig} {κ' : Kind} {Val : EltTy → Type}

/-- A load of the whole buffer (through the full-size rectangle at zero offsets, however the zeros are spelt) after a list of
    writes whose last one was a whole write reads that write's payload, whatever lies beneath. -/
theorem readAt_writes_whole_head (b : Ref sig' κ') {off : Fin b.ty.shape.rank → Nat} (h : off = fun _ => 0)
    (inb : ∀ a, off a + b.ty.shape.size a ≤ b.ty.shape.size a) (f : b.ty.Contents Val) (v : b.ty.Contents Val)
    (L : List (View.Piece Val b.ty.shape b.ty.elt)) :
    (Memref.whole b).view.readAt Val (Rect.unit off b.ty.shape.size inb).toLoadRect
        ((Memref.whole b).view.writes Val f (⟨Rect.whole b.ty.shape, v⟩ :: L)) = v := by
  rw [Memref.readAt_unit_zero Val b h inb, View.writes_cons]
  exact Memref.write_access_whole_univ Val b _ v

/-- The same for a covered load through any view of the shape: the last write, a whole one, is what it reads. -/
theorem readCov_whole_head [∀ e, Nonempty (Val e)] {sp : Space} {s : Shape} {e : EltTy} (v : View sig' κ' sp s e)
    {off : Fin s.rank → Nat} (h : off = fun _ => 0) (inb : ∀ a, off a + s.size a ≤ s.size a)
    (w : s.Idx → Val e) (L : List (View.Piece Val s e)) :
    v.readCov (⟨Rect.whole s, w⟩ :: L) (Rect.unit off s.size inb).toLoadRect = w := by
  subst h; exact View.readCov_cons_toLoadRect v (Rect.whole s) w L

/-- One whole write, as a list of writes, is the unmasked write through the view. -/
theorem writes_whole_one {sp : Space} {s : Shape} {e : EltTy} (v : View sig' κ' sp s e) (f : v.ty.Contents Val) (w : s.Idx → Val e) :
    v.writes Val f [⟨Rect.whole s, w⟩] = v.write Val f w Finset.univ := by
  show (v.slice (Rect.whole s)).write Val f w Finset.univ = _
  funext i
  by_cases hi : i ∈ v.set
  · obtain ⟨x, -, rfl⟩ := Finset.mem_map.mp hi
    have e1 : v.emb x = (v.slice (Rect.whole s)).emb x := by
      show _ = v.emb ((Rect.whole s).emb x); rw [Rect.emb_whole_apply]
    conv_lhs => rw [e1, View.write_emb_of_mem _ _ (Finset.mem_univ _)]
    rw [View.write_emb_of_mem _ _ (Finset.mem_univ _)]
  · have hs : (v.slice (Rect.whole s)).set = v.set := by
      rw [View.set_slice, Rect.set_whole]; rfl
    rw [View.write_of_not_mem _ _ _ (by rw [View.setOn_univ, hs]; exact hi),
      View.write_of_not_mem _ _ _ (by rw [View.setOn_univ]; exact hi)]

end Whole

/-- A covered load of a whole staging buffer, as the body spells its rectangle, after a whole write. -/
theorem readCov_r0 {sp : Space} {e : EltTy} (v : View sig .tc sp S1024x1024 e) (w : S1024x1024.Idx → Elt F e)
    (L : List (View.Piece (Elt F) S1024x1024 e)) :
    v.readCov (⟨Rect.whole S1024x1024, w⟩ :: L)
        (Rect.unit (s := S1024x1024) ![0, 0] S1024x1024.size inb_S1024x1024_S1024x1024_0_0).toLoadRect = w :=
  readCov_whole_head v hz _ w L

/-- A conversion buffer's contents, and a result chunk's after its local copy, are the device's converted chunk: a whole write read
    back is its payload (`writes_whole_one`, `readCov_r0`), the whole view reads its buffer's contents (`View.read_whole`), and the
    conversion of the input chunk the landing buffer received is the converted chunk by definition. -/
macro "chunk_val" : tactic =>
  `(tactic| (sl_unfold_run_names; (try erw [writes_whole_one]); rw [View.read_whole]; erw [readCov_r0]; rfl))

/-- info: 'Cert.KernelIdeal.AG.readAt_writes_whole_head' depends on axioms: [propext, Classical.choice, Quot.sound] -/
#guard_msgs in #print axioms readAt_writes_whole_head

/-- info: 'Cert.KernelIdeal.AG.writes_whole_one' depends on axioms: [propext, Classical.choice, Quot.sound] -/
#guard_msgs in #print axioms writes_whole_one

/-- info: 'Cert.KernelIdeal.AG.readCov_r0' depends on axioms: [propext, Classical.choice, Quot.sound] -/
#guard_msgs in #print axioms readCov_r0

end Cert.KernelIdeal.AG

end
-- ==== Proof.KernelIdeal.BodyMid.lean ====
import proofs.«900671_g7700000000000672_dist_ag_v7x_xyz2x2x2_z_m32768_n1024_bf16_1_alg».proof.Proof.KernelIdeal.Mid
import proofs.«900671_g7700000000000672_dist_ag_v7x_xyz2x2x2_z_m32768_n1024_bf16_1_alg».proof.Proof.KernelIdeal.Vals

/-!
# The body's run, chunk by chunk

One device's body from `midPre` to `midPost`. A conversion buffer has two readers at once — the local copy into the
device's own result rows takes its left half share, the remote copy into the partner's rows is paid with its right
half — so the store into it joins and splits the two halves, and the remote copy hands the partner's receive cell the
partner's rows rewritten with the converted chunk. The 32 chunks differ only in numerals: each of these two steps is
one tactic text over the chunk's number.
-/

open Lean Elab Tactic in
/-- Run a tactic given as text. -/
def Cert.KernelIdeal.AG.runTacText (s : String) : TacticM Unit := do
  match Parser.runParserCategory (← getEnv) `tactic s with
  | .ok stx => evalTactic stx
  | .error e => throwError "{e}\n{s}"

namespace Cert.KernelIdeal.AG.Text

/-- `⟨b0, …, b31⟩`, each name marked persistent or not. -/
def pat (b : String) (pers : Bool := false) : String :=
  "⟨" ++ ", ".intercalate ((List.range 32).map fun i => (if pers then "#" else "") ++ b ++ toString i) ++ "⟩"

/-- Opening `midPre`: every cell's invariant, position, reached round and token, the credit, the local semaphores, the
    buffers. -/
def intro : String :=
  "iintro ⟨⟨⟨⟨#HIb, #HIpb, " ++ pat "HIs" true ++ ", " ++ pat "HIr" true ++ ", " ++ pat "HIp" true ++ "⟩, Hatb, " ++ pat "Has" ++ ", " ++ pat "Har"
    ++ ", #Hrpb, " ++ pat "Hrs" true ++ ", " ++ pat "Hrp" true ++ ", Htokb, " ++ pat "Hts" ++ ", " ++ pat "Htp" ++ "⟩, Hcrb, " ++ pat "Hcr"
    ++ ", #Hlev, ⟨Hl0, Hl1, Hst0, Hst1, Hst2, Hst3, Hst4, Hst5⟩, Hx, " ++ pat "Ho" ++ ", Hgive, "
    ++ "⟨⟨%f0, Hf0⟩, ⟨%f1, Hf1⟩, ⟨%g0, %g0', Hb0l, Hb0r⟩, ⟨%g1, %g1', Hb1l, Hb1r⟩, ⟨%g2, %g2', Hb2l, Hb2r⟩, ⟨%g3, %g3', Hb3l, Hb3r⟩, ⟨%g4, %g4', Hb4l, Hb4r⟩, ⟨%g5, %g5', Hb5l, Hb5r⟩⟩, HO⟩, Hk⟩"

/-- The store of chunk `n` into conversion buffer `n % 6`, held as two halves: for the first six chunks the halves the
    device started with, later the left half the local copy's wait returned and the right half the send cell's. -/
def store (n : Nat) : String :=
  let k := n % 6
  let b := s!"cc0_scratch{2 + k}"
  let tail := s!"(r := r0) _ (fun f => Memref.write_access_unit_zero_univ (Elt F) {b} hz _ f _) (by rw [View.set_whole]; exact Finset.subset_univ _) _"
  if n < 6 then
    s!"(iapply (wp_store_halves c (M := Memref.whole {b}) {tail} _) $$ [Hb{k}l Hb{k}r]; isplitl [Hb{k}l]; iexact Hb{k}l; iexact Hb{k}r; iintro ⟨Hb{k}l, Hb{k}r⟩)"
  else
    s!"(iapply (wp_store_halves' c (M := Memref.whole {b}) {k} rfl {tail}) $$ [Hb{k}l Has{n - 6}_pay1]; isplitl [Hb{k}l]; iexact Hb{k}l; iexact Has{n - 6}_pay1; iintro ⟨Hb{k}l, Hb{k}r⟩)"

/-- The remote copy of chunk `n`. -/
def send (n : Nat) : String :=
  let k := n % 6
  s!"(rw [owedFrom_peel c {n} (by decide)]; iapply (wp_send_chunk_ex m (κ (sendCell c {n} (semInb32 {n} (by decide)))) (κ (recvCell (peer c) {n} (semInb32 {n} (by decide)))) c _ (dev_eq{n + 2} c) {n} {1024 * n} rfl (by decide) (M := Memref.whole cc0_scratch{2 + k}) rfl (owedFrom c {n + 1})) $$ [Hb{k}r Hp{n} HO Hts{n} Htp{n}]; isplitl [Hb{k}r]; iexists _; isplitl [Hb{k}r]; iexact Hb{k}r; ipureintro; chunk_val; isplitr; iexact HIs{n}; isplitr; iexact HIp{n}; isplitl [Hp{n}]; iexact Hp{n}; isplitl [HO]; iexact HO; isplitl [Hts{n}]; iexact Hts{n}; isplitr; iexact Hrs{n}; isplitl [Htp{n}]; iexact Htp{n}; iexact Hrp{n}; iintro ⟨Hcs{n}, HO⟩)"

/-- `b0 … b31`, space separated (a frame list). -/
def names (b : String) (sfx : String := "") : String := " ".intercalate ((List.range 32).map fun i => b ++ toString i ++ sfx)

/-- Closing a 32-chain goal from the hypotheses `b{i}{sfx}`, each by the tactic text `fin i`. -/
def chainBy (b : String) (sfx : String) (fin : Nat → String) : String :=
  "; ".intercalate ((List.range 32).map fun i =>
    if i < 31 then s!"isplitl [{b}{i}{sfx}]; {fin i}" else fin i)

/-- Assembling `midPost` from what the run leaves. -/
def post : String :=
  let scr (k n : Nat) (last : Bool) : String :=
    let core := s!"icases Has{n}_pay1 with ⟨%fr{k}, Hr{k}⟩; iexists _; iexists _; isplitl [Hb{k}l]; iexact Hb{k}l; iexact Hr{k}"
    if last then core else s!"isplitl [Hb{k}l Has{n}_pay1]; {core}"
  "(sl_step; iapply Hk; unfold midPost ownChunks1 locSems scrHalves held sendPay chain32; beta_reduce; "
  ++ s!"isplitl [{names "Has"}]; " ++ chainBy "Has" "" (fun i => s!"iexact Has{i}") ++ "; "
  ++ s!"isplitl [{names "Har"}]; " ++ chainBy "Har" "" (fun i => s!"iexact Har{i}") ++ "; "
  ++ "isplitl [Hl0 Hl1 Hst0 Hst1 Hst2 Hst3 Hst4 Hst5]; isplitl [Hl0]; iexact Hl0; isplitl [Hl1]; iexact Hl1; isplitl [Hst0]; iexact Hst0; isplitl [Hst1]; iexact Hst1; isplitl [Hst2]; iexact Hst2; isplitl [Hst3]; iexact Hst3; isplitl [Hst4]; iexact Hst4; iexact Hst5; "
  ++ "isplitl [Hx]; iexact Hx; "
  ++ s!"isplitl [{names "Ho"}]; " ++ chainBy "Ho" "" (fun i => s!"iapply (pt_congr ?_) $$ Ho{i}; chunk_val") ++ "; "
  ++ s!"isplitl [{names "Har" "_pay1"}]; " ++ chainBy "Har" "_pay1" (fun i => s!"iexact Har{i}_pay1") ++ "; "
  ++ "isplitl [Hf0 Hf1 Hb0l Hb1l Hb2l Hb3l Hb4l Hb5l Has26_pay1 Has27_pay1 Has28_pay1 Has29_pay1 Has30_pay1 Has31_pay1]; "
  ++ "isplitl [Hf0]; iexists _; iexact Hf0; isplitl [Hf1]; iexists _; iexact Hf1; "
  ++ scr 0 30 false ++ "; " ++ scr 1 31 false ++ "; " ++ scr 2 26 false ++ "; " ++ scr 3 27 false ++ "; " ++ scr 4 28 false ++ "; " ++ scr 5 29 true ++ "; "
  ++ "iexists _; iexact HO)"

end Cert.KernelIdeal.AG.Text

namespace Cert.KernelIdeal.AG

open Lean Elab Tactic in
elab "ag_intro" : tactic => Cert.KernelIdeal.AG.runTacText Cert.KernelIdeal.AG.Text.intro
open Lean Elab Tactic in
elab "ag_open " h:ident " as " b:ident : tactic =>
  Cert.KernelIdeal.AG.runTacText s!"icases {h.getId} with {Cert.KernelIdeal.AG.Text.pat b.getId.toString}"
open Lean Elab Tactic in
elab "ag_store " n:num : tactic => Cert.KernelIdeal.AG.runTacText (Cert.KernelIdeal.AG.Text.store n.getNat)
open Lean Elab Tactic in
elab "ag_send " n:num : tactic => Cert.KernelIdeal.AG.runTacText (Cert.KernelIdeal.AG.Text.send n.getNat)
open Lean Elab Tactic in
/-- Chunks `a` to `b - 1`, each: the store into the conversion buffer, the local copy out of it, the remote copy out of it,
    and on to the next chunk's store. -/
elab "ag_run " a:num b:num : tactic => do
  for n in [a.getNat : b.getNat] do
    Cert.KernelIdeal.AG.runTacText (Cert.KernelIdeal.AG.Text.store n)
    Cert.KernelIdeal.AG.runTacText "sl_exec (disch := decide)"
    Cert.KernelIdeal.AG.runTacText (Cert.KernelIdeal.AG.Text.send n)
    Cert.KernelIdeal.AG.runTacText "sl_exec (disch := decide)"
open Lean Elab Tactic in
elab "ag_post" : tactic => Cert.KernelIdeal.AG.runTacText Cert.KernelIdeal.AG.Text.post
open Lean Elab Command in
/-- The device every signal and remote copy addresses is the partner: one equation per printed device chain. -/
elab "ag_dev_eqs" : command => do
  for i in [1:34] do
    let s := s!"theorem dev_eq{i} (c : Dev nD) : (⟨k0_dev{i} c, k0_dev{i}_lt c⟩ : Dev nD) = peer c := Fin.ext (k0_dev{i}_eq c)"
    match Parser.runParserCategory (← getEnv) `command s with
    | .ok stx => elabCommand stx
    | .error e => throwError "{e}"

end Cert.KernelIdeal.AG

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

ag_dev_eqs
attribute [local sl_canon] dev_eq1

attribute [local sl_rounds high] payload_bar_peer
attribute [local sl_rounds] duties_bar duties_send duties_recv amount_bar amount_send amount_recv expect_bar expect_send expect_recv
  payload_bar payload_send

/-- A receive cell's payload with the word offset computed from the chunk's number. -/
theorem payload_recv' (c : Dev nD) (n : ℕ) (hn : n < 32) (h : SemInb32 n) (d : Unit) :
    (sched m).payload (recvCell c n h) 0 d = recvPayAt m c (peer c) n (1024 * n) rfl hn := payload_recv m c n (1024 * n) rfl hn h d
attribute [local sl_rounds] payload_recv'

set_option maxHeartbeats 8000000 in
set_option maxRecDepth 100000 in
/-- The body from `midPre` to `midPost`. -/
theorem body_mid (κ : GSem nD τ sig → ℕ) (c : Dev nD) (W : Waits sig Unit) (Kt : PUnit → sProp 𝕄) :
    iprop(midPre m κ c W ∗ (midPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Kt := by
  unfold midPre ghost invs locSems ownChunks0 scrHalves held chain32 O₀
  beta_reduce
  ag_intro
  have hmw : ∀ (n : ℕ) (sm : SemLoc sig), lv ((c : Thread nD τ), sm) () < 2 →
      ((levAts L lv : sProp 𝕄) ⊢ MayWait (c : Thread nD τ) sm () (owedFrom c n)) := fun n sm h => mayWait_low c n sm h
  sl_exec (disch := decide)
  unfold barPayAt chain32
  beta_reduce
  ag_open Hatb_pay1 as Hp
  ag_run 0 32
  rw [owedFrom_done c]
  sl_exec (disch := decide)
  ag_post

/-- info: 'Cert.KernelIdeal.AG.body_mid' depends on axioms: [propext, Classical.choice, Quot.sound] -/
#guard_msgs in #print axioms body_mid

end Cert.KernelIdeal.AG

end
-- ==== Proof.KernelIdeal.Body.lean ====
import proofs.«900671_g7700000000000672_dist_ag_v7x_xyz2x2x2_z_m32768_n1024_bf16_1_alg».proof.Proof.KernelIdeal.BodyMid

/-!
# The body, on one device

The library's obligation at the grid's one point, from the body's run between its two ends: before it the result
array is cut into its chunks and each conversion buffer into its half shares; after it the send and receive cells are
closed, their counters joined to the local ones, the chunks and the half shares joined back.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No window is staged: a family over the windows is empty. -/
theorem bigSep_W0 (Φ : Fin cfg0.W → sProp 𝕄) : bigSep Finset.univ Φ = iprop(emp) := by
  rw [show (Finset.univ : Finset (Fin cfg0.W)) = ∅ from Finset.univ_eq_empty]; rfl

/-- What the library hands the body at the point, and what it wants back. -/
def bodyPre' (c : Dev nD) : sProp 𝕄 := iprop(Φ₀ m c ∗ (dats m 0 c).owesAt () t0_0.castSucc ∗ emp)
def bodyPost (c : Dev nD) : sProp 𝕄 := iprop(Φ₁ m c ∗ (dats m 0 c).owesAt () t0_0.succ ∗ emp)

instance chain32_persistent (Φ : (n w : ℕ) → w = 1024 * n → n < 32 → sProp 𝕄) [∀ n w hw hn, BI.Persistent (Φ n w hw hn)] :
    BI.Persistent (chain32 Φ) := by
  rw [chain32_eq_bigSep]; infer_instance

instance invs_persistent (κ : GSem nD τ sig → ℕ) (c : Dev nD) : BI.Persistent (invs m κ c) := by
  unfold invs; infer_instance

/-- The end of the body: the send and receive cells closed, their counters the device's own again with the local ones;
    the result array and the conversion buffers whole again. -/
theorem body_end (κ : GSem nD τ sig → ℕ) (c : Dev nD) :
    iprop(invs m κ c ∗ midPost m c) ⊢ |={Set.univ}=> bodyPost m c := by
  unfold invs midPost scrHalves bodyPost Φ₁ Dat.owesAt Pipeline.owesWithin
  rw [show (dats m 0 c).owed t0_0.succ = 0 from rfl]
  iintro ⟨⟨-, -, HIs, HIr, -⟩, HaS, HaR, Hl, Hx, Hown, Hrecv, Hscr, %W', HO⟩
  imod (close_sends m κ c) $$ [HIs HaS] with HzS
  · isplitl [HIs] <;> iassumption
  imod (close_recvs m κ c) $$ [HIr HaR] with HzR
  · isplitl [HIr] <;> iassumption
  imodintro
  isplitl [Hl Hx Hown Hrecv Hscr HzS HzR]
  · isplitl [Hx]; · iexact Hx
    isplitl [Hown Hrecv]
    · iapply (out_join m c); isplitl [Hown] <;> iassumption
    isplitl [Hscr]
    · iapply (scr8_intro c); iexact Hscr
    · iapply (ownSems_intro (F := F) c)
      isplitl [Hl]; · iexact Hl
      isplitl [HzS] <;> iassumption
  isplitl [HO]
  · iexists W'
    isplitr; · ipureintro; exact fun _ _ => Or.inl trivial
    iexact HO
  · iempintro

set_option maxRecDepth 200000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  show bodyPre' m c ⊢ wp frame (wpE (defs₀ (F := F)) 𝒱₀ c none) Set.univ
    (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11)
    (fun _ => bodyPost m c)
  unfold bodyPre' Φ₀ start Dat.owesAt Pipeline.owesWithin
  rw [show (dats m 0 c).owed t0_0.castSucc = O₀ c from rfl]
  iintro ⟨⟨⟨⟨%κ, Hg⟩, H1, HN, Hlev⟩, Hl, Hx, Ho, Hscr⟩, ⟨%W, -, HO⟩, -⟩
  ihave HI := (show ghost m κ c ⊢ iprop(invs m κ c ∗ ghost m κ c) from by
    unfold ghost
    iintro ⟨#HI, Hr⟩
    isplitr; · iexact HI
    isplitr; · iexact HI
    iexact Hr) $$ Hg
  icases HI with ⟨#HI, Hg⟩
  ihave Hsp := (out_split m c) $$ Ho
  icases Hsp with ⟨Hown, Hbar⟩
  ihave Hh := (scr8_elim (F := F) c) $$ Hscr
  iapply (wp_fupd frame (wpE (defs₀ (F := F)) 𝒱₀ (c : Thread nD τ) none) Set.univ _ (fun _ => bodyPost m c))
  iapply (body_mid m κ c W (fun _ => iprop(|={Set.univ}=> bodyPost m c)))
  isplitr []
  · unfold midPre scrHalves
    isplitl [Hg]; · iexact Hg
    isplitl [H1]; · iexact H1
    isplitl [HN]; · iexact HN
    isplitl [Hlev]; · iexact Hlev
    isplitl [Hl]; · iexact Hl
    isplitl [Hx]; · iexact Hx
    isplitl [Hown]; · iexact Hown
    isplitl [Hbar]; · iexact Hbar
    isplitl [Hh]; · iexact Hh
    iexact HO
  · iintro Hpost
    iapply (body_end m κ c)
    isplitr; · iexact HI
    iexact Hpost

/-- info: 'Cert.KernelIdeal.AG.body_end' depends on axioms: [propext, Classical.choice, Quot.sound] -/
#guard_msgs in #print axioms body_end

/-- info: 'Cert.KernelIdeal.AG.body_obligation' depends on axioms: [propext, Classical.choice, Quot.sound] -/
#guard_msgs in #print axioms body_obligation

end Cert.KernelIdeal.AG

end
-- ==== Proof.KernelIdeal.Launch.lean ====
import proofs.«900671_g7700000000000672_dist_ag_v7x_xyz2x2x2_z_m32768_n1024_bf16_1_alg».proof.Proof.KernelIdeal.Body
import proofs.«900671_g7700000000000672_dist_ag_v7x_xyz2x2x2_z_m32768_n1024_bf16_1_alg».proof.Proof.Gen.KernelIdeal.Frame

/-!
# The launch: every device's body proved, the program runs

The launch element funds the partners' cells: per device its barrier cell, 32 send cells and 32 receive cells, one
duty token each. One global step allocates every cell's invariant from its counter at zero and deals the tokens to
the devices that pay them (a barrier or receive token goes to the partner). Each device then enters its one grid
point holding `Φ₀` and leaves it holding `Φ₁`, from which the final memory is read.
-/

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's payloads may be kept in an invariant -/

instance sched_payload_storable (g : GSem nD τ sig) (r : ℕ) (d : Unit) :
    BI.Storable (upEmb : UEmb _ 𝕄) ((sched (F := F) m).payload g r d) := by
  show BI.Storable upEmb (match g.2 with
    | .reg _ => barPayAt m g.1.1 (peer g.1.1)
    | .dma q =>
      if h : q.val < 40 then sendPay g.1.1 ((q.val - 8) % 6)
      else if h' : q.val - 40 < 32 then recvPayAt m g.1.1 (peer g.1.1) (q.val - 40) (1024 * (q.val - 40)) rfl h'
      else iprop(emp))
  split
  · unfold barPayAt; rw [chain32_eq_bigSep]; infer_instance
  · split
    · unfold sendPay; infer_instance
    · split
      · unfold recvPayAt; infer_instance
      · infer_instance

/-! ## The cells, indexed: per device the barrier cell, the 32 send cells, the 32 receive cells -/

theorem ownSemFacts : Pipeline.OwnSemFacts cfg0.spec osem := by decide

abbrev KI : Type := Unit ⊕ (Fin 32 ⊕ Fin 32)

abbrev csem : KI → SemLoc sig
  | .inl _ => .reg barS
  | .inr (.inl n) => .dma (sendSem n.val (semInb32 n.val n.isLt))
  | .inr (.inr n) => .dma (recvSem n.val (semInb32 n.val n.isLt))
abbrev kcell (ck : Dev nD × KI) : GSem nD τ sig := ((ck.1 : Thread nD τ), csem ck.2)

theorem csem_injective : Function.Injective csem := by
  rintro (a | a | a) (b | b | b) h
  · rfl
  · exact absurd h (fun h => by cases h)
  · exact absurd h (fun h => by cases h)
  · exact absurd h (fun h => by cases h)
  · have e := congrArg (fun q : DmaSem sig => q.val) (SemLoc.dma.inj h)
    dsimp only at e
    rw [sendSem_val _ a.isLt, sendSem_val _ b.isLt] at e
    exact congrArg _ (congrArg _ (Fin.ext (by omega)))
  · have e := congrArg (fun q : DmaSem sig => q.val) (SemLoc.dma.inj h)
    dsimp only at e
    rw [sendSem_val _ a.isLt, recvSem_val _ b.isLt] at e
    have := a.isLt; omega
  · exact absurd h (fun h => by cases h)
  · have e := congrArg (fun q : DmaSem sig => q.val) (SemLoc.dma.inj h)
    dsimp only at e
    rw [recvSem_val _ a.isLt, sendSem_val _ b.isLt] at e
    have := b.isLt; omega
  · have e := congrArg (fun q : DmaSem sig => q.val) (SemLoc.dma.inj h)
    dsimp only at e
    rw [recvSem_val _ a.isLt, recvSem_val _ b.isLt] at e
    exact congrArg _ (congrArg _ (Fin.ext (by omega)))

theorem kcell_injective : Function.Injective (kcell : Dev nD × KI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def agCells : Finset (GSem nD τ sig) := Finset.univ.map ⟨kcell, kcell_injective⟩

abbrev tokOf (ck : Dev nD × KI) : GSem nD τ sig × ℕ × Unit := (kcell ck, 0, ())
theorem tokOf_injective : Function.Injective (tokOf : Dev nD × KI → GSem nD τ sig × ℕ × Unit) :=
  fun a b h => kcell_injective (congrArg Prod.fst h)
def agToks : Finset (GSem nD τ sig × ℕ × Unit) := Finset.univ.map ⟨tokOf, tokOf_injective⟩

/-- The launch element: the pipeline library's (no staging cell), the partners' cells and tokens, no counter. -/
def u₀ : UU :=
  (initOf (Pipeline.cells cfgs cellOf_inj) (Pipeline.launchToks cfgs cellOf_inj), (initOf agCells agToks, 1))

/-- A family over one device's cells, cell by cell. -/
theorem bigSep_KI (Φ : KI → sProp 𝕄) :
    bigSep Finset.univ Φ = iprop(Φ (.inl ()) ∗ (chain32 fun n w hw hn => Φ (.inr (.inl ⟨n, hn⟩)))
      ∗ (chain32 fun n w hw hn => Φ (.inr (.inr ⟨n, hn⟩)))) := by
  rw [bigSep_univ_sum, bigSep_univ_sum, bigSep_univ_of_subsingleton (), chain32_eq_bigSep, chain32_eq_bigSep]
  rfl

/-- A family over the cells of the protocol, device by device. -/
theorem bigSep_agCells (Φ : GSem nD τ sig → sProp 𝕄) :
    bigSep agCells Φ = bigSep Finset.univ fun c : Dev nD => bigSep Finset.univ fun k : KI => Φ (kcell (c, k)) := by
  unfold agCells; rw [bigSep_map, bigSep_univ_prod]; rfl

/-- The duty tokens of device `c`'s own cells. -/
def toks (c : Dev nD) : sProp 𝕄 := bigSep Finset.univ fun k : KI => dutyTok ER (kcell (c, k)) 0 ()

/-- What the launch element deals device `c` (the theorem's `G`). -/
def G (c : Dev nD) : sProp 𝕄 :=
  iprop((bigSep Finset.univ fun k : KI => roundState ER (sched m) (kcell (c, k)) 0)
    ∗ (bigSep Finset.univ fun k : KI => atPos ER (kcell (c, k)) 0 ∅ 0)
    ∗ (bigSep Finset.univ fun k : KI => reached ER (kcell (c, k)) 0) ∗ toks c)

/-- What the global step makes of it (`G'`): the ghost state at some names, the eight local semaphores at zero. -/
def G' (c : Dev nD) : sProp 𝕄 := iprop((∃ κ, ghost m κ c) ∗ locSems c)

theorem fund_ag : BI.own (ER (initOf agCells agToks)) ⊢ (|==> bigSep Finset.univ (G m) : sProp 𝕄) := by
  have hT : bigSep agToks (fun x => (dutyTok ER x.1 x.2.1 x.2.2 : sProp 𝕄)) = bigSep Finset.univ fun c : Dev nD => toks c := by
    unfold agToks; rw [bigSep_map, bigSep_univ_prod]; rfl
  iintro HX
  imod (Rounds.fund ER (sched m) agCells agToks) $$ HX with ⟨Hst, Hr, Hat, Htok⟩
  imodintro
  ihave Hst' := (Entails.of_eq (bigSep_agCells fun g => roundState ER (sched m) g 0)) $$ Hst
  ihave Hat' := (Entails.of_eq (bigSep_agCells (F := F) fun g => atPos ER g 0 ∅ 0)) $$ Hat
  ihave Hr' := (Entails.of_eq (bigSep_agCells (F := F) fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ### The semaphores at zero, sorted -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The 72 DMA semaphores as the first eight, the next 32, the last 32. -/
def split72 : Fin 8 ⊕ (Fin 32 ⊕ Fin 32) ≃ Fin 72 :=
  (Equiv.sumCongr (Equiv.refl (Fin 8)) (finSumFinEquiv : Fin 32 ⊕ Fin 32 ≃ Fin (32 + 32))).trans
    (finSumFinEquiv : Fin 8 ⊕ Fin (32 + 32) ≃ Fin (8 + (32 + 32)))

theorem split72_lo (a : Fin 8) : (split72 (.inl a)).val = a.val := rfl
theorem split72_mid (a : Fin 32) : (split72 (.inr (.inl a))).val = 8 + a.val := rfl
theorem split72_hi (a : Fin 32) : (split72 (.inr (.inr a))).val = 40 + a.val := by
  show 8 + (32 + a.val) = 40 + a.val; omega

theorem bigSep_fin72 (Φ : Fin 72 → sProp 𝕄) :
    bigSep Finset.univ Φ = iprop((bigSep Finset.univ fun a : Fin 8 => Φ (split72 (.inl a)))
      ∗ (bigSep Finset.univ fun a : Fin 32 => Φ (split72 (.inr (.inl a))))
      ∗ (bigSep Finset.univ fun a : Fin 32 => Φ (split72 (.inr (.inr a))))) := by
  rw [bigSep_univ_equiv split72 Φ, bigSep_univ_sum, bigSep_univ_sum]
  rfl

theorem semVal_dma_congr (c : Dev nD) {q q' : DmaSem sig} (h : q.val = q'.val) :
    (semVal ((c : Thread nD τ), .dma q) 0 : sProp 𝕄) = semVal ((c : Thread nD τ), .dma q') 0 := by
  rw [Fin.ext h]

/-- The kernel's own semaphores at zero: the eight local ones, the send and the receive semaphores. -/
theorem ownSems0_split (c : Dev nD) :
    (Pipeline.ownSems0 (Ix := Unit) (Name := ℕ) (U := UU) (Lvl := ℕ) (Val := Elt F) (τ := τ) osem c : sProp 𝕄)
      = iprop(locSems c ∗ (chain32 fun n w hw hn => semVal (sendCell c n (semInb32 n hn)) 0)
          ∗ (chain32 fun n w hw hn => semVal (recvCell c n (semInb32 n hn)) 0)) := by
  unfold Pipeline.ownSems0
  rw [bigSep_fin72, chain32_eq_bigSep, chain32_eq_bigSep]
  refine congrArg₂ _ ?_ (congrArg₂ _ ?_ ?_)
  · rw [bigSep_univ_eq_bigSepL [0, 1, 2, 3, 4, 5, 6, 7] (by decide) (by decide)]
    unfold locSems
    simp only [bigSepL_cons_cons, bigSepL_singleton]
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    exact semVal_dma_congr c (by rw [split72_lo]; decide)
  · exact bigSep_congr fun r _ => semVal_dma_congr c (by rw [split72_mid, sendSem_val _ r.isLt])
  · exact bigSep_congr fun r _ => semVal_dma_congr c (by rw [split72_hi, recvSem_val _ r.isLt])

theorem sems_split (c : Dev nD) :
    iprop(Pipeline.ownSems0 (Ix := Unit) (Name := ℕ) (U := UU) (Lvl := ℕ) (Val := Elt F) (τ := τ) osem c ∗ unscopedSems0 c)
      ⊢ iprop(locSems c ∗ bigSep Finset.univ fun k : KI => (semVal (kcell (c, k)) 0 : sProp 𝕄)) := by
  rw [ownSems0_split, unscopedSems0_eq, bigSep_KI]
  iintro ⟨⟨Hl, Hs, Hr⟩, Hb⟩
  isplitl [Hl]; · iexact Hl
  isplitl [Hb]; · iexact Hb
  isplitl [Hs] <;> iassumption

/-! ### The invariants allocated, the tokens dealt to their payers -/

/-- The persistent records of the launch: every cell's invariant under its name, round 0 of every cell reached. -/
def records (κ : GSem nD τ sig → ℕ) : sProp 𝕄 :=
  iprop((bigSep Finset.univ fun ck : Dev nD × KI => cellInv ER (sched m) (κ (kcell ck)) (kcell ck))
    ∗ bigSep Finset.univ fun ck : Dev nD × KI => reached ER (kcell ck) 0)

instance records_persistent (κ : GSem nD τ sig → ℕ) : BI.Persistent (records m κ) := by unfold records; infer_instance

theorem rec_inv (κ : GSem nD τ sig → ℕ) (ck : Dev nD × KI) :
    records m κ ⊢ cellInv ER (sched m) (κ (kcell ck)) (kcell ck) := by
  unfold records
  iintro ⟨HI, -⟩
  iapply (show (bigSep Finset.univ fun ck : Dev nD × KI => (cellInv ER (sched m) (κ (kcell ck)) (kcell ck) : sProp 𝕄))
    ⊢ cellInv ER (sched m) (κ (kcell ck)) (kcell ck) from bigSep_elim (Finset.mem_univ ck))
  iexact HI
theorem rec_reached (κ : GSem nD τ sig → ℕ) (ck : Dev nD × KI) : records m κ ⊢ reached ER (kcell ck) 0 := by
  unfold records
  iintro ⟨-, HR⟩
  iapply (show (bigSep Finset.univ fun ck : Dev nD × KI => (reached ER (kcell ck) 0 : sProp 𝕄)) ⊢ reached ER (kcell ck) 0
    from bigSep_elim (Finset.mem_univ ck))
  iexact HR

/-- A persistent assertion that yields each of the 32 members yields the chain. -/
theorem chain32_intro_persistent {R : sProp 𝕄} [BI.Persistent R] (Φ : (n w : ℕ) → w = 1024 * n → n < 32 → sProp 𝕄)
    (h : ∀ n w hw hn, R ⊢ Φ n w hw hn) : R ⊢ chain32 Φ := by
  rw [chain32_eq_bigSep]; exact BI.bigSep_intro_persistent fun r _ => h _ _ _ _

theorem rec_inv_send (κ : GSem nD τ sig → ℕ) (d : Dev nD) :
    records m κ ⊢ chain32 fun n w hw hn => cellInv ER (sched m) (κ (sendCell d n (semInb32 n hn))) (sendCell d n (semInb32 n hn)) :=
  chain32_intro_persistent _ fun n w hw hn => rec_inv m κ (d, .inr (.inl ⟨n, hn⟩))
theorem rec_inv_recv (κ : GSem nD τ sig → ℕ) (d : Dev nD) :
    records m κ ⊢ chain32 fun n w hw hn => cellInv ER (sched m) (κ (recvCell d n (semInb32 n hn))) (recvCell d n (semInb32 n hn)) :=
  chain32_intro_persistent _ fun n w hw hn => rec_inv m κ (d, .inr (.inr ⟨n, hn⟩))
theorem rec_reached_send (κ : GSem nD τ sig → ℕ) (d : Dev nD) :
    records m κ ⊢ chain32 fun n w hw hn => reached ER (sendCell d n (semInb32 n hn)) 0 :=
  chain32_intro_persistent _ fun n w hw hn => rec_reached m κ (d, .inr (.inl ⟨n, hn⟩))
theorem rec_reached_recv (κ : GSem nD τ sig → ℕ) (d : Dev nD) :
    records m κ ⊢ chain32 fun n w hw hn => reached ER (recvCell d n (semInb32 n hn)) 0 :=
  chain32_intro_persistent _ fun n w hw hn => rec_reached m κ (d, .inr (.inr ⟨n, hn⟩))

/-- The tokens of the duties device `c` pays: its partner's barrier duty, its own send duties, its partner's receive
    duties. -/
def payToks (c : Dev nD) : sProp 𝕄 :=
  iprop(dutyTok ER (barCell (peer c)) 0 () ∗ (chain32 fun n w hw hn => dutyTok ER (sendCell c n (semInb32 n hn)) 0 ())
    ∗ (chain32 fun n w hw hn => dutyTok ER (recvCell (peer c) n (semInb32 n hn)) 0 ()))
/-- What stays with device `c`: its positions, and those tokens. -/
def linear (c : Dev nD) : sProp 𝕄 :=
  iprop((bigSep Finset.univ fun k : KI => atPos ER (kcell (c, k)) 0 ∅ 0) ∗ payToks c)

theorem ghost_intro (κ : GSem nD τ sig → ℕ) (c : Dev nD) : iprop(records m κ ∗ linear c) ⊢ iprop(∃ κ, ghost m κ c) := by
  unfold linear payToks
  rw [bigSep_KI]
  iintro ⟨#HR, ⟨HaB, HaS, HaV⟩, HtB, HtS, HtV⟩
  iexists κ
  unfold ghost invs
  isplitr
  · isplitr; · iapply (rec_inv m κ (c, .inl ())); iexact HR
    isplitr; · iapply (rec_inv m κ (peer c, .inl ())); iexact HR
    isplitr; · iapply (rec_inv_send m κ c); iexact HR
    isplitr; · iapply (rec_inv_recv m κ c); iexact HR
    iapply (rec_inv_recv m κ (peer c)); iexact HR
  isplitl [HaB]; · iexact HaB
  isplitl [HaS]; · iexact HaS
  isplitl [HaV]; · iexact HaV
  isplitr; · iapply (rec_reached m κ (peer c, .inl ())); iexact HR
  isplitr; · iapply (rec_reached_send m κ c); iexact HR
  isplitr; · iapply (rec_reached_recv m κ (peer c)); iexact HR
  isplitl [HtB]; · iexact HtB
  isplitl [HtS]; · iexact HtS
  iexact HtV

def peerEquiv : Dev nD ≃ Dev nD := ⟨peer, peer, peer_peer, peer_peer⟩

/-- The tokens dealt to their payers: a barrier token and the receive tokens go to the partner. -/
theorem toks_around : (bigSep Finset.univ fun c : Dev nD => (toks c : sProp 𝕄)) ⊢ bigSep Finset.univ fun c : Dev nD => payToks c := by
  have e (c : Dev nD) : (toks c : sProp 𝕄) = iprop(dutyTok ER (barCell c) 0 ()
      ∗ (chain32 fun n w hw hn => dutyTok ER (sendCell c n (semInb32 n hn)) 0 ())
      ∗ (chain32 fun n w hw hn => dutyTok ER (recvCell c n (semInb32 n hn)) 0 ())) := by
    unfold toks; rw [bigSep_KI]
  rw [bigSep_congr fun c _ => e c]
  unfold payToks
  rw [bigSep_sep', bigSep_sep', bigSep_sep', bigSep_sep',
    bigSep_univ_equiv peerEquiv (fun c : Dev nD => (dutyTok ER (barCell c) 0 () : sProp 𝕄)),
    bigSep_univ_equiv peerEquiv (fun c : Dev nD => (chain32 fun n w hw hn => dutyTok ER (recvCell c n (semInb32 n hn)) 0 () : sProp 𝕄))]
  exact .rfl

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  -- per device: the cells' bodies from their counters and round states; the eight local counters set apart
  have h1 (c : Dev nD) (_ : c ∈ Finset.univ) :
      iprop(Pipeline.ownSems0 (Ix := Unit) (Name := ℕ) (U := UU) (Lvl := ℕ) (Val := Elt F) (τ := τ) osem c ∗ unscopedSems0 c ∗ G m c)
        ⊢ iprop((bigSep Finset.univ fun k : KI => body ER (sched m) (kcell (c, k)))
            ∗ (bigSep Finset.univ fun k : KI => reached ER (kcell (c, k)) 0)
            ∗ (bigSep Finset.univ fun k : KI => atPos ER (kcell (c, k)) 0 ∅ 0) ∗ toks c ∗ locSems c) := by
    unfold G
    iintro ⟨Hos, Hus, Hst, Hat, Hr, Htok⟩
    ihave Hv := (sems_split (F := F) c) $$ [Hos Hus]
    · isplitl [Hos] <;> iassumption
    icases Hv with ⟨Hl, Hv⟩
    isplitl [Hv Hst]
    · iapply (show iprop((bigSep Finset.univ fun k : KI => (semVal (kcell (c, k)) 0 : sProp 𝕄)) ∗ bigSep Finset.univ fun k : KI => roundState ER (sched m) (kcell (c, k)) 0)
          ⊢ bigSep Finset.univ fun k : KI => body ER (sched m) (kcell (c, k)) from by
        rw [← bigSep_sep']; exact bigSep_mono fun k _ => Rounds.body_intro ER (sched m) (kcell (c, k)))
      isplitl [Hv] <;> iassumption
    isplitl [Hr]; · iexact Hr
    isplitl [Hat]; · iexact Hat
    isplitl [Htok] <;> iassumption
  refine (bigSep_mono h1).trans (show _ ⊢ (_ : sProp 𝕄) from ?_)
  rw [bigSep_sep', bigSep_sep', bigSep_sep', bigSep_sep', ← bigSep_agCells (body ER (sched m)),
    ← bigSep_univ_prod (fun ck : Dev nD × KI => (reached ER (kcell ck) 0 : sProp 𝕄))]
  iintro ⟨Hb, #Hr, Hat, Htok, Hl⟩
  imod (inv_alloc_family agCells (body ER (sched m)) ∅) $$ Hb with ⟨%κ, -, HI⟩
  imodintro
  ihave HI' := (Entails.of_eq (bigSep_agCells fun g => cellInv ER (sched m) (κ g) g)) $$ HI
  ihave HI'' := (Entails.of_eq (bigSep_univ_prod (fun ck : Dev nD × KI => (cellInv ER (sched m) (κ (kcell ck)) (kcell ck) : sProp 𝕄))).symm) $$ HI'
  icases HI'' with #HI
  ihave Htk := (toks_around (F := F)) $$ Htok
  iapply (BI.bigSep_with_persistent (R := records m κ) (Φ := fun c : Dev nD => iprop(linear c ∗ locSems c)) fun c _ => show iprop(records m κ ∗ (linear c ∗ locSems c)) ⊢ G' m c from by
    unfold G'
    iintro ⟨#HR, Hlin, Hl⟩
    isplitl [Hlin]
    · iapply (ghost_intro m κ c); isplitr; · iexact HR
      iexact Hlin
    · iexact Hl)
  isplitr
  · unfold records; isplitl; · iexact HI
    iexact Hr
  · iapply (Entails.of_eq (bigSep_sep' Finset.univ (fun c : Dev nD => (linear c : sProp 𝕄)) (fun c : Dev nD => locSems c)).symm)
    isplitl [Hat Htk]
    · iapply (Entails.of_eq (bigSep_sep' Finset.univ (fun c : Dev nD => (bigSep Finset.univ fun k : KI => atPos ER (kcell (c, k)) 0 ∅ 0 : sProp 𝕄)) (fun c : Dev nD => payToks c)).symm)
      isplitl [Hat] <;> iassumption
    · iexact Hl

/-! ### The launch credit -/

/-- What the launch deals device `c` for what the others owe its cells: its barrier cell's unit, each receive cell's
    chunk credit (both owed by the partner). -/
theorem creds (c : Dev nD) :
    (Pipeline.launchCred O₀ c : sProp 𝕄) ⊢ iprop(cred (tallyAt (barCell c) () 1)
      ∗ chain32 fun n w hw hn => cred (tallyAt (recvCell c n (semInb32 n hn)) () NC)) := by
  have e : (Pipeline.launchCred O₀ c : sProp 𝕄)
      = iprop((bigSep (Finset.univ.filter fun r : Fin 32 => 0 ≤ r.val) fun r =>
            Pipeline.launchCred (fun d : Dev nD => tallyAt (recvCell (peer d) r.val (semInb32 r.val r.isLt)) () NC) c)
          ∗ Pipeline.launchCred (fun d : Dev nD => tallyAt (barCell (peer d)) () 1) c) := by
    rw [← Pipeline.launchCred_sum, ← Pipeline.launchCred_add]; rfl
  rw [e, chain32_eq_bigSep, Finset.filter_true_of_mem (fun r _ => Nat.zero_le _)]
  iintro ⟨HR, HB⟩
  isplitl [HB]
  · iapply (Pipeline.launchCred_tallyAt (SemLoc.reg barS) peer peer peer_peer peer_peer () 1 c); iexact HB
  · iapply (show (bigSep Finset.univ fun r : Fin 32 =>
          (Pipeline.launchCred (fun d : Dev nD => tallyAt (recvCell (peer d) r.val (semInb32 r.val r.isLt)) () NC) c : sProp 𝕄))
        ⊢ bigSep Finset.univ fun r : Fin 32 => cred (tallyAt (recvCell c r.val (semInb32 r.val r.isLt)) () NC) from
      bigSep_mono fun (r : Fin 32) _ =>
        Pipeline.launchCred_tallyAt (SemLoc.dma (recvSem r.val (semInb32 r.val r.isLt))) peer peer peer_peer peer_peer () NC c)
    iexact HR

/-! ### The theorem's side conditions -/

theorem L_of_ne (g : GSem nD τ sig) (h : g.1.2 ≠ .tc) : L g = ∅ := if_neg h

/-- A whole buffer held through its memref's view is the buffer held. -/
theorem held_x (c : Dev nD) (f : Buf (Elt F) ((c : Thread nD τ).loc main_arg0)) :
    held c xM f = (((c : Thread nD τ).loc main_arg0) ↦{fullShare} f : sProp 𝕄) := by
  show ((xM : Memref sig .tc .hbm S32768x1024 .f32).view.loc (c : Thread nD τ) ↦[(xM : Memref sig .tc .hbm S32768x1024 .f32).view.set]{fullShare} f : sProp 𝕄) = _
  rw [show (xM : Memref sig .tc .hbm S32768x1024 .f32).view.set = Finset.univ from View.set_whole _]
theorem held_o (c : Dev nD) (f : Buf (Elt F) ((c : Thread nD τ).loc main_v1)) :
    held c oM f = (((c : Thread nD τ).loc main_v1) ↦{fullShare} f : sProp 𝕄) := by
  show ((oM : Memref sig .tc .hbm S65536x1024 .bf16).view.loc (c : Thread nD τ) ↦[(oM : Memref sig .tc .hbm S65536x1024 .bf16).view.set]{fullShare} f : sProp 𝕄) = _
  rw [show (oM : Memref sig .tc .hbm S65536x1024 .bf16).view.set = Finset.univ from View.set_whole _]

/-- The eight staging buffers are the launch's scoped rest. -/
theorem scr8_eq (c : Dev nD) : (scr8 c : sProp 𝕄) = Pipeline.scopedRest cfg0.spec c := by
  rw [scopedRest0_eq]
  unfold scr8
  show iprop((∃ f, (fM 0).view.loc (c : Thread nD τ) ↦[(fM 0).view.set]{fullShare} f) ∗ (∃ f, (fM 1).view.loc (c : Thread nD τ) ↦[(fM 1).view.set]{fullShare} f)
    ∗ (∃ f, (bM 0).view.loc (c : Thread nD τ) ↦[(bM 0).view.set]{fullShare} f) ∗ (∃ f, (bM 1).view.loc (c : Thread nD τ) ↦[(bM 1).view.set]{fullShare} f)
    ∗ (∃ f, (bM 2).view.loc (c : Thread nD τ) ↦[(bM 2).view.set]{fullShare} f) ∗ (∃ f, (bM 3).view.loc (c : Thread nD τ) ↦[(bM 3).view.set]{fullShare} f)
    ∗ (∃ f, (bM 4).view.loc (c : Thread nD τ) ↦[(bM 4).view.set]{fullShare} f) ∗ (∃ f, (bM 5).view.loc (c : Thread nD τ) ↦[(bM 5).view.set]{fullShare} f)) = _
  rw [show (fM 0).view.set = Finset.univ from View.set_whole _, show (fM 1).view.set = Finset.univ from View.set_whole _,
    show (bM 0).view.set = Finset.univ from View.set_whole _, show (bM 1).view.set = Finset.univ from View.set_whole _,
    show (bM 2).view.set = Finset.univ from View.set_whole _, show (bM 3).view.set = Finset.univ from View.set_whole _,
    show (bM 4).view.set = Finset.univ from View.set_whole _, show (bM 5).view.set = Finset.univ from View.set_whole _]
  rfl

/-- What a device holds between the launch and its grid point, beside the scoped buffers. -/
def X (c : Dev nD) : sProp 𝕄 := iprop(start m c ∗ locSems c ∗ held c xM (X0 m c) ∗ held c oM (R0 m c))
/-- What it keeps after the point for the final read. -/
def Y (c : Dev nD) : sProp 𝕄 := iprop(held c xM (X0 m c) ∗ held c oM (outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold X G' start
  rw [held_x, held_o]
  iintro ⟨⟨Hx, Ho⟩, Hlev, Hcr, -, HG, Hl⟩
  ihave Hc := (creds (F := F) c) $$ Hcr
  icases Hc with ⟨H1, HN⟩
  imodintro
  isplitl
  · isplitl [HG H1 HN Hlev]
    · isplitl [HG]; · iexact HG
      isplitl [H1]; · iexact H1
      isplitl [HN]; · iexact HN
      iexact Hlev
    isplitl [Hl]; · iexact Hl
    isplitl [Hx] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scr8_eq]
  unfold Φ₀ X
  iintro ⟨⟨Hs, Hl, Hx, Ho⟩, -, Hr⟩
  isplitl [Hs]; · iexact Hs
  isplitl [Hl]; · iexact Hl
  isplitl [Hx]; · iexact Hx
  isplitl [Ho] <;> iassumption

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, ← scr8_eq]
  unfold Φ₁ Y
  iintro ⟨Hx, Ho, Hr, Hz⟩
  isplitl [Hx Ho]
  · isplitl [Hx] <;> iassumption
  isplitl [Hz] <;> iassumption

theorem waits (c : Dev nD) : (levAts L lv : sProp 𝕄) ⊢ Pipeline.cellsWaits cfgs (dats m) () 0 c :=
  Pipeline.cellsWaits_intro cfgs (dats m) () 0 c fun w => w.elim0

/-! ### The run -/

set_option maxRecDepth 8000 in
/-- At the compiled mesh of eight devices, for any float values, from any memory with zero counters: every weakly fair
    execution of @main terminates, and every final state has each device's result array at `outFinal` and its input
    half unchanged. -/
theorem run_main : θ_run defs (onTc (τ := τ) (main (F := F))) (s₀ m ρ) (fun r => ∀ c : Dev nD,
    r.2.mem ((c : Thread nD τ).loc main_v1) = outFinal m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HB, -⟩
      imod (fund_ag m) $$ HB with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = outFinal m c
      ∧ s.mem ((c : Thread nD τ).loc main_arg0) = m ((c : Thread nD τ).loc main_arg0))
    (hY := fun c s' => by
      unfold Y
      rw [held_x, held_o]
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.AG.run_main' depends on axioms: [propext, Classical.choice, Quot.sound] -/
#guard_msgs in #print axioms run_main

end Cert.KernelIdeal.AG

end
-- ==== Proof.KernelIdeal.Ref.lean ====
import proofs.«900671_g7700000000000672_dist_ag_v7x_xyz2x2x2_z_m32768_n1024_bf16_1_alg».proof.Defs
import proofs.«900671_g7700000000000672_dist_ag_v7x_xyz2x2x2_z_m32768_n1024_bf16_1_alg».proof.Proof.KernelIdeal.Ghost
import proofs.«900671_g7700000000000672_dist_ag_v7x_xyz2x2x2_z_m32768_n1024_bf16_1_alg».proof.Proof.Gen.ReferenceIdeal.Run
import proofs.«900671_g7700000000000672_dist_ag_v7x_xyz2x2x2_z_m32768_n1024_bf16_1_alg».proof.Proof.Gen.ReferenceIdeal.Read
import Idealize.ShloMosaic.Lib.Layout
import Idealize.ShloMosaic.Lib.Pipeline.Value
import Idealize.ShloMosaic.PureOps.Ideal

/-!
# The value bridge: every device's final result array is the reference's result

At the ideal instance a change of float format is the identity, so the reference's one conversion of the whole array
is the whole array, and each device's final array, assembled chunk by chunk from its own half and its partner's, is
the whole array again: row `32768·z + r` of the whole array is row `r` of the half of the devices whose last mesh
coordinate is `z`, and chunk `j` of 64 is chunk `j mod 32` of the half with `z = j / 32`.
-/

noncomputable section

namespace Cert.KernelIdeal.AG

open Cert.KernelIdeal Cert.KernelIdeal.Gen
open Idealize.ShloMosaic
open Idealize.ShloMosaic.TcCoe
open Idealize.SL.Sem

/-- At the ideal instance a chunk's conversion is the chunk. -/
theorem conv_ideal (v : Vec Ideal S1024x1024 .f32) : conv (F := Ideal) v = v := by
  unfold conv
  rw [shapeCast_self]
  rfl

/-- At the ideal instance a change of format of a whole array is the array. -/
theorem truncf_ideal {s : Shape} (x : FVec Ideal s .f32) (h : FTy.bits .bf16 < FTy.bits .f32) :
    truncf (F := Ideal) .bf16 x h = x := rfl

/-- A chunk of a device's half read at an index is the half read at the index the chunk's view places it at. -/
theorem xSl_read (m : (ℓ : Loc nD τ sig) → Buf (Elt Ideal) ℓ) (c : Dev nD) (w : ℕ) (h : XInb w) (x : S1024x1024.Idx) :
    (xSl w h).view.read (Elt Ideal) (X0 m c) x = m ((c : Thread nD τ).loc main_arg0) ((xSl w h).view.emb x) := by
  rw [View.read_apply, cast_eq]

/-- The chunk at rows `w` places its index `x` at row `w + x 0`, column `x 1`. -/
theorem xSl_emb_val (w : ℕ) (h : XInb w) (x : S1024x1024.Idx) (a : Fin 2) :
    (((xSl w h).view.emb x) a).val = (![w, 0] : Fin 2 → ℕ) a + (x a).val := by
  show ((Rect.unit (s := S32768x1024) ![w, 0] S1024x1024.size h).emb x a).val = _
  rw [Rect.emb_apply]
  show _ + 1 * _ = _
  rw [Nat.one_mul]
  rfl

/-- A device's block along the rows is its last mesh coordinate. -/
theorem meshLin_last (n : ℕ) : Layout.meshLin [2, 2, 2] n [2] = n % 2 := by
  show (n / 1) % 2 * 1 + 0 = n % 2
  omega

/-- Over any whole array \`X\` of which every device's input is its half: each device's final array is \`X\`, its format
    changed. -/
theorem outFinal_eq_whole
    (m : (ℓ : Loc nD τ sig) → Buf (Elt Ideal) ℓ)
    (X : (⟨2, ![65536, 1024]⟩ : Shape).Idx → Ideal .f32)
    (hagree : ∀ c : Dev nD, m ((c.tc : Thread nD τ).loc main_arg0)
      = Layout.blockN ⟨2, ![32768, 1024]⟩ ⟨2, ![65536, 1024]⟩ (Layout.meshBlock [2, 2, 2] ![[2], []] c) X)
    (c : Dev nD) :
    outFinal m c = truncf .bf16 X (by decide) := by
  funext i
  rw [truncf_ideal]
  unfold outFinal
  dsimp only
  unfold cval
  rw [conv_ideal, xSl_read, hagree, Layout.blockN_apply]
  refine congrArg X ?_
  funext a
  apply Fin.ext
  rw [Layout.TilesN.idx_val, xSl_emb_val, Layout.meshBlock_val]
  have hi0 : (i 0).val < 65536 := (i 0).isLt
  have hsrc : (if (i 0).val / 1024 / 32 = c.val % 2 then c else peer c).val % 2 = (i 0).val / 1024 / 32 := by
    split_ifs with hc
    · exact hc.symm
    · rw [peer_mod]; omega
  match a with
  | ⟨0, _⟩ =>
    show Layout.meshLin [2, 2, 2] _ [2] * 32768 + (1024 * ((i 0).val / 1024 % 32) + (i 0).val % 1024) = (i 0).val
    rw [meshLin_last, hsrc]; omega
  | ⟨1, _⟩ =>
    show 0 * 1024 + (0 + (i 1).val) = (i 1).val
    omega

/-- Every device's final result array is the reference's result: the conversion of the whole array of which each
    device's input is its half along the last mesh axis. -/
theorem outFinal_eq_ref
    (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD, m ((c.tc : Thread nD τ).loc main_arg0)
      = Layout.blockN ⟨2, ![32768, 1024]⟩ ⟨2, ![65536, 1024]⟩ (Layout.meshBlock [2, 2, 2] ![[2], []] c)
          (m' (((0 : Dev Cert.ReferenceIdeal.nD).tc : Thread Cert.ReferenceIdeal.nD Cert.ReferenceIdeal.τ).loc Cert.ReferenceIdeal.main_arg0)))
    (c : Dev nD) :
    outFinal m c
      = truncf (F := Ideal) (s := Cert.ReferenceIdeal.S65536x1024) (φ := .f32) .bf16
          (m' (((0 : Dev Cert.ReferenceIdeal.nD).tc : Thread Cert.ReferenceIdeal.nD Cert.ReferenceIdeal.τ).loc Cert.ReferenceIdeal.main_arg0))
          Cert.ReferenceIdeal.Gen.bitsLt_bf16_f32 :=
  outFinal_eq_whole m _ hagree c

end Cert.KernelIdeal.AG

end

/-- info: 'Cert.KernelIdeal.AG.outFinal_eq_ref' depends on axioms: [propext, Classical.choice, Quot.sound] -/
#guard_msgs in #print axioms Cert.KernelIdeal.AG.outFinal_eq_ref
-- ==== Proof.Kernel.Proto.lean ====
import proofs.«900671_g7700000000000672_dist_ag_v7x_xyz2x2x2_z_m32768_n1024_bf16_1_alg».proof.Proof.Gen.Kernel
import proofs.«900671_g7700000000000672_dist_ag_v7x_xyz2x2x2_z_m32768_n1024_bf16_1_alg».proof.Proof.Gen.Kernel.Skeleton
import proofs.«900671_g7700000000000672_dist_ag_v7x_xyz2x2x2_z_m32768_n1024_bf16_1_alg».proof.Proof.Gen.Kernel.Launch
import Idealize.ShloMosaic.Lib.Pipeline.Launch
import Idealize.ShloMosaic.Lib.Pipeline.Kit
import Idealize.ShloMosaic.Lib.Ring
import Idealize.ShloMosaic.Lib.Tactic

/-!
# The all-gather along the mesh's last axis: names, cells and the schedule

Eight devices; device `c` and its partner `peer c` (the device with the other coordinate on the last mesh axis) each
hold one half of the array (32 chunks of 1024 rows). Each device converts its chunks and writes chunk `n` twice:
into its own result at rows `32768·(c mod 2) + 1024·n`, and, by a remote copy, into the partner's result at the same
rows. Before the first copy the two partners exchange one unit on the barrier semaphore.

Cells of one device: the barrier cell (one duty: the partner's unit, which hands over the partner's half of the
result array), 32 send cells and 32 receive cells (one duty each, of one chunk's credit). The two load semaphores
and six store semaphores only ever carry the device's own local copies.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the partners' rounds, the local copies' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

variable (m : (ℓ : Loc nD τ sig) → Buf (Elt F) ℓ) (ρ : Dev nD → PrngReg)

/-! ## The partner -/

/-- The device with the same first two mesh coordinates and the other third one. -/
def peer (c : Dev nD) : Dev nD :=
  ⟨(4 * (c.val / 4) + 2 * ((c.val / 2) % 2) + 1) - (c.val % 2), by have h := c.isLt; change c.val < 8 at h; change _ < 8; omega⟩
theorem peer_peer (c : Dev nD) : peer (peer c) = c := by revert c; decide
theorem peer_ne (c : Dev nD) : peer c ≠ c := by revert c; decide
theorem peer_mod (c : Dev nD) : (peer c).val % 2 = 1 - c.val % 2 := by revert c; decide

/-! ## Memrefs and semaphores, as the body spells them -/

abbrev xM : Memref sig .tc .hbm S32768x1024 .f32 := Memref.whole main_arg0
abbrev oM : Memref sig .tc .hbm S65536x1024 .bf16 := Memref.whole main_v1

abbrev barS : Sem sig := (SemArray.scalar (sig.barrier 0 rfl) : Sems sig S_).sem
abbrev barCell (c : Dev nD) : GSem nD τ sig := ((c : Thread nD τ), .reg barS)

abbrev SemInb32 (n : ℕ) : Prop := ∀ a, (![n] : Fin 1 → Nat) a + S1.size a ≤ S32.size a
theorem semInb32 (n : ℕ) (h : n < 32) : SemInb32 n := by intro a; fin_cases a; show n + 1 ≤ 32; omega

/-- Chunk `n`'s send and receive semaphores. -/
abbrev sendSem (n : ℕ) (h : SemInb32 n) : DmaSem sig := ((cc0_scratch10.slice (Rect.unit (s := S32) ![n] S1.size h)).squeeze S_ squeezes_S1_S_).sem
abbrev recvSem (n : ℕ) (h : SemInb32 n) : DmaSem sig := ((cc0_scratch11.slice (Rect.unit (s := S32) ![n] S1.size h)).squeeze S_ squeezes_S1_S_).sem
abbrev sendCell (c : Dev nD) (n : ℕ) (h : SemInb32 n) : GSem nD τ sig := ((c : Thread nD τ), .dma (sendSem n h))
abbrev recvCell (c : Dev nD) (n : ℕ) (h : SemInb32 n) : GSem nD τ sig := ((c : Thread nD τ), .dma (recvSem n h))

theorem sendSem_val (n : ℕ) (hn : n < 32) (h : SemInb32 n) : (sendSem n h).val = 8 + n :=
  (by decide : ∀ k : Fin 32, (sendSem k.val (semInb32 k.val k.isLt)).val = 8 + k.val) ⟨n, hn⟩
theorem recvSem_val (n : ℕ) (hn : n < 32) (h : SemInb32 n) : (recvSem n h).val = 40 + n :=
  (by decide : ∀ k : Fin 32, (recvSem k.val (semInb32 k.val k.isLt)).val = 40 + k.val) ⟨n, hn⟩

/-- The rows of the result a device with third coordinate `c mod 2` writes for its chunk at word offset `w`. -/
abbrev OffInb (c : Dev nD) (w : ℕ) : Prop := ∀ a, (k0_off1 c (BitVec.ofNat 32 w)) a + S1024x1024.size a ≤ S65536x1024.size a
/-- The chunk of the result array at the rows device `c` computes for word offset `w`, as a view of the whole array. -/
abbrev oSl (c : Dev nD) (w : ℕ) (h : OffInb c w) : Memref sig .tc .hbm S1024x1024 .bf16 :=
  oM.slice (Rect.unit (s := S65536x1024) (k0_off1 c (BitVec.ofNat 32 w)) S1024x1024.size h) (fun _ => rfl)
theorem offInb (c : Dev nD) (n w : ℕ) (hw : w = 1024 * n) (hn : n < 32) : OffInb c w := by
  subst hw; exact k0_off1_inb c ⟨n, hn⟩

/-- One chunk's credit on a DMA semaphore. -/
abbrev NC : ℕ := (Memref.whole cc0_scratch2 : Memref sig .tc .vmem S1024x1024 .bf16).view.dmaCredit
theorem NC_pos : 0 < NC := View.dmaCredit_pos _ (by decide)

/-- A family over the 32 chunks (index `n`, word offset `w = 1024·n`), as a literal chain. -/
def chain32 (Φ : (n w : ℕ) → w = 1024 * n → n < 32 → sProp 𝕄) : sProp 𝕄 :=
  iprop(Φ 0 0 rfl (by decide) ∗ Φ 1 1024 rfl (by decide) ∗ Φ 2 2048 rfl (by decide) ∗ Φ 3 3072 rfl (by decide)
    ∗ Φ 4 4096 rfl (by decide) ∗ Φ 5 5120 rfl (by decide) ∗ Φ 6 6144 rfl (by decide) ∗ Φ 7 7168 rfl (by decide)
    ∗ Φ 8 8192 rfl (by decide) ∗ Φ 9 9216 rfl (by decide) ∗ Φ 10 10240 rfl (by decide) ∗ Φ 11 11264 rfl (by decide)
    ∗ Φ 12 12288 rfl (by decide) ∗ Φ 13 13312 rfl (by decide) ∗ Φ 14 14336 rfl (by decide) ∗ Φ 15 15360 rfl (by decide)
    ∗ Φ 16 16384 rfl (by decide) ∗ Φ 17 17408 rfl (by decide) ∗ Φ 18 18432 rfl (by decide) ∗ Φ 19 19456 rfl (by decide)
    ∗ Φ 20 20480 rfl (by decide) ∗ Φ 21 21504 rfl (by decide) ∗ Φ 22 22528 rfl (by decide) ∗ Φ 23 23552 rfl (by decide)
    ∗ Φ 24 24576 rfl (by decide) ∗ Φ 25 25600 rfl (by decide) ∗ Φ 26 26624 rfl (by decide) ∗ Φ 27 27648 rfl (by decide)
    ∗ Φ 28 28672 rfl (by decide) ∗ Φ 29 29696 rfl (by decide) ∗ Φ 30 30720 rfl (by decide) ∗ Φ 31 31744 rfl (by decide))

/-! ## Contents -/

/-- The conversion every chunk undergoes on its way: the element format changed, the shape kept. -/
def conv (v : Vec F S1024x1024 .f32) : FVec F S1024x1024 .bf16 :=
  shapeCast S1024x1024 (truncf .bf16 v bitsLt_bf16_f32) shapeCasts_S1024x1024_S1024x1024

abbrev XInb (w : ℕ) : Prop := ∀ a, (![w, 0] : Fin 2 → Nat) a + S1024x1024.size a ≤ S32768x1024.size a
theorem xInb (n w : ℕ) (hw : w = 1024 * n) (hn : n < 32) : XInb w := by
  subst hw; intro a; fin_cases a
  · show 1024 * n + 1024 ≤ 32768; omega
  · show 0 + 1024 ≤ 1024; omega
/-- The chunk of a device's half of the input at rows `w`, as a view. -/
abbrev xSl (w : ℕ) (h : XInb w) : Memref sig .tc .hbm S1024x1024 .f32 :=
  xM.slice (Rect.unit (s := S32768x1024) ![w, 0] S1024x1024.size h) (fun _ => rfl)

/-- Device `c`'s input half and result array at launch. -/
abbrev X0 (c : Dev nD) : Buf (Elt F) ((c : Thread nD τ).loc main_arg0) := m ((c : Thread nD τ).loc main_arg0)
abbrev R0 (c : Dev nD) : Buf (Elt F) ((c : Thread nD τ).loc main_v1) := m ((c : Thread nD τ).loc main_v1)

/-- Chunk `w` of device `c`'s input, converted: what both of its copies carry. -/
def cval (c : Dev nD) (w : ℕ) (h : XInb w) : FVec F S1024x1024 .bf16 := conv ((xSl w h).view.read (Elt F) (X0 m c))

/-! ## What the cells hand over -/

/-- The six conversion buffers. -/
def bM : ℕ → Memref sig .tc .vmem S1024x1024 .bf16
  | 0 => Memref.whole cc0_scratch2 | 1 => Memref.whole cc0_scratch3 | 2 => Memref.whole cc0_scratch4
  | 3 => Memref.whole cc0_scratch5 | 4 => Memref.whole cc0_scratch6 | _ => Memref.whole cc0_scratch7

/-- A send cell hands its device back the half share of the conversion buffer the remote copy read. -/
def sendPay (c : Dev nD) (k : ℕ) : sProp 𝕄 :=
  iprop(∃ f, (bM k).view.loc (c : Thread nD τ) ↦[(bM k).view.set]{fullShare.right} f)

/-- A receive cell hands its device `c` the chunk of its result array the partner `p`'s copy wrote: the rows `p`
    computes for word offset `w`, holding `p`'s converted chunk over the launch contents. -/
def recvPayAt (c p : Dev nD) (n w : ℕ) (hw : w = 1024 * n) (hn : n < 32) : sProp 𝕄 :=
  (oSl p w (offInb p n w hw hn)).view.loc (c : Thread nD τ)
    ↦[(oSl p w (offInb p n w hw hn)).view.set]{fullShare}
      (oSl p w (offInb p n w hw hn)).view.write (Elt F) (m ((oSl p w (offInb p n w hw hn)).view.loc (c : Thread nD τ)))
        (cval m p w (xInb n w hw hn)) Finset.univ

/-- The partner `p`'s barrier unit hands device `c` the partner's result array at the rows `c` computes, chunk by
    chunk, at the partner's launch contents. -/
def barPayAt (c p : Dev nD) : sProp 𝕄 :=
  chain32 fun n w hw hn =>
    (oSl c w (offInb c n w hw hn)).view.loc (p : Thread nD τ) ↦[(oSl c w (offInb c n w hw hn)).view.set]{fullShare}
      m ((oSl c w (offInb c n w hw hn)).view.loc (p : Thread nD τ))

/-! ## The schedule: one round, one duty a cell -/

/-- The schedule: every cell has one round of one duty. A barrier cell's duty is one unit, paid by the partner's signal,
    and hands over the partner's result rows; a DMA cell of index 8‥39 is a send cell (duty: one chunk's credit, handing
    back a half share of conversion buffer `(q - 8) mod 6`), one of index 40‥71 a receive cell (duty: one chunk's credit,
    handing over the landed chunk); no other cell and no later round has a duty. -/
def sched : Rounds.Schedule (GSem nD τ sig) Unit 𝕄 where
  duties g r := if r = 0 ∧ g.1.2 = .tc ∧ (g.2 = .reg barS ∨ ∃ q, g.2 = .dma q ∧ 8 ≤ q.val) then {()} else ∅
  amount g _ _ := match g.2 with | .reg _ => 1 | .dma _ => NC
  payload g _ _ := match g.2 with
    | .reg _ => barPayAt m g.1.1 (peer g.1.1)
    | .dma q =>
      if h : q.val < 40 then sendPay g.1.1 ((q.val - 8) % 6)
      else if h' : q.val - 40 < 32 then recvPayAt m g.1.1 (peer g.1.1) (q.val - 40) (1024 * (q.val - 40)) rfl h'
      else iprop(emp)
  amount_pos g _ _ _ := by
    cases g.2 with
    | reg _ => exact Nat.one_pos
    | dma _ => exact NC_pos

/-! ## The schedule's tables, entry on the left -/

section Tables
variable (c : Dev nD)

theorem duties_bar : (sched m).duties (barCell c) 0 = {()} := by
  dsimp only [sched]; exact if_pos ⟨rfl, rfl, .inl rfl⟩
theorem duties_send (n : ℕ) (hn : n < 32) (h : SemInb32 n) : (sched m).duties (sendCell c n h) 0 = {()} := by
  dsimp only [sched]; exact if_pos ⟨rfl, rfl, .inr ⟨_, rfl, by rw [sendSem_val n hn h]; omega⟩⟩
theorem duties_recv (n : ℕ) (hn : n < 32) (h : SemInb32 n) : (sched m).duties (recvCell c n h) 0 = {()} := by
  dsimp only [sched]; exact if_pos ⟨rfl, rfl, .inr ⟨_, rfl, by rw [recvSem_val n hn h]; omega⟩⟩
theorem duties_later (g : GSem nD τ sig) : ∀ r, 1 ≤ r → (sched m).duties g r = ∅ :=
  fun r hr => by dsimp only [sched]; rw [if_neg fun h => by omega]

theorem amount_bar (d : Unit) : (sched m).amount (barCell c) 0 d = 1 := rfl
theorem amount_send (n : ℕ) (h : SemInb32 n) (d : Unit) : (sched m).amount (sendCell c n h) 0 d = NC := rfl
theorem amount_recv (n : ℕ) (h : SemInb32 n) (d : Unit) : (sched m).amount (recvCell c n h) 0 d = NC := rfl

theorem expect_bar : (sched m).expect (barCell c) 0 = 1 := by
  unfold Schedule.expect Schedule.amountOf; rw [duties_bar, Finset.sum_singleton]; rfl
theorem expect_send (n : ℕ) (hn : n < 32) (h : SemInb32 n) : (sched m).expect (sendCell c n h) 0 = NC := by
  unfold Schedule.expect Schedule.amountOf; rw [duties_send m c n hn h, Finset.sum_singleton]; rfl
theorem expect_recv (n : ℕ) (hn : n < 32) (h : SemInb32 n) : (sched m).expect (recvCell c n h) 0 = NC := by
  unfold Schedule.expect Schedule.amountOf; rw [duties_recv m c n hn h, Finset.sum_singleton]; rfl

theorem payload_bar (d : Unit) : (sched m).payload (barCell c) 0 d = barPayAt m c (peer c) := rfl
/-- The partner's barrier cell, the partner's partner resolved: what a device's own signal hands over. -/
theorem payload_bar_peer (d : Unit) : (sched m).payload (barCell (peer c)) 0 d = barPayAt m (peer c) c :=
  congrArg (barPayAt m (peer c)) (peer_peer c)
theorem payload_send (n : ℕ) (hn : n < 32) (h : SemInb32 n) (d : Unit) :
    (sched m).payload (sendCell c n h) 0 d = sendPay c (n % 6) := by
  have e : (sendSem n h).val = 8 + n := sendSem_val n hn h
  show (if h1 : (sendSem n h).val < 40 then sendPay c (((sendSem n h).val - 8) % 6) else _) = _
  rw [dif_pos (by omega), e, Nat.add_sub_cancel_left]
theorem payload_recv (n w : ℕ) (hw : w = 1024 * n) (hn : n < 32) (h : SemInb32 n) (d : Unit) :
    (sched m).payload (recvCell c n h) 0 d = recvPayAt m c (peer c) n w hw hn := by
  subst hw
  have e : (recvSem n h).val = 40 + n := recvSem_val n hn h
  show (if h1 : (recvSem n h).val < 40 then _ else if h' : (recvSem n h).val - 40 < 32 then
      recvPayAt m c (peer c) ((recvSem n h).val - 40) (1024 * ((recvSem n h).val - 40)) rfl h' else _) = _
  have e' : (recvSem n h).val - 40 = n := by omega
  rw [dif_neg (by omega), dif_pos (by omega)]
  simp only [e']
/-- The partner's receive cell, the partner's partner resolved: what a device's own remote copy must hand over. -/
theorem payload_recv_peer (n w : ℕ) (hw : w = 1024 * n) (hn : n < 32) (h : SemInb32 n) (d : Unit) :
    (sched m).payload (recvCell (peer c) n h) 0 d = recvPayAt m (peer c) c n w hw hn :=
  (payload_recv m (peer c) n w hw hn h d).trans (congrArg (fun p => recvPayAt m (peer c) p n w hw hn) (peer_peer c))

end Tables

end Cert.Kernel.AG

end
-- ==== Proof.Kernel.Ghost.lean ====
import proofs.«900671_g7700000000000672_dist_ag_v7x_xyz2x2x2_z_m32768_n1024_bf16_1_alg».proof.Proof.Kernel.Proto
import Idealize.ShloMosaic.Lib.ValueIdx

/-!
# What each device holds: the cells' ghost state, the invariant before and after the body, the proof data

The body runs once on each device (the grid has one point). Before it a device holds its input half and its result
array whole at their launch contents, its eight staging buffers at some contents, its local semaphores at zero and
the partners' protocol's ghost state (`start`); after it the result array holds `outFinal`, every semaphore of its
own is at zero again.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The local semaphores and the staging buffers -/

abbrev SemInb2 (n : ℕ) : Prop := ∀ a, (![n] : Fin 1 → Nat) a + S1.size a ≤ S2.size a
abbrev SemInb6 (n : ℕ) : Prop := ∀ a, (![n] : Fin 1 → Nat) a + S1.size a ≤ S6.size a
theorem semInb2 (n : ℕ) (h : n < 2) : SemInb2 n := by intro a; fin_cases a; show n + 1 ≤ 2; omega
theorem semInb6 (n : ℕ) (h : n < 6) : SemInb6 n := by intro a; fin_cases a; show n + 1 ≤ 6; omega
/-- Landing buffer `j`'s load semaphore, conversion buffer `k`'s store semaphore. -/
abbrev loadSem (n : ℕ) (h : SemInb2 n) : DmaSem sig := ((cc0_scratch8.slice (Rect.unit (s := S2) ![n] S1.size h)).squeeze S_ squeezes_S1_S_).sem
abbrev storeSem (n : ℕ) (h : SemInb6 n) : DmaSem sig := ((cc0_scratch9.slice (Rect.unit (s := S6) ![n] S1.size h)).squeeze S_ squeezes_S1_S_).sem

/-- The two load and six store semaphores at zero. -/
def locSems (c : Dev nD) : sProp 𝕄 :=
  iprop(semVal ((c : Thread nD τ), .dma (loadSem 0 (semInb2 0 (by decide)))) 0 ∗ semVal ((c : Thread nD τ), .dma (loadSem 1 (semInb2 1 (by decide)))) 0
    ∗ semVal ((c : Thread nD τ), .dma (storeSem 0 (semInb6 0 (by decide)))) 0 ∗ semVal ((c : Thread nD τ), .dma (storeSem 1 (semInb6 1 (by decide)))) 0
    ∗ semVal ((c : Thread nD τ), .dma (storeSem 2 (semInb6 2 (by decide)))) 0 ∗ semVal ((c : Thread nD τ), .dma (storeSem 3 (semInb6 3 (by decide)))) 0
    ∗ semVal ((c : Thread nD τ), .dma (storeSem 4 (semInb6 4 (by decide)))) 0 ∗ semVal ((c : Thread nD τ), .dma (storeSem 5 (semInb6 5 (by decide)))) 0)

/-- The two landing buffers. -/
def fM : ℕ → Memref sig .tc .vmem S1024x1024 .f32
  | 0 => Memref.whole cc0_scratch0 | _ => Memref.whole cc0_scratch1

/-- A buffer of the device held whole, through its memref's view. -/
abbrev held {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

/-- The eight staging buffers, each whole at some contents. -/
def scr8 (c : Dev nD) : sProp 𝕄 :=
  iprop((∃ f, held c (fM 0) f) ∗ (∃ f, held c (fM 1) f)
    ∗ (∃ f, held c (bM 0) f) ∗ (∃ f, held c (bM 1) f) ∗ (∃ f, held c (bM 2) f)
    ∗ (∃ f, held c (bM 3) f) ∗ (∃ f, held c (bM 4) f) ∗ (∃ f, held c (bM 5) f))

/-! ## The result -/

/-- The result array every device ends with: rows `1024·j`‥ (chunk `j` of 64) hold chunk `j mod 32` of the input half
    of the devices whose last mesh coordinate is `j / 32` — the device's own half or its partner's — converted. -/
def outFinal (c : Dev nD) : Buf (Elt F) ((c : Thread nD τ).loc main_v1) := fun i =>
  let j := (i 0).val / 1024
  let src : Dev nD := if j / 32 = c.val % 2 then c else peer c
  cval m src (1024 * (j % 32)) (xInb (j % 32) _ rfl (Nat.mod_lt _ (by decide)))
    (ValueIdx.ix2 (⟨(i 0).val % 1024, Nat.mod_lt _ (by decide)⟩ : Fin 1024) (⟨(i 1).val, (i 1).isLt⟩ : Fin 1024))

/-! ## Levels and debts -/

def L (g : GSem nD τ sig) : Finset Unit := if g.1.2 = .tc then {()} else ∅
/-- Barrier cells at 1, receive cells at 2, every other cell at 0: a device waits on its barrier cell and on its local
    and send cells while it still owes receive credit. -/
def lv (g : GSem nD τ sig) (_ : Unit) : ℕ :=
  match g.2 with
  | .reg _ => 1
  | .dma q => if 40 ≤ q.val then 2 else 0

/-- The receive credit device `c` still owes its partner for the chunks from `n` on. -/
def owedFrom (c : Dev nD) (n : ℕ) : CellTallies nD τ sig Unit :=
  ∑ r ∈ (Finset.univ.filter fun r : Fin 32 => n ≤ r.val), tallyAt (recvCell (peer c) r.val (semInb32 r.val r.isLt)) () NC
/-- At launch: all of it, and the barrier unit. -/
def O₀ (c : Dev nD) : CellTallies nD τ sig Unit := owedFrom c 0 + tallyAt (barCell (peer c)) () 1

/-! ## The ghost state -/

/-- The invariants device `c`'s body opens, under the names `κ` they were allocated at: its own barrier, send and
    receive cells, its partner's barrier and receive cells. -/
def invs (κ : GSem nD τ sig → ℕ) (c : Dev nD) : sProp 𝕄 :=
  iprop(cellInv ER (sched m) (κ (barCell c)) (barCell c) ∗ cellInv ER (sched m) (κ (barCell (peer c))) (barCell (peer c))
    ∗ (chain32 fun n w hw hn => cellInv ER (sched m) (κ (sendCell c n (semInb32 n hn))) (sendCell c n (semInb32 n hn)))
    ∗ (chain32 fun n w hw hn => cellInv ER (sched m) (κ (recvCell c n (semInb32 n hn))) (recvCell c n (semInb32 n hn)))
    ∗ (chain32 fun n w hw hn => cellInv ER (sched m) (κ (recvCell (peer c) n (semInb32 n hn))) (recvCell (peer c) n (semInb32 n hn))))

/-- What device `c` starts from in the partners' protocol: the invariants; its positions at round 0 of its 65 cells;
    round 0 reached of the cells it pays (its partner's barrier and receive cells, its own send cells); the 65
    duty tokens it pays with. -/
def ghost (κ : GSem nD τ sig → ℕ) (c : Dev nD) : sProp 𝕄 :=
  iprop(invs m κ c
    ∗ atPos ER (barCell c) 0 ∅ 0
    ∗ (chain32 fun n w hw hn => atPos ER (sendCell c n (semInb32 n hn)) 0 ∅ 0)
    ∗ (chain32 fun n w hw hn => atPos ER (recvCell c n (semInb32 n hn)) 0 ∅ 0)
    ∗ reached ER (barCell (peer c)) 0
    ∗ (chain32 fun n w hw hn => reached ER (sendCell c n (semInb32 n hn)) 0)
    ∗ (chain32 fun n w hw hn => reached ER (recvCell (peer c) n (semInb32 n hn)) 0)
    ∗ dutyTok ER (barCell (peer c)) 0 ()
    ∗ (chain32 fun n w hw hn => dutyTok ER (sendCell c n (semInb32 n hn)) 0 ())
    ∗ (chain32 fun n w hw hn => dutyTok ER (recvCell (peer c) n (semInb32 n hn)) 0 ()))

/-- That at some names, the launch credit of its barrier and receive cells, the level facts. -/
def start (c : Dev nD) : sProp 𝕄 :=
  iprop((∃ κ, ghost m κ c) ∗ cred (tallyAt (barCell c) () 1)
    ∗ (chain32 fun n w hw hn => cred (tallyAt (recvCell c n (semInb32 n hn)) () NC)) ∗ levAts L lv)

/-- Before the body. -/
def Φ₀ (c : Dev nD) : sProp 𝕄 :=
  iprop(start m c ∗ locSems c ∗ held c xM (X0 m c) ∗ held c oM (R0 m c) ∗ scr8 c)

/-- Every DMA semaphore of the kernel's own (all 72 are scratch operands), as the launch theorem indexes them. -/
abbrev osem : Fin 72 → SemLoc sig := fun q => .dma q

/-- After the body: the input half unchanged, the result array at `outFinal`, the staging buffers at some contents,
    every own semaphore at zero. -/
def Φ₁ (c : Dev nD) : sProp 𝕄 :=
  iprop(held c xM (X0 m c) ∗ held c oM (outFinal m c) ∗ scr8 c ∗ Pipeline.ownSems0 osem c)

/-- The proof data: no window is staged; the invariant before and after the one point; what the device owes. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.AG

end
-- ==== Proof.Kernel.Ledger.lean ====
import proofs.«900671_g7700000000000672_dist_ag_v7x_xyz2x2x2_z_m32768_n1024_bf16_1_alg».proof.Proof.Kernel.Ghost

/-!
# The ledger: what a device still owes, that it may wait meanwhile, and its own semaphores regrouped
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The chain as a product -/

/-- The 32-chunk chain is the product over `Fin 32`. -/
theorem chain32_eq_bigSep (Φ : (n w : ℕ) → w = 1024 * n → n < 32 → sProp 𝕄) :
    chain32 Φ = bigSep Finset.univ fun r : Fin 32 => Φ r.val (1024 * r.val) rfl r.isLt := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl

/-! ## The debt, chunk by chunk -/

/-- The debt from chunk `n` on is chunk `n`'s credit and the debt from `n + 1` on; -/
theorem owedFrom_peel (c : Dev nD) (n : ℕ) (hn : n < 32) :
    owedFrom c n = owedFrom c (n + 1) + tallyAt (recvCell (peer c) n (semInb32 n hn)) () NC := by
  have hset : (Finset.univ.filter fun r : Fin 32 => n ≤ r.val)
      = insert (⟨n, hn⟩ : Fin 32) (Finset.univ.filter fun r : Fin 32 => n + 1 ≤ r.val) := by
    ext r
    simp only [Finset.mem_filter, Finset.mem_univ, true_and, Finset.mem_insert, Fin.ext_iff]
    omega
  have hni : (⟨n, hn⟩ : Fin 32) ∉ (Finset.univ.filter fun r : Fin 32 => n + 1 ≤ r.val) := by
    simp only [Finset.mem_filter, Finset.mem_univ, true_and]; omega
  unfold owedFrom
  rw [hset, Finset.sum_insert hni, add_comm]
/-- past the last chunk nothing is owed. -/
theorem owedFrom_done (c : Dev nD) : owedFrom c 32 = 0 := by
  unfold owedFrom
  rw [Finset.filter_false_of_mem (fun r _ => by have := r.isLt; omega), Finset.sum_empty]

/-- Every cell the debt names is one of the partner's receive cells. -/
theorem owedFrom_pos {c : Dev nD} {n : ℕ} {g : GSem nD τ sig} {u : Unit} (h : 0 < owedFrom c n g u) :
    ∃ r : Fin 32, g = recvCell (peer c) r.val (semInb32 r.val r.isLt) := by
  by_contra hne
  rw [not_exists] at hne
  unfold owedFrom at h
  rw [Finset.sum_apply, Finsupp.finset_sum_apply,
    Finset.sum_eq_zero (fun r _ => by rw [tallyAt_apply, if_neg (fun h' => hne r h'.1)])] at h
  exact Nat.lt_irrefl 0 h

/-! ## Waiting while in debt -/

theorem L_tc (c : Dev nD) (sm : SemLoc sig) : L ((c : Thread nD τ), sm) = {()} := if_pos rfl

/-- A receive cell's level is 2. -/
theorem lv_recv (c : Dev nD) (r : Fin 32) : lv (recvCell c r.val (semInb32 r.val r.isLt)) () = 2 := by
  dsimp only [lv]; rw [if_pos (by rw [recvSem_val r.val r.isLt]; omega)]

/-- While it owes receive credit only, a device may wait on any of its cells below the receive cells' level: its
    barrier cell, its local and send cells. -/
theorem mayWait_low (c : Dev nD) (n : ℕ) (sm : SemLoc sig) (hsm : lv ((c : Thread nD τ), sm) () < 2) :
    (levAts L lv : sProp 𝕄) ⊢ MayWait (c : Thread nD τ) sm () (owedFrom c n) :=
  MayOwe.of_cut (L := L) (lev := lv) 1
    (fun p hp => by rw [Finset.mem_singleton.mp hp, L_tc]; exact Finset.mem_singleton_self _)
    (fun g u hg => by obtain ⟨r, rfl⟩ := owedFrom_pos hg; rw [L_tc]; exact Finset.mem_singleton_self _)
    (fun p hp => by rw [Finset.mem_singleton.mp hp]; exact Nat.lt_succ_iff.mp hsm)
    (fun g u hg => by obtain ⟨r, rfl⟩ := owedFrom_pos hg; rw [lv_recv]; decide)

/-! ## The own semaphores regrouped -/

/-- A chain over a list put together from two is the two chains. -/
theorem bigSepL_append {I : Type} (l₁ l₂ : List I) (Φ : I → sProp 𝕄) :
    bigSepL (l₁ ++ l₂) Φ = iprop(bigSepL l₁ Φ ∗ bigSepL l₂ Φ) := by
  induction l₁ with
  | nil => exact (equiv_iff.mp emp_sep).symm
  | cons i l ih =>
    rw [List.cons_append, bigSepL_cons, ih, bigSepL_cons]
    exact equiv_iff.mp ⟨BI.sep_assoc', BI.sep_assoc⟩

/-- The device's 72 own semaphores at zero, from the eight local ones and the 64 closed cells' counters. -/
theorem ownSems_intro (c : Dev nD) :
    iprop(locSems c
        ∗ (chain32 fun n w hw hn => semVal (sendCell c n (semInb32 n hn)) 0)
        ∗ (chain32 fun n w hw hn => semVal (recvCell c n (semInb32 n hn)) 0))
      ⊢ (Pipeline.ownSems0 osem c : sProp 𝕄) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71] (by decide) (by decide)]
  rw [show ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71] : List (Fin 72)) = [0, 1, 2, 3, 4, 5, 6, 7] ++ ([8, 9, 10, 11, 12, 13, 14, 15, 16, 17, 18, 19, 20, 21, 22, 23, 24, 25, 26, 27, 28, 29, 30, 31, 32, 33, 34, 35, 36, 37, 38, 39] ++ [40, 41, 42, 43, 44, 45, 46, 47, 48, 49, 50, 51, 52, 53, 54, 55, 56, 57, 58, 59, 60, 61, 62, 63, 64, 65, 66, 67, 68, 69, 70, 71]) from rfl,
    bigSepL_append, bigSepL_append]
  exact Entails.of_eq rfl

end Cert.Kernel.AG

end

/-- info: 'Cert.Kernel.AG.ownSems_intro' depends on axioms: [propext, Classical.choice, Quot.sound] -/
#guard_msgs in #print axioms Cert.Kernel.AG.ownSems_intro
/-- info: 'Cert.Kernel.AG.mayWait_low' depends on axioms: [propext, Classical.choice, Quot.sound] -/
#guard_msgs in #print axioms Cert.Kernel.AG.mayWait_low
/-- info: 'Cert.Kernel.AG.chain32_eq_bigSep' depends on axioms: [propext, Classical.choice, Quot.sound] -/
#guard_msgs in #print axioms Cert.Kernel.AG.chain32_eq_bigSep
/-- info: 'Cert.Kernel.AG.owedFrom_peel' depends on axioms: [propext, Classical.choice, Quot.sound] -/
#guard_msgs in #print axioms Cert.Kernel.AG.owedFrom_peel
/-- info: 'Cert.Kernel.AG.owedFrom_done' depends on axioms: [propext, Classical.choice, Quot.sound] -/
#guard_msgs in #print axioms Cert.Kernel.AG.owedFrom_done
-- ==== Proof.Kernel.Value.lean ====
import proofs.«900671_g7700000000000672_dist_ag_v7x_xyz2x2x2_z_m32768_n1024_bf16_1_alg».proof.Proof.Kernel.Ledger
import Idealize.ShloMosaic.Lib.Pipeline.Value

/-!
# The result array, chunk by chunk

A device's result array is 64 chunks of 1024 rows: the 32 at the rows it computes itself and the 32 at the rows its
partner computes. Held whole it is held chunk by chunk; with every chunk written — its own by its local copies, the
others by its partner's remote copies — it holds `outFinal`.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The chunks of its result array a device writes itself, at the launch contents. -/
def ownChunks0 (c : Dev nD) : sProp 𝕄 :=
  chain32 fun n w hw hn =>
    (oSl c w (offInb c n w hw hn)).view.loc (c : Thread nD τ) ↦[(oSl c w (offInb c n w hw hn)).view.set]{fullShare}
      m ((oSl c w (offInb c n w hw hn)).view.loc (c : Thread nD τ))

/-- The chunks of its result array a device has written itself: its converted chunks over the launch contents. -/
def ownChunks1 (c : Dev nD) : sProp 𝕄 :=
  chain32 fun n w hw hn =>
    (oSl c w (offInb c n w hw hn)).view.loc (c : Thread nD τ) ↦[(oSl c w (offInb c n w hw hn)).view.set]{fullShare}
      (oSl c w (offInb c n w hw hn)).view.write (Elt F) (m ((oSl c w (offInb c n w hw hn)).view.loc (c : Thread nD τ)))
        (cval m c w (xInb n w hw hn)) Finset.univ

/-! ## The 64 chunks: pairwise disjoint, covering the array -/

/-- The elements of chunk `r` at the rows device `d` computes: the rows `32768·(d mod 2) + 1024·r` and the 1023 after. -/
theorem mem_chunk (d : Dev nD) (r : Fin 32) (h : OffInb d (1024 * r.val)) (i : S65536x1024.Idx) :
    i ∈ (oSl d (1024 * r.val) h).view.set
      ↔ 32768 * (d.val % 2) + 1024 * r.val ≤ (i 0).val ∧ (i 0).val < 32768 * (d.val % 2) + 1024 * r.val + 1024 := by
  rw [show (oSl d (1024 * r.val) h).view.set
      = (Rect.unit (s := S65536x1024) (k0_off1 d (BitVec.ofNat 32 (1024 * r.val))) S1024x1024.size h).set from
    View.set_slice_whole _ _, Rect.mem_set_unit, Gen.k0_off1_eq d r, Fin.forall_fin_two]
  have h1 := (i 1).isLt
  change (i 1).val < 1024 at h1
  show (32768 * (d.val % 2) + 1024 * r.val ≤ (i 0).val ∧ (i 0).val < 32768 * (d.val % 2) + 1024 * r.val + 1024)
      ∧ (0 ≤ (i 1).val ∧ (i 1).val < 0 + 1024) ↔ _
  omega

/-- The 64 chunks of device `c`'s result array: the 32 at the rows it computes and the 32 at the rows its partner
    computes. -/
def chunks (c : Dev nD) : Fin 32 ⊕ Fin 32 → Finset (Idx ((c : Thread nD τ).loc main_v1))
  | .inl r => (oSl c (1024 * r.val) (offInb c r.val _ rfl r.isLt)).view.set
  | .inr r => (oSl (peer c) (1024 * r.val) (offInb (peer c) r.val _ rfl r.isLt)).view.set

/-- Two chunks of one half differ in their rows; the two halves lie in different halves of the array. -/
theorem chunks_disjoint (c : Dev nD) (b b' : Fin 32 ⊕ Fin 32) (h : b ≠ b') : Disjoint (chunks c b) (chunks c b') := by
  rw [Finset.disjoint_left]
  intro i hi hi'
  have hp := peer_mod c
  have hc2 : c.val % 2 < 2 := Nat.mod_lt _ (by decide)
  rcases b with r | r <;> rcases b' with r' | r'
  · have h1 := (mem_chunk c r _ i).mp hi
    have h2 := (mem_chunk c r' _ i).mp hi'
    exact h (congrArg Sum.inl (Fin.ext (by omega)))
  · have h1 := (mem_chunk c r _ i).mp hi
    have h2 := (mem_chunk (peer c) r' _ i).mp hi'
    have := r.isLt; have := r'.isLt
    omega
  · have h1 := (mem_chunk (peer c) r _ i).mp hi
    have h2 := (mem_chunk c r' _ i).mp hi'
    have := r.isLt; have := r'.isLt
    omega
  · have h1 := (mem_chunk (peer c) r _ i).mp hi
    have h2 := (mem_chunk (peer c) r' _ i).mp hi'
    exact h (congrArg Sum.inr (Fin.ext (by omega)))

/-- Row `x` lies in chunk `x / 1024 mod 32` of the half `x / 32768`. -/
theorem chunks_cover (c : Dev nD) : Finset.univ.biUnion (chunks c) = Finset.univ := by
  ext i
  simp only [Finset.mem_biUnion, Finset.mem_univ, true_and, iff_true]
  have hp := peer_mod c
  have hc2 : c.val % 2 < 2 := Nat.mod_lt _ (by decide)
  have hi0 := (i 0).isLt
  change (i 0).val < 65536 at hi0
  have hr : (i 0).val / 1024 % 32 < 32 := Nat.mod_lt _ (by decide)
  by_cases hj : (i 0).val / 1024 / 32 = c.val % 2
  · refine ⟨.inl ⟨(i 0).val / 1024 % 32, hr⟩, (mem_chunk c _ _ i).mpr ?_⟩
    dsimp only; omega
  · refine ⟨.inr ⟨(i 0).val / 1024 % 32, hr⟩, (mem_chunk (peer c) _ _ i).mpr ?_⟩
    dsimp only; omega

/-- A device's result array held whole is held chunk by chunk, at any contents. -/
theorem held_chunks (c : Dev nD) (f : Buf (Elt F) ((c : Thread nD τ).loc main_v1)) :
    (held c oM f : sProp 𝕄)
      = iprop((bigSep Finset.univ fun r : Fin 32 => (c : Thread nD τ).loc main_v1 ↦[chunks c (.inl r)]{fullShare} f)
          ∗ bigSep Finset.univ fun r : Fin 32 => (c : Thread nD τ).loc main_v1 ↦[chunks c (.inr r)]{fullShare} f) := by
  show ((c : Thread nD τ).loc main_v1 ↦[(View.whole main_v1 : View sig .tc _ _ _).set]{fullShare} f : sProp 𝕄) = _
  rw [View.set_whole, Ring.pointsTo_blocks (chunks c) (chunks_disjoint c) (chunks_cover c) f, bigSep_univ_sum]
  rfl

/-- The result array held whole at launch is its own 32 chunks and the 32 it hands its partner at the barrier. -/
theorem out_split (c : Dev nD) : held c oM (R0 m c) ⊢ iprop(ownChunks0 m c ∗ barPayAt m (peer c) c) := by
  rw [held_chunks c (R0 m c)]
  unfold ownChunks0 barPayAt
  rw [chain32_eq_bigSep, chain32_eq_bigSep]
  exact .refl

/-! ## A written chunk holds `outFinal` on its own elements -/

/-- A chunk's converted contents depend on the device, the word offset and the element only (the in-bounds evidence is a proof). -/
theorem cval_congr {d d' : Dev nD} {w w' : ℕ} {h : XInb w} {h' : XInb w'} {y y' : S1024x1024.Idx}
    (hd : d = d') (hw : w = w') (hy : y = y') : cval m d w h y = cval m d' w' h' y' := by
  subst hd; subst hw; subst hy; rfl

/-- `outFinal` at the element of the chunk at device `d`'s rows for chunk `r` whose coordinates inside the chunk are `y`, where `d` is
    the device whose half the array's half `d mod 2` holds (the device itself or its partner). -/
theorem outFinal_chunk (c d : Dev nD) (hd : (if d.val % 2 = c.val % 2 then c else peer c) = d) (r : Fin 32)
    (i : Idx ((c : Thread nD τ).loc main_v1)) (y : S1024x1024.Idx)
    (h0 : (i 0).val = 32768 * (d.val % 2) + 1024 * r.val + (y 0).val) (h1 : (i 1).val = (y 1).val) :
    outFinal m c i = cval m d (1024 * r.val) (xInb r.val _ rfl r.isLt) y := by
  have hy0 := (y 0).isLt; change (y 0).val < 1024 at hy0
  have hd2 : d.val % 2 < 2 := Nat.mod_lt _ (by decide)
  have hj : (i 0).val / 1024 / 32 = d.val % 2 := by omega
  have hr : (i 0).val / 1024 % 32 = r.val := by omega
  unfold outFinal
  dsimp only
  refine cval_congr m ?_ ?_ ?_
  · rw [hj]; exact hd
  · rw [hr]
  · funext a
    match a with
    | ⟨0, _⟩ => exact Fin.ext (by show (i 0).val % 1024 = (y 0).val; omega)
    | ⟨1, _⟩ => exact Fin.ext h1

/-- On its own elements a written chunk holds `outFinal`. -/
theorem chunk_written (c d : Dev nD) (hd : (if d.val % 2 = c.val % 2 then c else peer c) = d) (r : Fin 32)
    (h : OffInb d (1024 * r.val)) (hx : XInb (1024 * r.val))
    (g : Buf (Elt F) ((oSl d (1024 * r.val) h).view.loc (c : Thread nD τ))) :
    ∀ i ∈ (oSl d (1024 * r.val) h).view.set,
      (oSl d (1024 * r.val) h).view.write (Elt F) g (cval m d (1024 * r.val) hx) Finset.univ i = outFinal m c i := by
  intro i hi
  obtain ⟨y, rfl⟩ := View.exists_emb_of_mem_set _ hi
  rw [View.write_emb_of_mem _ _ (Finset.mem_univ y)]
  rw [outFinal_chunk m c d hd r _ y ?_ ?_]
  · rfl
  · show (k0_off1 d (BitVec.ofNat 32 (1024 * r.val))) 0 + 1 * (y 0).val = _
    rw [Gen.k0_off1_eq d r]
    show 32768 * (d.val % 2) + 1024 * r.val + 1 * (y 0).val = _
    omega
  · show (k0_off1 d (BitVec.ofNat 32 (1024 * r.val))) 1 + 1 * (y 1).val = _
    rw [Gen.k0_off1_eq d r]
    show 0 + 1 * (y 1).val = _
    omega

/-- Its own chunks written and its partner's landed, the result array is whole again, at `outFinal`. -/
theorem out_join (c : Dev nD) :
    iprop(ownChunks1 m c ∗ (chain32 fun n w hw hn => recvPayAt m c (peer c) n w hw hn)) ⊢ held c oM (outFinal m c) := by
  rw [held_chunks c (outFinal m c)]
  unfold ownChunks1
  rw [chain32_eq_bigSep, chain32_eq_bigSep]
  unfold recvPayAt
  refine BIClass.sep_mono (Entails.of_eq (bigSep_congr fun r _ => ?_)) (Entails.of_eq (bigSep_congr fun r _ => ?_))
  · exact pointsTo_congr (chunk_written m c c (if_pos rfl) r _ _ _)
  · exact pointsTo_congr (chunk_written m c (peer c) (if_neg (by have := peer_mod c; omega)) r _ _ _)

/-- info: 'Cert.Kernel.AG.out_split' depends on axioms: [propext, Classical.choice, Quot.sound] -/
#guard_msgs in #print axioms out_split

/-- info: 'Cert.Kernel.AG.out_join' depends on axioms: [propext, Classical.choice, Quot.sound] -/
#guard_msgs in #print axioms out_join

end Cert.Kernel.AG

end
-- ==== Proof.Kernel.Close.lean ====
import proofs.«900671_g7700000000000672_dist_ag_v7x_xyz2x2x2_z_m32768_n1024_bf16_1_alg».proof.Proof.Kernel.Ledger
import proofs.«900671_g7700000000000672_dist_ag_v7x_xyz2x2x2_z_m32768_n1024_bf16_1_alg».proof.Proof.Kernel.Value

/-!
# The end of the body: the cells closed, the staging buffers whole again

After its last waits a device stands at round 1 of each of its 32 send cells and 32 receive cells, and no round from 1
on has a duty: it closes them, and their counters, at zero, are its own again. Each conversion buffer, held through
the body as two half shares (one lent to the local copy, one to the remote copy), is joined back to the whole.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the send and receive cells -/

/-- The 32 send cells close together: each stands at round 1, from which no round has a duty. -/
theorem close_sends (κ : GSem nD τ sig → ℕ) (c : Dev nD) :
    iprop((chain32 fun n w hw hn => cellInv ER (sched m) (κ (sendCell c n (semInb32 n hn))) (sendCell c n (semInb32 n hn)))
        ∗ (chain32 fun n w hw hn => atPos ER (sendCell c n (semInb32 n hn)) 1 ∅ 0))
      ⊢ iprop(|={Set.univ}=> (chain32 fun n w hw hn => semVal (sendCell c n (semInb32 n hn)) 0 : sProp 𝕄)) := by
  rw [chain32_eq_bigSep, chain32_eq_bigSep, chain32_eq_bigSep, ← bigSep_sep']
  exact (bigSep_mono fun r _ => Rounds.cell_close ER (sched m) (Set.mem_univ _) (fun h => h) (R := 1)
    (duties_later m (sendCell c r.val (semInb32 r.val r.isLt)))).trans (bigSep_fupd _ _)

/-- The 32 receive cells likewise. -/
theorem close_recvs (κ : GSem nD τ sig → ℕ) (c : Dev nD) :
    iprop((chain32 fun n w hw hn => cellInv ER (sched m) (κ (recvCell c n (semInb32 n hn))) (recvCell c n (semInb32 n hn)))
        ∗ (chain32 fun n w hw hn => atPos ER (recvCell c n (semInb32 n hn)) 1 ∅ 0))
      ⊢ iprop(|={Set.univ}=> (chain32 fun n w hw hn => semVal (recvCell c n (semInb32 n hn)) 0 : sProp 𝕄)) := by
  rw [chain32_eq_bigSep, chain32_eq_bigSep, chain32_eq_bigSep, ← bigSep_sep']
  exact (bigSep_mono fun r _ => Rounds.cell_close ER (sched m) (Set.mem_univ _) (fun h => h) (R := 1)
    (duties_later m (recvCell c r.val (semInb32 r.val r.isLt)))).trans (bigSep_fupd _ _)

/-! ## A buffer as its two half shares -/

/-- Two half shares of a buffer, each at some contents, agree where they overlap and join to the buffer held whole. -/
theorem halves_join (c : Dev nD) (M : Memref sig .tc .vmem S1024x1024 .bf16) :
    iprop(∃ f f', (M.view.loc (c : Thread nD τ) ↦[M.view.set]{fullShare.left} f) ∗ (M.view.loc (c : Thread nD τ) ↦[M.view.set]{fullShare.right} f'))
      ⊢ (iprop(∃ f, held c M f) : sProp 𝕄) := by
  iintro ⟨%f, %f', Hl, Hr⟩
  icombine Hl Hr gives %hag
  have e : (M.view.loc (c : Thread nD τ) ↦[M.view.set]{fullShare.right} f' : sProp 𝕄) = (M.view.loc (c : Thread nD τ) ↦[M.view.set]{fullShare.right} f) :=
    pointsTo_congr fun i hi => ((hag i (Finset.mem_inter.mpr ⟨hi, hi⟩)).1).symm
  ihave Hr' := (Entails.of_eq e) $$ Hr
  ihave Hf := ((pointsTo_share (PosShare.mem_left_op_right fullShare)).2) $$ [Hl Hr']
  · isplitl [Hl] <;> iassumption
  iexists f
  iexact Hf

/-- A buffer held whole at some contents is its two half shares at those contents. -/
theorem halves_split (c : Dev nD) (M : Memref sig .tc .vmem S1024x1024 .bf16) :
    (iprop(∃ f, held c M f) : sProp 𝕄)
      ⊢ iprop(∃ f f', (M.view.loc (c : Thread nD τ) ↦[M.view.set]{fullShare.left} f) ∗ (M.view.loc (c : Thread nD τ) ↦[M.view.set]{fullShare.right} f')) := by
  iintro ⟨%f, H⟩
  ihave Hh := ((pointsTo_share (PosShare.mem_left_op_right fullShare)).1) $$ H
  icases Hh with ⟨Hl, Hr⟩
  iexists f
  iexists f
  isplitl [Hl] <;> iassumption

/-- The two landing buffers whole and the six conversion buffers as half shares are the eight staging buffers. -/
theorem scr8_intro (c : Dev nD) :
    iprop((∃ f, held c (fM 0) f) ∗ (∃ f, held c (fM 1) f)
        ∗ (∃ f f', ((bM 0).view.loc (c : Thread nD τ) ↦[(bM 0).view.set]{fullShare.left} f) ∗ ((bM 0).view.loc (c : Thread nD τ) ↦[(bM 0).view.set]{fullShare.right} f'))
        ∗ (∃ f f', ((bM 1).view.loc (c : Thread nD τ) ↦[(bM 1).view.set]{fullShare.left} f) ∗ ((bM 1).view.loc (c : Thread nD τ) ↦[(bM 1).view.set]{fullShare.right} f'))
        ∗ (∃ f f', ((bM 2).view.loc (c : Thread nD τ) ↦[(bM 2).view.set]{fullShare.left} f) ∗ ((bM 2).view.loc (c : Thread nD τ) ↦[(bM 2).view.set]{fullShare.right} f'))
        ∗ (∃ f f', ((bM 3).view.loc (c : Thread nD τ) ↦[(bM 3).view.set]{fullShare.left} f) ∗ ((bM 3).view.loc (c : Thread nD τ) ↦[(bM 3).view.set]{fullShare.right} f'))
        ∗ (∃ f f', ((bM 4).view.loc (c : Thread nD τ) ↦[(bM 4).view.set]{fullShare.left} f) ∗ ((bM 4).view.loc (c : Thread nD τ) ↦[(bM 4).view.set]{fullShare.right} f'))
        ∗ (∃ f f', ((bM 5).view.loc (c : Thread nD τ) ↦[(bM 5).view.set]{fullShare.left} f) ∗ ((bM 5).view.loc (c : Thread nD τ) ↦[(bM 5).view.set]{fullShare.right} f')))
      ⊢ (scr8 c : sProp 𝕄) := by
  unfold scr8
  iintro ⟨H0, H1, B0, B1, B2, B3, B4, B5⟩
  isplitl [H0]; · iexact H0
  isplitl [H1]; · iexact H1
  isplitl [B0]; · iapply (halves_join c (bM 0)); iexact B0
  isplitl [B1]; · iapply (halves_join c (bM 1)); iexact B1
  isplitl [B2]; · iapply (halves_join c (bM 2)); iexact B2
  isplitl [B3]; · iapply (halves_join c (bM 3)); iexact B3
  isplitl [B4]; · iapply (halves_join c (bM 4)); iexact B4
  iapply (halves_join c (bM 5)); iexact B5

/-- And back: each conversion buffer split into its two half shares at its contents. -/
theorem scr8_elim (c : Dev nD) :
    (scr8 c : sProp 𝕄)
      ⊢ iprop((∃ f, held c (fM 0) f) ∗ (∃ f, held c (fM 1) f)
        ∗ (∃ f f', ((bM 0).view.loc (c : Thread nD τ) ↦[(bM 0).view.set]{fullShare.left} f) ∗ ((bM 0).view.loc (c : Thread nD τ) ↦[(bM 0).view.set]{fullShare.right} f'))
        ∗ (∃ f f', ((bM 1).view.loc (c : Thread nD τ) ↦[(bM 1).view.set]{fullShare.left} f) ∗ ((bM 1).view.loc (c : Thread nD τ) ↦[(bM 1).view.set]{fullShare.right} f'))
        ∗ (∃ f f', ((bM 2).view.loc (c : Thread nD τ) ↦[(bM 2).view.set]{fullShare.left} f) ∗ ((bM 2).view.loc (c : Thread nD τ) ↦[(bM 2).view.set]{fullShare.right} f'))
        ∗ (∃ f f', ((bM 3).view.loc (c : Thread nD τ) ↦[(bM 3).view.set]{fullShare.left} f) ∗ ((bM 3).view.loc (c : Thread nD τ) ↦[(bM 3).view.set]{fullShare.right} f'))
        ∗ (∃ f f', ((bM 4).view.loc (c : Thread nD τ) ↦[(bM 4).view.set]{fullShare.left} f) ∗ ((bM 4).view.loc (c : Thread nD τ) ↦[(bM 4).view.set]{fullShare.right} f'))
        ∗ (∃ f f', ((bM 5).view.loc (c : Thread nD τ) ↦[(bM 5).view.set]{fullShare.left} f) ∗ ((bM 5).view.loc (c : Thread nD τ) ↦[(bM 5).view.set]{fullShare.right} f'))) := by
  unfold scr8
  iintro ⟨H0, H1, B0, B1, B2, B3, B4, B5⟩
  isplitl [H0]; · iexact H0
  isplitl [H1]; · iexact H1
  isplitl [B0]; · iapply (halves_split c (bM 0)); iexact B0
  isplitl [B1]; · iapply (halves_split c (bM 1)); iexact B1
  isplitl [B2]; · iapply (halves_split c (bM 2)); iexact B2
  isplitl [B3]; · iapply (halves_split c (bM 3)); iexact B3
  isplitl [B4]; · iapply (halves_split c (bM 4)); iexact B4
  iapply (halves_split c (bM 5)); iexact B5

/-- info: 'Cert.Kernel.AG.close_sends' depends on axioms: [propext, Classical.choice, Quot.sound] -/
#guard_msgs in #print axioms close_sends

/-- info: 'Cert.Kernel.AG.close_recvs' depends on axioms: [propext, Classical.choice, Quot.sound] -/
#guard_msgs in #print axioms close_recvs

/-- info: 'Cert.Kernel.AG.scr8_intro' depends on axioms: [propext, Classical.choice, Quot.sound] -/
#guard_msgs in #print axioms scr8_intro

/-- info: 'Cert.Kernel.AG.scr8_elim' depends on axioms: [propext, Classical.choice, Quot.sound] -/
#guard_msgs in #print axioms scr8_elim

end Cert.Kernel.AG

end
-- ==== Proof.Kernel.Steps.lean ====
import proofs.«900671_g7700000000000672_dist_ag_v7x_xyz2x2x2_z_m32768_n1024_bf16_1_alg».proof.Proof.Kernel.Ghost

/-!
# The two steps of a chunk that need two readers of one conversion buffer

A conversion buffer is read by two copies at once — the local copy into the device's own result rows and the remote
copy into its partner's — so the device holds it as two half shares: it stores into it holding both, lends the left
half to the local copy and the right half to the remote one.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The whole rectangle of a staging buffer, as the body's loads and stores spell it. -/
abbrev r0 : Rect S1024x1024 := Rect.unit (s := S1024x1024) ![0, 0] S1024x1024.size inb_S1024x1024_S1024x1024_0_0

omit [FloatOps F] in
theorem hz : (![0, 0] : Fin 2 → Nat) = fun _ => 0 := funext fun a => by fin_cases a <;> rfl

/-- A store of a whole vector through a buffer held as its two half shares: both halves end at the written contents `Wc`
    (what the write through the rectangle leaves over any contents). -/
theorem wp_store_halves (c : Dev nD) {M : Memref sig .tc .vmem S1024x1024 .bf16} {r : Rect S1024x1024}
    {w : r.shape.Idx → Elt F .bf16} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (Wc : Buf (Elt F) ((M.access r).loc (c : Thread nD τ))) (hW : ∀ f, (M.access r).write (Elt F) f w Finset.univ = Wc)
    (hS : (M.access r).setOn Finset.univ ⊆ M.view.set)
    (fl fr : Buf (Elt F) ((M.access r).loc (c : Thread nD τ))) :
    iprop((M.view.loc (c : Thread nD τ) ↦[M.view.set]{fullShare.left} fl) ∗ (M.view.loc (c : Thread nD τ) ↦[M.view.set]{fullShare.right} fr))
      ⊢ iprop((((M.view.loc (c : Thread nD τ) ↦[M.view.set]{fullShare.left} Wc) ∗ (M.view.loc (c : Thread nD τ) ↦[M.view.set]{fullShare.right} Wc))
          -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  iintro ⟨Hl, Hr⟩ Hk
  icombine Hl Hr gives %hag
  have e : (M.view.loc (c : Thread nD τ) ↦[M.view.set]{fullShare.right} fr : sProp 𝕄) = (M.view.loc (c : Thread nD τ) ↦[M.view.set]{fullShare.right} fl) :=
    pointsTo_congr fun i hi => ((hag i (Finset.mem_inter.mpr ⟨hi, hi⟩)).1).symm
  ihave Hr' := (Entails.of_eq e) $$ Hr
  ihave Hf := ((pointsTo_share (PosShare.mem_left_op_right fullShare)).2) $$ [Hl Hr']
  · isplitl [Hl] <;> iassumption
  iapply (wp_store 𝒱₀ (c : Thread nD τ) none Set.univ (m := M) (r := r) (Mk := Finset.univ) (S := M.view.set) (f := fl) hS) $$ Hf
  iintro Hf
  rw [hW fl]
  ihave Hh := ((pointsTo_share (PosShare.mem_left_op_right fullShare)).1) $$ Hf
  iapply Hk
  iexact Hh

/-- Chunk `n`'s remote copy, addressed to `p = peer c`: paid with the right half of the conversion buffer, whose
    contents read as the device's converted chunk, and the partner's rows for the chunk (received at the barrier). -/
theorem wp_send_chunk (κs κr : ℕ) (c p : Dev nD) (hp : p = peer c) (n w : ℕ) (hw : w = 1024 * n) (hn : n < 32)
    {M : Memref sig .tc .vmem S1024x1024 .bf16} (hM : M = bM (n % 6))
    {hsc : (oSl c w (offInb c n w hw hn) : Memref sig (Dev.tc p : Thread nD τ).2.kind .hbm S1024x1024 .bf16).view.ref.isScScratch = false}
    {hsrc : M.view.WordExact} {hdst : (oSl c w (offInb c n w hw hn)).view.WordExact}
    {hsem : DmaTarget.Typed .vmem (.dma (recvSem n (semInb32 n hn))) (.remote (Dev.tc p : Thread nD τ) (oSl c w (offInb c n w hw hn)) (.dma (sendSem n (semInb32 n hn))) hsc)}
    {α : Type} {Q : α → sProp 𝕄} {k : PUnit → Prog (TpuEff nD τ sig (Elt F) Λ₀ .tc) α}
    (fs : Buf (Elt F) (M.view.loc (c : Thread nD τ))) (hfs : M.view.read (Elt F) fs = cval m c w (xInb n w hw hn))
    (O : CellTallies nD τ sig Unit) (W : Waits sig Unit) :
    iprop(cellInv ER (sched m) κs (sendCell c n (semInb32 n hn)) ∗ cellInv ER (sched m) κr (recvCell (peer c) n (semInb32 n hn))
        ∗ (M.view.loc (c : Thread nD τ) ↦[M.view.set]{fullShare.right} fs)
        ∗ ((oSl c w (offInb c n w hw hn)).view.loc (peer c : Thread nD τ) ↦[(oSl c w (offInb c n w hw hn)).view.set]{fullShare}
            m ((oSl c w (offInb c n w hw hn)).view.loc (peer c : Thread nD τ)))
        ∗ owes (c : Thread nD τ) (O + tallyAt (recvCell (peer c) n (semInb32 n hn)) () NC) W
        ∗ dutyTok ER (sendCell c n (semInb32 n hn)) 0 () ∗ reached ER (sendCell c n (semInb32 n hn)) 0
        ∗ dutyTok ER (recvCell (peer c) n (semInb32 n hn)) 0 () ∗ reached ER (recvCell (peer c) n (semInb32 n hn)) 0)
      ⊢ iprop(((cred (tallyAt (sendCell c n (semInb32 n hn)) () NC) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc p : Thread nD τ) (oSl c w (offInb c n w hw hn)) (.dma (sendSem n (semInb32 n hn))) hsc)
                (.dma (recvSem n (semInb32 n hn))) hsrc hdst hsem) k) Q) := by
  subst hp
  exact Rounds.wp_send_pointsTo 𝒱₀ ER (sched m) (c : Thread nD τ) none (κ₁ := κs) (κ₂ := κr)
    (r₁ := 0) (r₂ := 0) (d₁ := ()) (d₂ := ()) (fd := m ((oSl c w (offInb c n w hw hn)).view.loc (peer c : Thread nD τ)))
    (by rw [duties_send m c n hn]; exact Finset.mem_singleton_self _)
    (by rw [duties_recv m (peer c) n hn]; exact Finset.mem_singleton_self _)
    () () NC rfl (amount_send m c n _ ()) (amount_recv m (peer c) n _ ()) O rfl (W := W)
    (by rw [payload_send m c n hn]; subst hM; unfold sendPay; iintro H; iexists fs; iexact H)
    (by rw [payload_recv_peer m c n w hw hn, hfs]; exact BI.Entails.refl _)

set_option maxHeartbeats 2000000 in
/-- Chunk `n`'s remote copy, the source's contents and the fact that they read as the device's converted chunk given
    inside the premise. -/
theorem wp_send_chunk_ex (κs κr : ℕ) (c p : Dev nD) (hp : p = peer c) (n w : ℕ) (hw : w = 1024 * n) (hn : n < 32)
    {M : Memref sig .tc .vmem S1024x1024 .bf16} (hM : M = bM (n % 6))
    {hsc : (oSl c w (offInb c n w hw hn) : Memref sig (Dev.tc p : Thread nD τ).2.kind .hbm S1024x1024 .bf16).view.ref.isScScratch = false}
    {hsrc : M.view.WordExact} {hdst : (oSl c w (offInb c n w hw hn)).view.WordExact}
    {hsem : DmaTarget.Typed .vmem (.dma (recvSem n (semInb32 n hn))) (.remote (Dev.tc p : Thread nD τ) (oSl c w (offInb c n w hw hn)) (.dma (sendSem n (semInb32 n hn))) hsc)}
    {α : Type} {Q : α → sProp 𝕄} {k : PUnit → Prog (TpuEff nD τ sig (Elt F) Λ₀ .tc) α}
    (O : CellTallies nD τ sig Unit) {W : Waits sig Unit} :
    iprop((∃ fs, (M.view.loc (c : Thread nD τ) ↦[M.view.set]{fullShare.right} fs) ∗ ⌜M.view.read (Elt F) fs = cval m c w (xInb n w hw hn)⌝)
        ∗ cellInv ER (sched m) κs (sendCell c n (semInb32 n hn)) ∗ cellInv ER (sched m) κr (recvCell (peer c) n (semInb32 n hn))
        ∗ ((oSl c w (offInb c n w hw hn)).view.loc (peer c : Thread nD τ) ↦[(oSl c w (offInb c n w hw hn)).view.set]{fullShare}
            m ((oSl c w (offInb c n w hw hn)).view.loc (peer c : Thread nD τ)))
        ∗ owes (c : Thread nD τ) (O + tallyAt (recvCell (peer c) n (semInb32 n hn)) () NC) W
        ∗ dutyTok ER (sendCell c n (semInb32 n hn)) 0 () ∗ reached ER (sendCell c n (semInb32 n hn)) 0
        ∗ dutyTok ER (recvCell (peer c) n (semInb32 n hn)) 0 () ∗ reached ER (recvCell (peer c) n (semInb32 n hn)) 0)
      ⊢ iprop(((cred (tallyAt (sendCell c n (semInb32 n hn)) () NC) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc p : Thread nD τ) (oSl c w (offInb c n w hw hn)) (.dma (sendSem n (semInb32 n hn))) hsc)
                (.dma (recvSem n (semInb32 n hn))) hsrc hdst hsem) k) Q) := by
  iintro ⟨⟨%fs, Hsrc, %hfs⟩, HI1, HI2, Hrest⟩
  iapply (wp_send_chunk m κs κr c p hp n w hw hn hM fs hfs O W)
  isplitl [HI1]; · iexact HI1
  isplitl [HI2]; · iexact HI2
  isplitl [Hsrc]; · iexact Hsrc
  iexact Hrest

/-- The store when the right half comes back from a send cell (at some contents). -/
theorem wp_store_halves' (c : Dev nD) {M : Memref sig .tc .vmem S1024x1024 .bf16} (k' : ℕ) (hk : M = bM k') {r : Rect S1024x1024}
    {w : r.shape.Idx → Elt F .bf16} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (Wc : Buf (Elt F) ((M.access r).loc (c : Thread nD τ))) (hW : ∀ f, (M.access r).write (Elt F) f w Finset.univ = Wc)
    (hS : (M.access r).setOn Finset.univ ⊆ M.view.set)
    (fl : Buf (Elt F) ((M.access r).loc (c : Thread nD τ))) :
    iprop((M.view.loc (c : Thread nD τ) ↦[M.view.set]{fullShare.left} fl) ∗ sendPay c k')
      ⊢ iprop((((M.view.loc (c : Thread nD τ) ↦[M.view.set]{fullShare.left} Wc) ∗ (M.view.loc (c : Thread nD τ) ↦[M.view.set]{fullShare.right} Wc))
          -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  subst hk
  unfold sendPay
  iintro ⟨Hl, ⟨%fr, Hr⟩⟩
  iapply (wp_store_halves c Wc hW hS fl fr)
  isplitl [Hl] <;> iassumption

omit [FloatOps F] in
/-- A points-to restated at equal contents. -/
theorem pt_congr {ℓ : Loc nD τ sig} {S : Finset (Idx ℓ)} {q : PosShare TreeShare} {f g : Buf (Elt F) ℓ} (h : f = g) :
    (ℓ ↦[S]{q} f : sProp 𝕄) ⊢ ℓ ↦[S]{q} g := by subst h; exact .rfl

end Cert.Kernel.AG

end
-- ==== Proof.Kernel.Mid.lean ====
import proofs.«900671_g7700000000000672_dist_ag_v7x_xyz2x2x2_z_m32768_n1024_bf16_1_alg».proof.Proof.Kernel.Close
import proofs.«900671_g7700000000000672_dist_ag_v7x_xyz2x2x2_z_m32768_n1024_bf16_1_alg».proof.Proof.Kernel.Steps

/-!
# The body between its two ends

What a device's body runs from once its result array is held chunk by chunk and each conversion buffer as two half
shares, and what it leaves before the cells are closed and the array is joined.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two landing buffers whole and the six conversion buffers as their half shares, at some contents. -/
def scrHalves (c : Dev nD) : sProp 𝕄 :=
  iprop((∃ f, held c (fM 0) f) ∗ (∃ f, held c (fM 1) f)
    ∗ (∃ f f', ((bM 0).view.loc (c : Thread nD τ) ↦[(bM 0).view.set]{fullShare.left} f) ∗ ((bM 0).view.loc (c : Thread nD τ) ↦[(bM 0).view.set]{fullShare.right} f'))
    ∗ (∃ f f', ((bM 1).view.loc (c : Thread nD τ) ↦[(bM 1).view.set]{fullShare.left} f) ∗ ((bM 1).view.loc (c : Thread nD τ) ↦[(bM 1).view.set]{fullShare.right} f'))
    ∗ (∃ f f', ((bM 2).view.loc (c : Thread nD τ) ↦[(bM 2).view.set]{fullShare.left} f) ∗ ((bM 2).view.loc (c : Thread nD τ) ↦[(bM 2).view.set]{fullShare.right} f'))
    ∗ (∃ f f', ((bM 3).view.loc (c : Thread nD τ) ↦[(bM 3).view.set]{fullShare.left} f) ∗ ((bM 3).view.loc (c : Thread nD τ) ↦[(bM 3).view.set]{fullShare.right} f'))
    ∗ (∃ f f', ((bM 4).view.loc (c : Thread nD τ) ↦[(bM 4).view.set]{fullShare.left} f) ∗ ((bM 4).view.loc (c : Thread nD τ) ↦[(bM 4).view.set]{fullShare.right} f'))
    ∗ (∃ f f', ((bM 5).view.loc (c : Thread nD τ) ↦[(bM 5).view.set]{fullShare.left} f) ∗ ((bM 5).view.loc (c : Thread nD τ) ↦[(bM 5).view.set]{fullShare.right} f')))

/-- Before: the protocol's ghost state and launch credit, the local semaphores at zero, the input half, the result
    array's own chunks at launch contents and the chunks to hand the partner, the staging buffers, the debt. -/
def midPre (κ : GSem nD τ sig → ℕ) (c : Dev nD) (W : Waits sig Unit) : sProp 𝕄 :=
  iprop(ghost m κ c ∗ cred (tallyAt (barCell c) () 1)
    ∗ (chain32 fun n w hw hn => cred (tallyAt (recvCell c n (semInb32 n hn)) () NC)) ∗ levAts L lv
    ∗ locSems c ∗ held c xM (X0 m c) ∗ ownChunks0 m c ∗ barPayAt m (peer c) c ∗ scrHalves c
    ∗ owes (c : Thread nD τ) (O₀ c) W)

/-- After: every send and receive cell one round on, the local semaphores at zero again, the input half unchanged, the
    result array's own chunks written and the partner's landed, the staging buffers, nothing owed. -/
def midPost (c : Dev nD) : sProp 𝕄 :=
  iprop((chain32 fun n w hw hn => atPos ER (sendCell c n (semInb32 n hn)) 1 ∅ 0)
    ∗ (chain32 fun n w hw hn => atPos ER (recvCell c n (semInb32 n hn)) 1 ∅ 0)
    ∗ locSems c ∗ held c xM (X0 m c) ∗ ownChunks1 m c
    ∗ (chain32 fun n w hw hn => recvPayAt m c (peer c) n w hw hn) ∗ scrHalves c
    ∗ ∃ W', owes (c : Thread nD τ) 0 W')

end Cert.Kernel.AG

end
-- ==== Proof.Kernel.Vals.lean ====
import proofs.«900671_g7700000000000672_dist_ag_v7x_xyz2x2x2_z_m32768_n1024_bf16_1_alg».proof.Proof.Kernel.Mid

/-!
# Whole writes read back

A landing buffer is filled whole by a local copy and then loaded whole; a conversion buffer is stored whole; a result
chunk is written whole by a local copy. Read back, each is the payload of its last whole write, whatever lay beneath:
so the conversion buffer holds the device's converted chunk, and so does the result chunk after its local copy.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading back a whole write -/

section Whole
variable {sig' : RefSig} {κ' : Kind} {Val : EltTy → Type}

/-- A load of the whole buffer (through the full-size rectangle at zero offsets, however the zeros are spelt) after a list of
    writes whose last one was a whole write reads that write's payload, whatever lies beneath. -/
theorem readAt_writes_whole_head (b : Ref sig' κ') {off : Fin b.ty.shape.rank → Nat} (h : off = fun _ => 0)
    (inb : ∀ a, off a + b.ty.shape.size a ≤ b.ty.shape.size a) (f : b.ty.Contents Val) (v : b.ty.Contents Val)
    (L : List (View.Piece Val b.ty.shape b.ty.elt)) :
    (Memref.whole b).view.readAt Val (Rect.unit off b.ty.shape.size inb).toLoadRect
        ((Memref.whole b).view.writes Val f (⟨Rect.whole b.ty.shape, v⟩ :: L)) = v := by
  rw [Memref.readAt_unit_zero Val b h inb, View.writes_cons]
  exact Memref.write_access_whole_univ Val b _ v

/-- The same for a covered load through any view of the shape: the last write, a whole one, is what it reads. -/
theorem readCov_whole_head [∀ e, Nonempty (Val e)] {sp : Space} {s : Shape} {e : EltTy} (v : View sig' κ' sp s e)
    {off : Fin s.rank → Nat} (h : off = fun _ => 0) (inb : ∀ a, off a + s.size a ≤ s.size a)
    (w : s.Idx → Val e) (L : List (View.Piece Val s e)) :
    v.readCov (⟨Rect.whole s, w⟩ :: L) (Rect.unit off s.size inb).toLoadRect = w := by
  subst h; exact View.readCov_cons_toLoadRect v (Rect.whole s) w L

/-- One whole write, as a list of writes, is the unmasked write through the view. -/
theorem writes_whole_one {sp : Space} {s : Shape} {e : EltTy} (v : View sig' κ' sp s e) (f : v.ty.Contents Val) (w : s.Idx → Val e) :
    v.writes Val f [⟨Rect.whole s, w⟩] = v.write Val f w Finset.univ := by
  show (v.slice (Rect.whole s)).write Val f w Finset.univ = _
  funext i
  by_cases hi : i ∈ v.set
  · obtain ⟨x, -, rfl⟩ := Finset.mem_map.mp hi
    have e1 : v.emb x = (v.slice (Rect.whole s)).emb x := by
      show _ = v.emb ((Rect.whole s).emb x); rw [Rect.emb_whole_apply]
    conv_lhs => rw [e1, View.write_emb_of_mem _ _ (Finset.mem_univ _)]
    rw [View.write_emb_of_mem _ _ (Finset.mem_univ _)]
  · have hs : (v.slice (Rect.whole s)).set = v.set := by
      rw [View.set_slice, Rect.set_whole]; rfl
    rw [View.write_of_not_mem _ _ _ (by rw [View.setOn_univ, hs]; exact hi),
      View.write_of_not_mem _ _ _ (by rw [View.setOn_univ]; exact hi)]

end Whole

/-- A covered load of a whole staging buffer, as the body spells its rectangle, after a whole write. -/
theorem readCov_r0 {sp : Space} {e : EltTy} (v : View sig .tc sp S1024x1024 e) (w : S1024x1024.Idx → Elt F e)
    (L : List (View.Piece (Elt F) S1024x1024 e)) :
    v.readCov (⟨Rect.whole S1024x1024, w⟩ :: L)
        (Rect.unit (s := S1024x1024) ![0, 0] S1024x1024.size inb_S1024x1024_S1024x1024_0_0).toLoadRect = w :=
  readCov_whole_head v hz _ w L

/-- A conversion buffer's contents, and a result chunk's after its local copy, are the device's converted chunk: a whole write read
    back is its payload (`writes_whole_one`, `readCov_r0`), the whole view reads its buffer's contents (`View.read_whole`), and the
    conversion of the input chunk the landing buffer received is the converted chunk by definition. -/
macro "chunk_val" : tactic =>
  `(tactic| (sl_unfold_run_names; (try erw [writes_whole_one]); rw [View.read_whole]; erw [readCov_r0]; rfl))

/-- info: 'Cert.Kernel.AG.readAt_writes_whole_head' depends on axioms: [propext, Classical.choice, Quot.sound] -/
#guard_msgs in #print axioms readAt_writes_whole_head

/-- info: 'Cert.Kernel.AG.writes_whole_one' depends on axioms: [propext, Classical.choice, Quot.sound] -/
#guard_msgs in #print axioms writes_whole_one

/-- info: 'Cert.Kernel.AG.readCov_r0' depends on axioms: [propext, Classical.choice, Quot.sound] -/
#guard_msgs in #print axioms readCov_r0

end Cert.Kernel.AG

end
-- ==== Proof.Kernel.BodyMid.lean ====
import proofs.«900671_g7700000000000672_dist_ag_v7x_xyz2x2x2_z_m32768_n1024_bf16_1_alg».proof.Proof.Kernel.Mid
import proofs.«900671_g7700000000000672_dist_ag_v7x_xyz2x2x2_z_m32768_n1024_bf16_1_alg».proof.Proof.Kernel.Vals

/-!
# The body's run, chunk by chunk

One device's body from `midPre` to `midPost`. A conversion buffer has two readers at once — the local copy into the
device's own result rows takes its left half share, the remote copy into the partner's rows is paid with its right
half — so the store into it joins and splits the two halves, and the remote copy hands the partner's receive cell the
partner's rows rewritten with the converted chunk. The 32 chunks differ only in numerals: each of these two steps is
one tactic text over the chunk's number.
-/

open Lean Elab Tactic in
/-- Run a tactic given as text. -/
def Cert.Kernel.AG.runTacText (s : String) : TacticM Unit := do
  match Parser.runParserCategory (← getEnv) `tactic s with
  | .ok stx => evalTactic stx
  | .error e => throwError "{e}\n{s}"

namespace Cert.Kernel.AG.Text

/-- `⟨b0, …, b31⟩`, each name marked persistent or not. -/
def pat (b : String) (pers : Bool := false) : String :=
  "⟨" ++ ", ".intercalate ((List.range 32).map fun i => (if pers then "#" else "") ++ b ++ toString i) ++ "⟩"

/-- Opening `midPre`: every cell's invariant, position, reached round and token, the credit, the local semaphores, the
    buffers. -/
def intro : String :=
  "iintro ⟨⟨⟨⟨#HIb, #HIpb, " ++ pat "HIs" true ++ ", " ++ pat "HIr" true ++ ", " ++ pat "HIp" true ++ "⟩, Hatb, " ++ pat "Has" ++ ", " ++ pat "Har"
    ++ ", #Hrpb, " ++ pat "Hrs" true ++ ", " ++ pat "Hrp" true ++ ", Htokb, " ++ pat "Hts" ++ ", " ++ pat "Htp" ++ "⟩, Hcrb, " ++ pat "Hcr"
    ++ ", #Hlev, ⟨Hl0, Hl1, Hst0, Hst1, Hst2, Hst3, Hst4, Hst5⟩, Hx, " ++ pat "Ho" ++ ", Hgive, "
    ++ "⟨⟨%f0, Hf0⟩, ⟨%f1, Hf1⟩, ⟨%g0, %g0', Hb0l, Hb0r⟩, ⟨%g1, %g1', Hb1l, Hb1r⟩, ⟨%g2, %g2', Hb2l, Hb2r⟩, ⟨%g3, %g3', Hb3l, Hb3r⟩, ⟨%g4, %g4', Hb4l, Hb4r⟩, ⟨%g5, %g5', Hb5l, Hb5r⟩⟩, HO⟩, Hk⟩"

/-- The store of chunk `n` into conversion buffer `n % 6`, held as two halves: for the first six chunks the halves the
    device started with, later the left half the local copy's wait returned and the right half the send cell's. -/
def store (n : Nat) : String :=
  let k := n % 6
  let b := s!"cc0_scratch{2 + k}"
  let tail := s!"(r := r0) _ (fun f => Memref.write_access_unit_zero_univ (Elt F) {b} hz _ f _) (by rw [View.set_whole]; exact Finset.subset_univ _) _"
  if n < 6 then
    s!"(iapply (wp_store_halves c (M := Memref.whole {b}) {tail} _) $$ [Hb{k}l Hb{k}r]; isplitl [Hb{k}l]; iexact Hb{k}l; iexact Hb{k}r; iintro ⟨Hb{k}l, Hb{k}r⟩)"
  else
    s!"(iapply (wp_store_halves' c (M := Memref.whole {b}) {k} rfl {tail}) $$ [Hb{k}l Has{n - 6}_pay1]; isplitl [Hb{k}l]; iexact Hb{k}l; iexact Has{n - 6}_pay1; iintro ⟨Hb{k}l, Hb{k}r⟩)"

/-- The remote copy of chunk `n`. -/
def send (n : Nat) : String :=
  let k := n % 6
  s!"(rw [owedFrom_peel c {n} (by decide)]; iapply (wp_send_chunk_ex m (κ (sendCell c {n} (semInb32 {n} (by decide)))) (κ (recvCell (peer c) {n} (semInb32 {n} (by decide)))) c _ (dev_eq{n + 2} c) {n} {1024 * n} rfl (by decide) (M := Memref.whole cc0_scratch{2 + k}) rfl (owedFrom c {n + 1})) $$ [Hb{k}r Hp{n} HO Hts{n} Htp{n}]; isplitl [Hb{k}r]; iexists _; isplitl [Hb{k}r]; iexact Hb{k}r; ipureintro; chunk_val; isplitr; iexact HIs{n}; isplitr; iexact HIp{n}; isplitl [Hp{n}]; iexact Hp{n}; isplitl [HO]; iexact HO; isplitl [Hts{n}]; iexact Hts{n}; isplitr; iexact Hrs{n}; isplitl [Htp{n}]; iexact Htp{n}; iexact Hrp{n}; iintro ⟨Hcs{n}, HO⟩)"

/-- `b0 … b31`, space separated (a frame list). -/
def names (b : String) (sfx : String := "") : String := " ".intercalate ((List.range 32).map fun i => b ++ toString i ++ sfx)

/-- Closing a 32-chain goal from the hypotheses `b{i}{sfx}`, each by the tactic text `fin i`. -/
def chainBy (b : String) (sfx : String) (fin : Nat → String) : String :=
  "; ".intercalate ((List.range 32).map fun i =>
    if i < 31 then s!"isplitl [{b}{i}{sfx}]; {fin i}" else fin i)

/-- Assembling `midPost` from what the run leaves. -/
def post : String :=
  let scr (k n : Nat) (last : Bool) : String :=
    let core := s!"icases Has{n}_pay1 with ⟨%fr{k}, Hr{k}⟩; iexists _; iexists _; isplitl [Hb{k}l]; iexact Hb{k}l; iexact Hr{k}"
    if last then core else s!"isplitl [Hb{k}l Has{n}_pay1]; {core}"
  "(sl_step; iapply Hk; unfold midPost ownChunks1 locSems scrHalves held sendPay chain32; beta_reduce; "
  ++ s!"isplitl [{names "Has"}]; " ++ chainBy "Has" "" (fun i => s!"iexact Has{i}") ++ "; "
  ++ s!"isplitl [{names "Har"}]; " ++ chainBy "Har" "" (fun i => s!"iexact Har{i}") ++ "; "
  ++ "isplitl [Hl0 Hl1 Hst0 Hst1 Hst2 Hst3 Hst4 Hst5]; isplitl [Hl0]; iexact Hl0; isplitl [Hl1]; iexact Hl1; isplitl [Hst0]; iexact Hst0; isplitl [Hst1]; iexact Hst1; isplitl [Hst2]; iexact Hst2; isplitl [Hst3]; iexact Hst3; isplitl [Hst4]; iexact Hst4; iexact Hst5; "
  ++ "isplitl [Hx]; iexact Hx; "
  ++ s!"isplitl [{names "Ho"}]; " ++ chainBy "Ho" "" (fun i => s!"iapply (pt_congr ?_) $$ Ho{i}; chunk_val") ++ "; "
  ++ s!"isplitl [{names "Har" "_pay1"}]; " ++ chainBy "Har" "_pay1" (fun i => s!"iexact Har{i}_pay1") ++ "; "
  ++ "isplitl [Hf0 Hf1 Hb0l Hb1l Hb2l Hb3l Hb4l Hb5l Has26_pay1 Has27_pay1 Has28_pay1 Has29_pay1 Has30_pay1 Has31_pay1]; "
  ++ "isplitl [Hf0]; iexists _; iexact Hf0; isplitl [Hf1]; iexists _; iexact Hf1; "
  ++ scr 0 30 false ++ "; " ++ scr 1 31 false ++ "; " ++ scr 2 26 false ++ "; " ++ scr 3 27 false ++ "; " ++ scr 4 28 false ++ "; " ++ scr 5 29 true ++ "; "
  ++ "iexists _; iexact HO)"

end Cert.Kernel.AG.Text

namespace Cert.Kernel.AG

open Lean Elab Tactic in
elab "ag_intro" : tactic => Cert.Kernel.AG.runTacText Cert.Kernel.AG.Text.intro
open Lean Elab Tactic in
elab "ag_open " h:ident " as " b:ident : tactic =>
  Cert.Kernel.AG.runTacText s!"icases {h.getId} with {Cert.Kernel.AG.Text.pat b.getId.toString}"
open Lean Elab Tactic in
elab "ag_store " n:num : tactic => Cert.Kernel.AG.runTacText (Cert.Kernel.AG.Text.store n.getNat)
open Lean Elab Tactic in
elab "ag_send " n:num : tactic => Cert.Kernel.AG.runTacText (Cert.Kernel.AG.Text.send n.getNat)
open Lean Elab Tactic in
/-- Chunks `a` to `b - 1`, each: the store into the conversion buffer, the local copy out of it, the remote copy out of it,
    and on to the next chunk's store. -/
elab "ag_run " a:num b:num : tactic => do
  for n in [a.getNat : b.getNat] do
    Cert.Kernel.AG.runTacText (Cert.Kernel.AG.Text.store n)
    Cert.Kernel.AG.runTacText "sl_exec (disch := decide)"
    Cert.Kernel.AG.runTacText (Cert.Kernel.AG.Text.send n)
    Cert.Kernel.AG.runTacText "sl_exec (disch := decide)"
open Lean Elab Tactic in
elab "ag_post" : tactic => Cert.Kernel.AG.runTacText Cert.Kernel.AG.Text.post
open Lean Elab Command in
/-- The device every signal and remote copy addresses is the partner: one equation per printed device chain. -/
elab "ag_dev_eqs" : command => do
  for i in [1:34] do
    let s := s!"theorem dev_eq{i} (c : Dev nD) : (⟨k0_dev{i} c, k0_dev{i}_lt c⟩ : Dev nD) = peer c := Fin.ext (k0_dev{i}_eq c)"
    match Parser.runParserCategory (← getEnv) `command s with
    | .ok stx => elabCommand stx
    | .error e => throwError "{e}"

end Cert.Kernel.AG

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

ag_dev_eqs
attribute [local sl_canon] dev_eq1

attribute [local sl_rounds high] payload_bar_peer
attribute [local sl_rounds] duties_bar duties_send duties_recv amount_bar amount_send amount_recv expect_bar expect_send expect_recv
  payload_bar payload_send

/-- A receive cell's payload with the word offset computed from the chunk's number. -/
theorem payload_recv' (c : Dev nD) (n : ℕ) (hn : n < 32) (h : SemInb32 n) (d : Unit) :
    (sched m).payload (recvCell c n h) 0 d = recvPayAt m c (peer c) n (1024 * n) rfl hn := payload_recv m c n (1024 * n) rfl hn h d
attribute [local sl_rounds] payload_recv'

set_option maxHeartbeats 8000000 in
set_option maxRecDepth 100000 in
/-- The body from `midPre` to `midPost`. -/
theorem body_mid (κ : GSem nD τ sig → ℕ) (c : Dev nD) (W : Waits sig Unit) (Kt : PUnit → sProp 𝕄) :
    iprop(midPre m κ c W ∗ (midPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Kt := by
  unfold midPre ghost invs locSems ownChunks0 scrHalves held chain32 O₀
  beta_reduce
  ag_intro
  have hmw : ∀ (n : ℕ) (sm : SemLoc sig), lv ((c : Thread nD τ), sm) () < 2 →
      ((levAts L lv : sProp 𝕄) ⊢ MayWait (c : Thread nD τ) sm () (owedFrom c n)) := fun n sm h => mayWait_low c n sm h
  sl_exec (disch := decide)
  unfold barPayAt chain32
  beta_reduce
  ag_open Hatb_pay1 as Hp
  ag_run 0 32
  rw [owedFrom_done c]
  sl_exec (disch := decide)
  ag_post

/-- info: 'Cert.Kernel.AG.body_mid' depends on axioms: [propext, Classical.choice, Quot.sound] -/
#guard_msgs in #print axioms body_mid

end Cert.Kernel.AG

end
-- ==== Proof.Kernel.Body.lean ====
import proofs.«900671_g7700000000000672_dist_ag_v7x_xyz2x2x2_z_m32768_n1024_bf16_1_alg».proof.Proof.Kernel.BodyMid

/-!
# The body, on one device

The library's obligation at the grid's one point, from the body's run between its two ends: before it the result
array is cut into its chunks and each conversion buffer into its half shares; after it the send and receive cells are
closed, their counters joined to the local ones, the chunks and the half shares joined back.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No window is staged: a family over the windows is empty. -/
theorem bigSep_W0 (Φ : Fin cfg0.W → sProp 𝕄) : bigSep Finset.univ Φ = iprop(emp) := by
  rw [show (Finset.univ : Finset (Fin cfg0.W)) = ∅ from Finset.univ_eq_empty]; rfl

/-- What the library hands the body at the point, and what it wants back. -/
def bodyPre' (c : Dev nD) : sProp 𝕄 := iprop(Φ₀ m c ∗ (dats m 0 c).owesAt () t0_0.castSucc ∗ emp)
def bodyPost (c : Dev nD) : sProp 𝕄 := iprop(Φ₁ m c ∗ (dats m 0 c).owesAt () t0_0.succ ∗ emp)

instance chain32_persistent (Φ : (n w : ℕ) → w = 1024 * n → n < 32 → sProp 𝕄) [∀ n w hw hn, BI.Persistent (Φ n w hw hn)] :
    BI.Persistent (chain32 Φ) := by
  rw [chain32_eq_bigSep]; infer_instance

instance invs_persistent (κ : GSem nD τ sig → ℕ) (c : Dev nD) : BI.Persistent (invs m κ c) := by
  unfold invs; infer_instance

/-- The end of the body: the send and receive cells closed, their counters the device's own again with the local ones;
    the result array and the conversion buffers whole again. -/
theorem body_end (κ : GSem nD τ sig → ℕ) (c : Dev nD) :
    iprop(invs m κ c ∗ midPost m c) ⊢ |={Set.univ}=> bodyPost m c := by
  unfold invs midPost scrHalves bodyPost Φ₁ Dat.owesAt Pipeline.owesWithin
  rw [show (dats m 0 c).owed t0_0.succ = 0 from rfl]
  iintro ⟨⟨-, -, HIs, HIr, -⟩, HaS, HaR, Hl, Hx, Hown, Hrecv, Hscr, %W', HO⟩
  imod (close_sends m κ c) $$ [HIs HaS] with HzS
  · isplitl [HIs] <;> iassumption
  imod (close_recvs m κ c) $$ [HIr HaR] with HzR
  · isplitl [HIr] <;> iassumption
  imodintro
  isplitl [Hl Hx Hown Hrecv Hscr HzS HzR]
  · isplitl [Hx]; · iexact Hx
    isplitl [Hown Hrecv]
    · iapply (out_join m c); isplitl [Hown] <;> iassumption
    isplitl [Hscr]
    · iapply (scr8_intro c); iexact Hscr
    · iapply (ownSems_intro (F := F) c)
      isplitl [Hl]; · iexact Hl
      isplitl [HzS] <;> iassumption
  isplitl [HO]
  · iexists W'
    isplitr; · ipureintro; exact fun _ _ => Or.inl trivial
    iexact HO
  · iempintro

set_option maxRecDepth 200000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  show bodyPre' m c ⊢ wp frame (wpE (defs₀ (F := F)) 𝒱₀ c none) Set.univ
    (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11)
    (fun _ => bodyPost m c)
  unfold bodyPre' Φ₀ start Dat.owesAt Pipeline.owesWithin
  rw [show (dats m 0 c).owed t0_0.castSucc = O₀ c from rfl]
  iintro ⟨⟨⟨⟨%κ, Hg⟩, H1, HN, Hlev⟩, Hl, Hx, Ho, Hscr⟩, ⟨%W, -, HO⟩, -⟩
  ihave HI := (show ghost m κ c ⊢ iprop(invs m κ c ∗ ghost m κ c) from by
    unfold ghost
    iintro ⟨#HI, Hr⟩
    isplitr; · iexact HI
    isplitr; · iexact HI
    iexact Hr) $$ Hg
  icases HI with ⟨#HI, Hg⟩
  ihave Hsp := (out_split m c) $$ Ho
  icases Hsp with ⟨Hown, Hbar⟩
  ihave Hh := (scr8_elim (F := F) c) $$ Hscr
  iapply (wp_fupd frame (wpE (defs₀ (F := F)) 𝒱₀ (c : Thread nD τ) none) Set.univ _ (fun _ => bodyPost m c))
  iapply (body_mid m κ c W (fun _ => iprop(|={Set.univ}=> bodyPost m c)))
  isplitr []
  · unfold midPre scrHalves
    isplitl [Hg]; · iexact Hg
    isplitl [H1]; · iexact H1
    isplitl [HN]; · iexact HN
    isplitl [Hlev]; · iexact Hlev
    isplitl [Hl]; · iexact Hl
    isplitl [Hx]; · iexact Hx
    isplitl [Hown]; · iexact Hown
    isplitl [Hbar]; · iexact Hbar
    isplitl [Hh]; · iexact Hh
    iexact HO
  · iintro Hpost
    iapply (body_end m κ c)
    isplitr; · iexact HI
    iexact Hpost

/-- info: 'Cert.Kernel.AG.body_end' depends on axioms: [propext, Classical.choice, Quot.sound] -/
#guard_msgs in #print axioms body_end

/-- info: 'Cert.Kernel.AG.body_obligation' depends on axioms: [propext, Classical.choice, Quot.sound] -/
#guard_msgs in #print axioms body_obligation

end Cert.Kernel.AG

end
-- ==== Proof.Kernel.Launch.lean ====
import proofs.«900671_g7700000000000672_dist_ag_v7x_xyz2x2x2_z_m32768_n1024_bf16_1_alg».proof.Proof.Kernel.Body
import proofs.«900671_g7700000000000672_dist_ag_v7x_xyz2x2x2_z_m32768_n1024_bf16_1_alg».proof.Proof.Gen.Kernel.Frame

/-!
# The launch: every device's body proved, the program runs

The launch element funds the partners' cells: per device its barrier cell, 32 send cells and 32 receive cells, one
duty token each. One global step allocates every cell's invariant from its counter at zero and deals the tokens to
the devices that pay them (a barrier or receive token goes to the partner). Each device then enters its one grid
point holding `Φ₀` and leaves it holding `Φ₁`, from which the final memory is read.
-/

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's payloads may be kept in an invariant -/

instance sched_payload_storable (g : GSem nD τ sig) (r : ℕ) (d : Unit) :
    BI.Storable (upEmb : UEmb _ 𝕄) ((sched (F := F) m).payload g r d) := by
  show BI.Storable upEmb (match g.2 with
    | .reg _ => barPayAt m g.1.1 (peer g.1.1)
    | .dma q =>
      if h : q.val < 40 then sendPay g.1.1 ((q.val - 8) % 6)
      else if h' : q.val - 40 < 32 then recvPayAt m g.1.1 (peer g.1.1) (q.val - 40) (1024 * (q.val - 40)) rfl h'
      else iprop(emp))
  split
  · unfold barPayAt; rw [chain32_eq_bigSep]; infer_instance
  · split
    · unfold sendPay; infer_instance
    · split
      · unfold recvPayAt; infer_instance
      · infer_instance

/-! ## The cells, indexed: per device the barrier cell, the 32 send cells, the 32 receive cells -/

theorem ownSemFacts : Pipeline.OwnSemFacts cfg0.spec osem := by decide

abbrev KI : Type := Unit ⊕ (Fin 32 ⊕ Fin 32)

abbrev csem : KI → SemLoc sig
  | .inl _ => .reg barS
  | .inr (.inl n) => .dma (sendSem n.val (semInb32 n.val n.isLt))
  | .inr (.inr n) => .dma (recvSem n.val (semInb32 n.val n.isLt))
abbrev kcell (ck : Dev nD × KI) : GSem nD τ sig := ((ck.1 : Thread nD τ), csem ck.2)

theorem csem_injective : Function.Injective csem := by
  rintro (a | a | a) (b | b | b) h
  · rfl
  · exact absurd h (fun h => by cases h)
  · exact absurd h (fun h => by cases h)
  · exact absurd h (fun h => by cases h)
  · have e := congrArg (fun q : DmaSem sig => q.val) (SemLoc.dma.inj h)
    dsimp only at e
    rw [sendSem_val _ a.isLt, sendSem_val _ b.isLt] at e
    exact congrArg _ (congrArg _ (Fin.ext (by omega)))
  · have e := congrArg (fun q : DmaSem sig => q.val) (SemLoc.dma.inj h)
    dsimp only at e
    rw [sendSem_val _ a.isLt, recvSem_val _ b.isLt] at e
    have := a.isLt; omega
  · exact absurd h (fun h => by cases h)
  · have e := congrArg (fun q : DmaSem sig => q.val) (SemLoc.dma.inj h)
    dsimp only at e
    rw [recvSem_val _ a.isLt, sendSem_val _ b.isLt] at e
    have := b.isLt; omega
  · have e := congrArg (fun q : DmaSem sig => q.val) (SemLoc.dma.inj h)
    dsimp only at e
    rw [recvSem_val _ a.isLt, recvSem_val _ b.isLt] at e
    exact congrArg _ (congrArg _ (Fin.ext (by omega)))

theorem kcell_injective : Function.Injective (kcell : Dev nD × KI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def agCells : Finset (GSem nD τ sig) := Finset.univ.map ⟨kcell, kcell_injective⟩

abbrev tokOf (ck : Dev nD × KI) : GSem nD τ sig × ℕ × Unit := (kcell ck, 0, ())
theorem tokOf_injective : Function.Injective (tokOf : Dev nD × KI → GSem nD τ sig × ℕ × Unit) :=
  fun a b h => kcell_injective (congrArg Prod.fst h)
def agToks : Finset (GSem nD τ sig × ℕ × Unit) := Finset.univ.map ⟨tokOf, tokOf_injective⟩

/-- The launch element: the pipeline library's (no staging cell), the partners' cells and tokens, no counter. -/
def u₀ : UU :=
  (initOf (Pipeline.cells cfgs cellOf_inj) (Pipeline.launchToks cfgs cellOf_inj), (initOf agCells agToks, 1))

/-- A family over one device's cells, cell by cell. -/
theorem bigSep_KI (Φ : KI → sProp 𝕄) :
    bigSep Finset.univ Φ = iprop(Φ (.inl ()) ∗ (chain32 fun n w hw hn => Φ (.inr (.inl ⟨n, hn⟩)))
      ∗ (chain32 fun n w hw hn => Φ (.inr (.inr ⟨n, hn⟩)))) := by
  rw [bigSep_univ_sum, bigSep_univ_sum, bigSep_univ_of_subsingleton (), chain32_eq_bigSep, chain32_eq_bigSep]
  rfl

/-- A family over the cells of the protocol, device by device. -/
theorem bigSep_agCells (Φ : GSem nD τ sig → sProp 𝕄) :
    bigSep agCells Φ = bigSep Finset.univ fun c : Dev nD => bigSep Finset.univ fun k : KI => Φ (kcell (c, k)) := by
  unfold agCells; rw [bigSep_map, bigSep_univ_prod]; rfl

/-- The duty tokens of device `c`'s own cells. -/
def toks (c : Dev nD) : sProp 𝕄 := bigSep Finset.univ fun k : KI => dutyTok ER (kcell (c, k)) 0 ()

/-- What the launch element deals device `c` (the theorem's `G`). -/
def G (c : Dev nD) : sProp 𝕄 :=
  iprop((bigSep Finset.univ fun k : KI => roundState ER (sched m) (kcell (c, k)) 0)
    ∗ (bigSep Finset.univ fun k : KI => atPos ER (kcell (c, k)) 0 ∅ 0)
    ∗ (bigSep Finset.univ fun k : KI => reached ER (kcell (c, k)) 0) ∗ toks c)

/-- What the global step makes of it (`G'`): the ghost state at some names, the eight local semaphores at zero. -/
def G' (c : Dev nD) : sProp 𝕄 := iprop((∃ κ, ghost m κ c) ∗ locSems c)

theorem fund_ag : BI.own (ER (initOf agCells agToks)) ⊢ (|==> bigSep Finset.univ (G m) : sProp 𝕄) := by
  have hT : bigSep agToks (fun x => (dutyTok ER x.1 x.2.1 x.2.2 : sProp 𝕄)) = bigSep Finset.univ fun c : Dev nD => toks c := by
    unfold agToks; rw [bigSep_map, bigSep_univ_prod]; rfl
  iintro HX
  imod (Rounds.fund ER (sched m) agCells agToks) $$ HX with ⟨Hst, Hr, Hat, Htok⟩
  imodintro
  ihave Hst' := (Entails.of_eq (bigSep_agCells fun g => roundState ER (sched m) g 0)) $$ Hst
  ihave Hat' := (Entails.of_eq (bigSep_agCells (F := F) fun g => atPos ER g 0 ∅ 0)) $$ Hat
  ihave Hr' := (Entails.of_eq (bigSep_agCells (F := F) fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ### The semaphores at zero, sorted -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The 72 DMA semaphores as the first eight, the next 32, the last 32. -/
def split72 : Fin 8 ⊕ (Fin 32 ⊕ Fin 32) ≃ Fin 72 :=
  (Equiv.sumCongr (Equiv.refl (Fin 8)) (finSumFinEquiv : Fin 32 ⊕ Fin 32 ≃ Fin (32 + 32))).trans
    (finSumFinEquiv : Fin 8 ⊕ Fin (32 + 32) ≃ Fin (8 + (32 + 32)))

theorem split72_lo (a : Fin 8) : (split72 (.inl a)).val = a.val := rfl
theorem split72_mid (a : Fin 32) : (split72 (.inr (.inl a))).val = 8 + a.val := rfl
theorem split72_hi (a : Fin 32) : (split72 (.inr (.inr a))).val = 40 + a.val := by
  show 8 + (32 + a.val) = 40 + a.val; omega

theorem bigSep_fin72 (Φ : Fin 72 → sProp 𝕄) :
    bigSep Finset.univ Φ = iprop((bigSep Finset.univ fun a : Fin 8 => Φ (split72 (.inl a)))
      ∗ (bigSep Finset.univ fun a : Fin 32 => Φ (split72 (.inr (.inl a))))
      ∗ (bigSep Finset.univ fun a : Fin 32 => Φ (split72 (.inr (.inr a))))) := by
  rw [bigSep_univ_equiv split72 Φ, bigSep_univ_sum, bigSep_univ_sum]
  rfl

theorem semVal_dma_congr (c : Dev nD) {q q' : DmaSem sig} (h : q.val = q'.val) :
    (semVal ((c : Thread nD τ), .dma q) 0 : sProp 𝕄) = semVal ((c : Thread nD τ), .dma q') 0 := by
  rw [Fin.ext h]

/-- The kernel's own semaphores at zero: the eight local ones, the send and the receive semaphores. -/
theorem ownSems0_split (c : Dev nD) :
    (Pipeline.ownSems0 (Ix := Unit) (Name := ℕ) (U := UU) (Lvl := ℕ) (Val := Elt F) (τ := τ) osem c : sProp 𝕄)
      = iprop(locSems c ∗ (chain32 fun n w hw hn => semVal (sendCell c n (semInb32 n hn)) 0)
          ∗ (chain32 fun n w hw hn => semVal (recvCell c n (semInb32 n hn)) 0)) := by
  unfold Pipeline.ownSems0
  rw [bigSep_fin72, chain32_eq_bigSep, chain32_eq_bigSep]
  refine congrArg₂ _ ?_ (congrArg₂ _ ?_ ?_)
  · rw [bigSep_univ_eq_bigSepL [0, 1, 2, 3, 4, 5, 6, 7] (by decide) (by decide)]
    unfold locSems
    simp only [bigSepL_cons_cons, bigSepL_singleton]
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    refine congrArg₂ _ (semVal_dma_congr c (by rw [split72_lo]; decide)) ?_
    exact semVal_dma_congr c (by rw [split72_lo]; decide)
  · exact bigSep_congr fun r _ => semVal_dma_congr c (by rw [split72_mid, sendSem_val _ r.isLt])
  · exact bigSep_congr fun r _ => semVal_dma_congr c (by rw [split72_hi, recvSem_val _ r.isLt])

theorem sems_split (c : Dev nD) :
    iprop(Pipeline.ownSems0 (Ix := Unit) (Name := ℕ) (U := UU) (Lvl := ℕ) (Val := Elt F) (τ := τ) osem c ∗ unscopedSems0 c)
      ⊢ iprop(locSems c ∗ bigSep Finset.univ fun k : KI => (semVal (kcell (c, k)) 0 : sProp 𝕄)) := by
  rw [ownSems0_split, unscopedSems0_eq, bigSep_KI]
  iintro ⟨⟨Hl, Hs, Hr⟩, Hb⟩
  isplitl [Hl]; · iexact Hl
  isplitl [Hb]; · iexact Hb
  isplitl [Hs] <;> iassumption

/-! ### The invariants allocated, the tokens dealt to their payers -/

/-- The persistent records of the launch: every cell's invariant under its name, round 0 of every cell reached. -/
def records (κ : GSem nD τ sig → ℕ) : sProp 𝕄 :=
  iprop((bigSep Finset.univ fun ck : Dev nD × KI => cellInv ER (sched m) (κ (kcell ck)) (kcell ck))
    ∗ bigSep Finset.univ fun ck : Dev nD × KI => reached ER (kcell ck) 0)

instance records_persistent (κ : GSem nD τ sig → ℕ) : BI.Persistent (records m κ) := by unfold records; infer_instance

theorem rec_inv (κ : GSem nD τ sig → ℕ) (ck : Dev nD × KI) :
    records m κ ⊢ cellInv ER (sched m) (κ (kcell ck)) (kcell ck) := by
  unfold records
  iintro ⟨HI, -⟩
  iapply (show (bigSep Finset.univ fun ck : Dev nD × KI => (cellInv ER (sched m) (κ (kcell ck)) (kcell ck) : sProp 𝕄))
    ⊢ cellInv ER (sched m) (κ (kcell ck)) (kcell ck) from bigSep_elim (Finset.mem_univ ck))
  iexact HI
theorem rec_reached (κ : GSem nD τ sig → ℕ) (ck : Dev nD × KI) : records m κ ⊢ reached ER (kcell ck) 0 := by
  unfold records
  iintro ⟨-, HR⟩
  iapply (show (bigSep Finset.univ fun ck : Dev nD × KI => (reached ER (kcell ck) 0 : sProp 𝕄)) ⊢ reached ER (kcell ck) 0
    from bigSep_elim (Finset.mem_univ ck))
  iexact HR

/-- A persistent assertion that yields each of the 32 members yields the chain. -/
theorem chain32_intro_persistent {R : sProp 𝕄} [BI.Persistent R] (Φ : (n w : ℕ) → w = 1024 * n → n < 32 → sProp 𝕄)
    (h : ∀ n w hw hn, R ⊢ Φ n w hw hn) : R ⊢ chain32 Φ := by
  rw [chain32_eq_bigSep]; exact BI.bigSep_intro_persistent fun r _ => h _ _ _ _

theorem rec_inv_send (κ : GSem nD τ sig → ℕ) (d : Dev nD) :
    records m κ ⊢ chain32 fun n w hw hn => cellInv ER (sched m) (κ (sendCell d n (semInb32 n hn))) (sendCell d n (semInb32 n hn)) :=
  chain32_intro_persistent _ fun n w hw hn => rec_inv m κ (d, .inr (.inl ⟨n, hn⟩))
theorem rec_inv_recv (κ : GSem nD τ sig → ℕ) (d : Dev nD) :
    records m κ ⊢ chain32 fun n w hw hn => cellInv ER (sched m) (κ (recvCell d n (semInb32 n hn))) (recvCell d n (semInb32 n hn)) :=
  chain32_intro_persistent _ fun n w hw hn => rec_inv m κ (d, .inr (.inr ⟨n, hn⟩))
theorem rec_reached_send (κ : GSem nD τ sig → ℕ) (d : Dev nD) :
    records m κ ⊢ chain32 fun n w hw hn => reached ER (sendCell d n (semInb32 n hn)) 0 :=
  chain32_intro_persistent _ fun n w hw hn => rec_reached m κ (d, .inr (.inl ⟨n, hn⟩))
theorem rec_reached_recv (κ : GSem nD τ sig → ℕ) (d : Dev nD) :
    records m κ ⊢ chain32 fun n w hw hn => reached ER (recvCell d n (semInb32 n hn)) 0 :=
  chain32_intro_persistent _ fun n w hw hn => rec_reached m κ (d, .inr (.inr ⟨n, hn⟩))

/-- The tokens of the duties device `c` pays: its partner's barrier duty, its own send duties, its partner's receive
    duties. -/
def payToks (c : Dev nD) : sProp 𝕄 :=
  iprop(dutyTok ER (barCell (peer c)) 0 () ∗ (chain32 fun n w hw hn => dutyTok ER (sendCell c n (semInb32 n hn)) 0 ())
    ∗ (chain32 fun n w hw hn => dutyTok ER (recvCell (peer c) n (semInb32 n hn)) 0 ()))
/-- What stays with device `c`: its positions, and those tokens. -/
def linear (c : Dev nD) : sProp 𝕄 :=
  iprop((bigSep Finset.univ fun k : KI => atPos ER (kcell (c, k)) 0 ∅ 0) ∗ payToks c)

theorem ghost_intro (κ : GSem nD τ sig → ℕ) (c : Dev nD) : iprop(records m κ ∗ linear c) ⊢ iprop(∃ κ, ghost m κ c) := by
  unfold linear payToks
  rw [bigSep_KI]
  iintro ⟨#HR, ⟨HaB, HaS, HaV⟩, HtB, HtS, HtV⟩
  iexists κ
  unfold ghost invs
  isplitr
  · isplitr; · iapply (rec_inv m κ (c, .inl ())); iexact HR
    isplitr; · iapply (rec_inv m κ (peer c, .inl ())); iexact HR
    isplitr; · iapply (rec_inv_send m κ c); iexact HR
    isplitr; · iapply (rec_inv_recv m κ c); iexact HR
    iapply (rec_inv_recv m κ (peer c)); iexact HR
  isplitl [HaB]; · iexact HaB
  isplitl [HaS]; · iexact HaS
  isplitl [HaV]; · iexact HaV
  isplitr; · iapply (rec_reached m κ (peer c, .inl ())); iexact HR
  isplitr; · iapply (rec_reached_send m κ c); iexact HR
  isplitr; · iapply (rec_reached_recv m κ (peer c)); iexact HR
  isplitl [HtB]; · iexact HtB
  isplitl [HtS]; · iexact HtS
  iexact HtV

def peerEquiv : Dev nD ≃ Dev nD := ⟨peer, peer, peer_peer, peer_peer⟩

/-- The tokens dealt to their payers: a barrier token and the receive tokens go to the partner. -/
theorem toks_around : (bigSep Finset.univ fun c : Dev nD => (toks c : sProp 𝕄)) ⊢ bigSep Finset.univ fun c : Dev nD => payToks c := by
  have e (c : Dev nD) : (toks c : sProp 𝕄) = iprop(dutyTok ER (barCell c) 0 ()
      ∗ (chain32 fun n w hw hn => dutyTok ER (sendCell c n (semInb32 n hn)) 0 ())
      ∗ (chain32 fun n w hw hn => dutyTok ER (recvCell c n (semInb32 n hn)) 0 ())) := by
    unfold toks; rw [bigSep_KI]
  rw [bigSep_congr fun c _ => e c]
  unfold payToks
  rw [bigSep_sep', bigSep_sep', bigSep_sep', bigSep_sep',
    bigSep_univ_equiv peerEquiv (fun c : Dev nD => (dutyTok ER (barCell c) 0 () : sProp 𝕄)),
    bigSep_univ_equiv peerEquiv (fun c : Dev nD => (chain32 fun n w hw hn => dutyTok ER (recvCell c n (semInb32 n hn)) 0 () : sProp 𝕄))]
  exact .rfl

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  -- per device: the cells' bodies from their counters and round states; the eight local counters set apart
  have h1 (c : Dev nD) (_ : c ∈ Finset.univ) :
      iprop(Pipeline.ownSems0 (Ix := Unit) (Name := ℕ) (U := UU) (Lvl := ℕ) (Val := Elt F) (τ := τ) osem c ∗ unscopedSems0 c ∗ G m c)
        ⊢ iprop((bigSep Finset.univ fun k : KI => body ER (sched m) (kcell (c, k)))
            ∗ (bigSep Finset.univ fun k : KI => reached ER (kcell (c, k)) 0)
            ∗ (bigSep Finset.univ fun k : KI => atPos ER (kcell (c, k)) 0 ∅ 0) ∗ toks c ∗ locSems c) := by
    unfold G
    iintro ⟨Hos, Hus, Hst, Hat, Hr, Htok⟩
    ihave Hv := (sems_split (F := F) c) $$ [Hos Hus]
    · isplitl [Hos] <;> iassumption
    icases Hv with ⟨Hl, Hv⟩
    isplitl [Hv Hst]
    · iapply (show iprop((bigSep Finset.univ fun k : KI => (semVal (kcell (c, k)) 0 : sProp 𝕄)) ∗ bigSep Finset.univ fun k : KI => roundState ER (sched m) (kcell (c, k)) 0)
          ⊢ bigSep Finset.univ fun k : KI => body ER (sched m) (kcell (c, k)) from by
        rw [← bigSep_sep']; exact bigSep_mono fun k _ => Rounds.body_intro ER (sched m) (kcell (c, k)))
      isplitl [Hv] <;> iassumption
    isplitl [Hr]; · iexact Hr
    isplitl [Hat]; · iexact Hat
    isplitl [Htok] <;> iassumption
  refine (bigSep_mono h1).trans (show _ ⊢ (_ : sProp 𝕄) from ?_)
  rw [bigSep_sep', bigSep_sep', bigSep_sep', bigSep_sep', ← bigSep_agCells (body ER (sched m)),
    ← bigSep_univ_prod (fun ck : Dev nD × KI => (reached ER (kcell ck) 0 : sProp 𝕄))]
  iintro ⟨Hb, #Hr, Hat, Htok, Hl⟩
  imod (inv_alloc_family agCells (body ER (sched m)) ∅) $$ Hb with ⟨%κ, -, HI⟩
  imodintro
  ihave HI' := (Entails.of_eq (bigSep_agCells fun g => cellInv ER (sched m) (κ g) g)) $$ HI
  ihave HI'' := (Entails.of_eq (bigSep_univ_prod (fun ck : Dev nD × KI => (cellInv ER (sched m) (κ (kcell ck)) (kcell ck) : sProp 𝕄))).symm) $$ HI'
  icases HI'' with #HI
  ihave Htk := (toks_around (F := F)) $$ Htok
  iapply (BI.bigSep_with_persistent (R := records m κ) (Φ := fun c : Dev nD => iprop(linear c ∗ locSems c)) fun c _ => show iprop(records m κ ∗ (linear c ∗ locSems c)) ⊢ G' m c from by
    unfold G'
    iintro ⟨#HR, Hlin, Hl⟩
    isplitl [Hlin]
    · iapply (ghost_intro m κ c); isplitr; · iexact HR
      iexact Hlin
    · iexact Hl)
  isplitr
  · unfold records; isplitl; · iexact HI
    iexact Hr
  · iapply (Entails.of_eq (bigSep_sep' Finset.univ (fun c : Dev nD => (linear c : sProp 𝕄)) (fun c : Dev nD => locSems c)).symm)
    isplitl [Hat Htk]
    · iapply (Entails.of_eq (bigSep_sep' Finset.univ (fun c : Dev nD => (bigSep Finset.univ fun k : KI => atPos ER (kcell (c, k)) 0 ∅ 0 : sProp 𝕄)) (fun c : Dev nD => payToks c)).symm)
      isplitl [Hat] <;> iassumption
    · iexact Hl

/-! ### The launch credit -/

/-- What the launch deals device `c` for what the others owe its cells: its barrier cell's unit, each receive cell's
    chunk credit (both owed by the partner). -/
theorem creds (c : Dev nD) :
    (Pipeline.launchCred O₀ c : sProp 𝕄) ⊢ iprop(cred (tallyAt (barCell c) () 1)
      ∗ chain32 fun n w hw hn => cred (tallyAt (recvCell c n (semInb32 n hn)) () NC)) := by
  have e : (Pipeline.launchCred O₀ c : sProp 𝕄)
      = iprop((bigSep (Finset.univ.filter fun r : Fin 32 => 0 ≤ r.val) fun r =>
            Pipeline.launchCred (fun d : Dev nD => tallyAt (recvCell (peer d) r.val (semInb32 r.val r.isLt)) () NC) c)
          ∗ Pipeline.launchCred (fun d : Dev nD => tallyAt (barCell (peer d)) () 1) c) := by
    rw [← Pipeline.launchCred_sum, ← Pipeline.launchCred_add]; rfl
  rw [e, chain32_eq_bigSep, Finset.filter_true_of_mem (fun r _ => Nat.zero_le _)]
  iintro ⟨HR, HB⟩
  isplitl [HB]
  · iapply (Pipeline.launchCred_tallyAt (SemLoc.reg barS) peer peer peer_peer peer_peer () 1 c); iexact HB
  · iapply (show (bigSep Finset.univ fun r : Fin 32 =>
          (Pipeline.launchCred (fun d : Dev nD => tallyAt (recvCell (peer d) r.val (semInb32 r.val r.isLt)) () NC) c : sProp 𝕄))
        ⊢ bigSep Finset.univ fun r : Fin 32 => cred (tallyAt (recvCell c r.val (semInb32 r.val r.isLt)) () NC) from
      bigSep_mono fun (r : Fin 32) _ =>
        Pipeline.launchCred_tallyAt (SemLoc.dma (recvSem r.val (semInb32 r.val r.isLt))) peer peer peer_peer peer_peer () NC c)
    iexact HR

/-! ### The theorem's side conditions -/

theorem L_of_ne (g : GSem nD τ sig) (h : g.1.2 ≠ .tc) : L g = ∅ := if_neg h

/-- A whole buffer held through its memref's view is the buffer held. -/
theorem held_x (c : Dev nD) (f : Buf (Elt F) ((c : Thread nD τ).loc main_arg0)) :
    held c xM f = (((c : Thread nD τ).loc main_arg0) ↦{fullShare} f : sProp 𝕄) := by
  show ((xM : Memref sig .tc .hbm S32768x1024 .f32).view.loc (c : Thread nD τ) ↦[(xM : Memref sig .tc .hbm S32768x1024 .f32).view.set]{fullShare} f : sProp 𝕄) = _
  rw [show (xM : Memref sig .tc .hbm S32768x1024 .f32).view.set = Finset.univ from View.set_whole _]
theorem held_o (c : Dev nD) (f : Buf (Elt F) ((c : Thread nD τ).loc main_v1)) :
    held c oM f = (((c : Thread nD τ).loc main_v1) ↦{fullShare} f : sProp 𝕄) := by
  show ((oM : Memref sig .tc .hbm S65536x1024 .bf16).view.loc (c : Thread nD τ) ↦[(oM : Memref sig .tc .hbm S65536x1024 .bf16).view.set]{fullShare} f : sProp 𝕄) = _
  rw [show (oM : Memref sig .tc .hbm S65536x1024 .bf16).view.set = Finset.univ from View.set_whole _]

/-- The eight staging buffers are the launch's scoped rest. -/
theorem scr8_eq (c : Dev nD) : (scr8 c : sProp 𝕄) = Pipeline.scopedRest cfg0.spec c := by
  rw [scopedRest0_eq]
  unfold scr8
  show iprop((∃ f, (fM 0).view.loc (c : Thread nD τ) ↦[(fM 0).view.set]{fullShare} f) ∗ (∃ f, (fM 1).view.loc (c : Thread nD τ) ↦[(fM 1).view.set]{fullShare} f)
    ∗ (∃ f, (bM 0).view.loc (c : Thread nD τ) ↦[(bM 0).view.set]{fullShare} f) ∗ (∃ f, (bM 1).view.loc (c : Thread nD τ) ↦[(bM 1).view.set]{fullShare} f)
    ∗ (∃ f, (bM 2).view.loc (c : Thread nD τ) ↦[(bM 2).view.set]{fullShare} f) ∗ (∃ f, (bM 3).view.loc (c : Thread nD τ) ↦[(bM 3).view.set]{fullShare} f)
    ∗ (∃ f, (bM 4).view.loc (c : Thread nD τ) ↦[(bM 4).view.set]{fullShare} f) ∗ (∃ f, (bM 5).view.loc (c : Thread nD τ) ↦[(bM 5).view.set]{fullShare} f)) = _
  rw [show (fM 0).view.set = Finset.univ from View.set_whole _, show (fM 1).view.set = Finset.univ from View.set_whole _,
    show (bM 0).view.set = Finset.univ from View.set_whole _, show (bM 1).view.set = Finset.univ from View.set_whole _,
    show (bM 2).view.set = Finset.univ from View.set_whole _, show (bM 3).view.set = Finset.univ from View.set_whole _,
    show (bM 4).view.set = Finset.univ from View.set_whole _, show (bM 5).view.set = Finset.univ from View.set_whole _]
  rfl

/-- What a device holds between the launch and its grid point, beside the scoped buffers. -/
def X (c : Dev nD) : sProp 𝕄 := iprop(start m c ∗ locSems c ∗ held c xM (X0 m c) ∗ held c oM (R0 m c))
/-- What it keeps after the point for the final read. -/
def Y (c : Dev nD) : sProp 𝕄 := iprop(held c xM (X0 m c) ∗ held c oM (outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold X G' start
  rw [held_x, held_o]
  iintro ⟨⟨Hx, Ho⟩, Hlev, Hcr, -, HG, Hl⟩
  ihave Hc := (creds (F := F) c) $$ Hcr
  icases Hc with ⟨H1, HN⟩
  imodintro
  isplitl
  · isplitl [HG H1 HN Hlev]
    · isplitl [HG]; · iexact HG
      isplitl [H1]; · iexact H1
      isplitl [HN]; · iexact HN
      iexact Hlev
    isplitl [Hl]; · iexact Hl
    isplitl [Hx] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scr8_eq]
  unfold Φ₀ X
  iintro ⟨⟨Hs, Hl, Hx, Ho⟩, -, Hr⟩
  isplitl [Hs]; · iexact Hs
  isplitl [Hl]; · iexact Hl
  isplitl [Hx]; · iexact Hx
  isplitl [Ho] <;> iassumption

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, ← scr8_eq]
  unfold Φ₁ Y
  iintro ⟨Hx, Ho, Hr, Hz⟩
  isplitl [Hx Ho]
  · isplitl [Hx] <;> iassumption
  isplitl [Hz] <;> iassumption

theorem waits (c : Dev nD) : (levAts L lv : sProp 𝕄) ⊢ Pipeline.cellsWaits cfgs (dats m) () 0 c :=
  Pipeline.cellsWaits_intro cfgs (dats m) () 0 c fun w => w.elim0

/-! ### The run -/

set_option maxRecDepth 8000 in
/-- At the compiled mesh of eight devices, for any float values, from any memory with zero counters: every weakly fair
    execution of @main terminates, and every final state has each device's result array at `outFinal` and its input
    half unchanged. -/
theorem run_main : θ_run defs (onTc (τ := τ) (main (F := F))) (s₀ m ρ) (fun r => ∀ c : Dev nD,
    r.2.mem ((c : Thread nD τ).loc main_v1) = outFinal m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HB, -⟩
      imod (fund_ag m) $$ HB with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = outFinal m c
      ∧ s.mem ((c : Thread nD τ).loc main_arg0) = m ((c : Thread nD τ).loc main_arg0))
    (hY := fun c s' => by
      unfold Y
      rw [held_x, held_o]
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.AG.run_main' depends on axioms: [propext, Classical.choice, Quot.sound] -/
#guard_msgs in #print axioms run_main

end Cert.Kernel.AG

end
-- ==== Proof.lean ====
/- The proof of `Cert.Claim`: the word-level kernel and its idealization run and leave their input halves unchanged
   (each device's body proved against the partners' protocol, the launch theorem), the reference runs, the ideal pass
   rewrote nothing, and at the ideal instance every device's final result array is the reference's result. -/
import proofs.«900671_g7700000000000672_dist_ag_v7x_xyz2x2x2_z_m32768_n1024_bf16_1_alg».proof.Defs
import proofs.«900671_g7700000000000672_dist_ag_v7x_xyz2x2x2_z_m32768_n1024_bf16_1_alg».proof.Proof.Gen.Kernel
import proofs.«900671_g7700000000000672_dist_ag_v7x_xyz2x2x2_z_m32768_n1024_bf16_1_alg».proof.Proof.Gen.KernelIdeal
import proofs.«900671_g7700000000000672_dist_ag_v7x_xyz2x2x2_z_m32768_n1024_bf16_1_alg».proof.Proof.Gen.ReferenceIdeal
import proofs.«900671_g7700000000000672_dist_ag_v7x_xyz2x2x2_z_m32768_n1024_bf16_1_alg».proof.Proof.Gen.ReferenceIdeal.Run
import proofs.«900671_g7700000000000672_dist_ag_v7x_xyz2x2x2_z_m32768_n1024_bf16_1_alg».proof.Proof.Gen.Pre_finite_inputs_Kernel
import proofs.«900671_g7700000000000672_dist_ag_v7x_xyz2x2x2_z_m32768_n1024_bf16_1_alg».proof.Proof.Gen.Pre_finite_inputs_ReferenceIdeal
import proofs.«900671_g7700000000000672_dist_ag_v7x_xyz2x2x2_z_m32768_n1024_bf16_1_alg».proof.Proof.KernelIdeal.Launch
import proofs.«900671_g7700000000000672_dist_ag_v7x_xyz2x2x2_z_m32768_n1024_bf16_1_alg».proof.Proof.KernelIdeal.Ref
import proofs.«900671_g7700000000000672_dist_ag_v7x_xyz2x2x2_z_m32768_n1024_bf16_1_alg».proof.Proof.Kernel.Launch

noncomputable section

namespace Cert.Proof

open Idealize.ShloMosaic Idealize.ShloMosaic.TcCoe Idealize.SL.Sem

/-- The word-level kernel runs and leaves its input halves unchanged. -/
theorem frame_p : Cert.frame_Kernel := fun m g _ =>
  (θ_run Cert.Kernel.defs _ _).mono (fun _ h c => (h c).2) (Cert.Kernel.AG.run_main (F := Bits) m g)

/-- The idealized kernel runs and leaves its input halves unchanged. -/
theorem frame_pi : Cert.frame_KernelIdeal := fun m g _ =>
  (θ_run Cert.KernelIdeal.defs _ _).mono (fun _ h c => (h c).2) (Cert.KernelIdeal.AG.run_main (F := Ideal) m g)

/-- The reference runs and leaves its argument unchanged. -/
theorem frame_ri : Cert.frame_ReferenceIdeal := fun m g _ =>
  (θ_run Cert.ReferenceIdeal.defs _ _).mono (fun _ h c => (h c).2) (Cert.ReferenceIdeal.Value.run (F := Ideal) m g)

/-- The ideal pass rewrote no operation. -/
theorem preserves : Cert.preserves_Kernel_KernelIdeal := trivial

/-- At the ideal instance every device's result array ends at the reference's result: the whole array, its format
    changed. -/
theorem algebraic : Cert.algebraic_KernelIdeal_ReferenceIdeal := by
  intro m g m' g' _ hagree
  refine ⟨_, (θ_run Cert.KernelIdeal.defs _ _).mono
      (fun _ h c => ⟨(h c).1.trans (Cert.KernelIdeal.AG.outFinal_eq_ref m m' hagree c), (h c).2⟩)
      (Cert.KernelIdeal.AG.run_main (F := Ideal) m g), ?_⟩
  exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, frame_ri, preserves, algebraic⟩

end Cert.Proof

end
